-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v150) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S2x320000 : Shape := ⟨2, ![2, 320000]⟩
abbrev S320000x64 : Shape := ⟨2, ![320000, 64]⟩
abbrev S20000 : Shape := ⟨1, ![20000]⟩
abbrev S128x256 : Shape := ⟨2, ![128, 256]⟩
abbrev S256 : Shape := ⟨1, ![256]⟩
abbrev S3x64x256 : Shape := ⟨3, ![3, 64, 256]⟩
abbrev S3x256 : Shape := ⟨2, ![3, 256]⟩
abbrev S3x256x256 : Shape := ⟨3, ![3, 256, 256]⟩
abbrev S256x256 : Shape := ⟨2, ![256, 256]⟩
abbrev S_ : Shape := ⟨0, ![]⟩
abbrev S1x320000 : Shape := ⟨2, ![1, 320000]⟩
abbrev S320000 : Shape := ⟨1, ![320000]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S320000x64 : S_.BroadcastsInDim S320000x64 (![] : Fin 0 → Fin S320000x64.rank)
  reducesTo_S320000x64_S_d0_1 : S320000x64.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S3x64x256 : S_.BroadcastsInDim S3x64x256 (![] : Fin 0 → Fin S3x64x256.rank)
  reducesTo_S3x64x256_S_d0_1_2 : S3x64x256.ReducesTo [0, 1, 2] S_
  bcast_S_S3x256 : S_.BroadcastsInDim S3x256 (![] : Fin 0 → Fin S3x256.rank)
  reducesTo_S3x256_S_d0_1 : S3x256.ReducesTo [0, 1] S_
  bcast_S_S3x256x256 : S_.BroadcastsInDim S3x256x256 (![] : Fin 0 → Fin S3x256x256.rank)
  reducesTo_S3x256x256_S_d0_1_2 : S3x256x256.ReducesTo [0, 1, 2] S_
  bcast_S_S256x256 : S_.BroadcastsInDim S256x256 (![] : Fin 0 → Fin S256x256.rank)
  reducesTo_S256x256_S_d0_1 : S256x256.ReducesTo [0, 1] S_
  slices_S2x320000_S1x320000_0_0 : S2x320000.Slices ![0, 0] S1x320000
  shapeCasts_S1x320000_S320000 : S1x320000.ShapeCasts S320000
  bcast_S_S320000 : S_.BroadcastsInDim S320000 (![] : Fin 0 → Fin S320000.rank)
  reducesTo_S320000_S_d0 : S320000.ReducesTo [0] S_

variable [Facts]

def fn_part4 {F : FTy → Type} [FloatOps F] (main_arg1 : IVec S2x320000 32) (main_v63 : IVec S_ 1) (main_v67 : IVec S_ 1) : IVec S_ 1 :=
  let main_v68 : IVec S_ 1 := andi main_v63 main_v67
  let main_v69 : IVec S1x320000 32 := (extractStridedSlice S1x320000 ![0, 0] · slices_S2x320000_S1x320000_0_0) main_arg1
  let main_v70 : IVec S320000 32 := shapeCast S320000 main_v69 shapeCasts_S1x320000_S320000
  let main_c_26 : IVec S_ 32 := constantI S_ 32 0#32
  let main_v71 : IVec S320000 32 := broadcastInDim S320000 ![] bcast_S_S320000 main_c_26
  let main_v72 : IVec S320000 1 := cmpi .sge main_v70 main_v71
  let main_v73 : IVec S1x320000 32 := (extractStridedSlice S1x320000 ![0, 0] · slices_S2x320000_S1x320000_0_0) main_arg1
  let main_v74 : IVec S320000 32 := shapeCast S320000 main_v73 shapeCasts_S1x320000_S320000
  let main_c_27 : IVec S_ 32 := constantI S_ 32 20000#32
  let main_v75 : IVec S320000 32 := broadcastInDim S320000 ![] bcast_S_S320000 main_c_27
  let main_v76 : IVec S320000 1 := cmpi .slt main_v74 main_v75
  let main_v77 : IVec S320000 1 := andi main_v72 main_v76
  let main_c_28 : IVec S_ 1 := constantI S_ 1 1#1
  let main_v78 : IVec S_ 1 := (fun x v => Host.reduce IntOp.andi x v reducesTo_S320000_S_d0 h_S_) main_v77 main_c_28
  let main_v79 : IVec S_ 1 := andi main_v68 main_v78
  main_v79

def fn_part3 {F : FTy → Type} [FloatOps F] (main_arg1 : IVec S2x320000 32) (main_arg13 : FVec F S256 .f32) (main_arg14 : FVec F S256x256 .f32) (main_arg15 : FVec F S256 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg13
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x256 .f32 := Host.absf main_arg14
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg15
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg1 main_v63 main_v67

def fn_part2 {F : FTy → Type} [FloatOps F] (main_arg1 : IVec S2x320000 32) (main_arg9 : FVec F S3x256 .f32) (main_arg10 : FVec F S3x256x256 .f32) (main_arg11 : FVec F S3x256 .f32) (main_arg12 : FVec F S256x256 .f32) (main_arg13 : FVec F S256 .f32) (main_arg14 : FVec F S256x256 .f32) (main_arg15 : FVec F S256 .f32) (main_v33 : IVec S_ 1) : IVec S_ 1 :=
  let main_v34 : FVec F S3x256 .f32 := Host.absf main_arg9
  let main_cst_12 : FVec F S_ .f32 := constant S_ .f32 0x7F800000#32
  let main_v35 : FVec F S3x256 .f32 := broadcastInDim S3x256 ![] bcast_S_S3x256 main_cst_12
  let main_v36 : IVec S3x256 1 := cmpf .olt main_v34 main_v35
  let main_c_13 : IVec S_ 1 := constantI S_ 1 1#1
  let main_v37 : IVec S_ 1 := (fun x v => Host.reduce IntOp.andi x v reducesTo_S3x256_S_d0_1 h_S_) main_v36 main_c_13
  let main_v38 : IVec S_ 1 := andi main_v33 main_v37
  let main_v39 : FVec F S3x256x256 .f32 := Host.absf main_arg10
  let main_cst_14 : FVec F S_ .f32 := constant S_ .f32 0x7F800000#32
  let main_v40 : FVec F S3x256x256 .f32 := broadcastInDim S3x256x256 ![] bcast_S_S3x256x256 main_cst_14
  let main_v41 : IVec S3x256x256 1 := cmpf .olt main_v39 main_v40
  let main_c_15 : IVec S_ 1 := constantI S_ 1 1#1
  let main_v42 : IVec S_ 1 := (fun x v => Host.reduce IntOp.andi x v reducesTo_S3x256x256_S_d0_1_2 h_S_) main_v41 main_c_15
  let main_v43 : IVec S_ 1 := andi main_v38 main_v42
  let main_v44 : FVec F S3x256 .f32 := Host.absf main_arg11
  let main_cst_16 : FVec F S_ .f32 := constant S_ .f32 0x7F800000#32
  let main_v45 : FVec F S3x256 .f32 := broadcastInDim S3x256 ![] bcast_S_S3x256 main_cst_16
  let main_v46 : IVec S3x256 1 := cmpf .olt main_v44 main_v45
  let main_c_17 : IVec S_ 1 := constantI S_ 1 1#1
  let main_v47 : IVec S_ 1 := (fun x v => Host.reduce IntOp.andi x v reducesTo_S3x256_S_d0_1 h_S_) main_v46 main_c_17
  let main_v48 : IVec S_ 1 := andi main_v43 main_v47
  let main_v49 : FVec F S256x256 .f32 := Host.absf main_arg12
  let main_cst_18 : FVec F S_ .f32 := constant S_ .f32 0x7F800000#32
  let main_v50 : FVec F S256x256 .f32 := broadcastInDim S256x256 ![] bcast_S_S256x256 main_cst_18
  fn_part3 (F := F) main_arg1 main_arg13 main_arg14 main_arg15 main_v48 main_v49 main_v50

def fn_part1 {F : FTy → Type} [FloatOps F] (main_arg1 : IVec S2x320000 32) (main_arg6 : FVec F S3x64x256 .f32) (main_arg7 : FVec F S3x256 .f32) (main_arg8 : FVec F S3x256x256 .f32) (main_arg9 : FVec F S3x256 .f32) (main_arg10 : FVec F S3x256x256 .f32) (main_arg11 : FVec F S3x256 .f32) (main_arg12 : FVec F S256x256 .f32) (main_arg13 : FVec F S256 .f32) (main_arg14 : FVec F S256x256 .f32) (main_arg15 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S3x64x256 .f32 := Host.absf main_arg6
  let main_cst_6 : FVec F S_ .f32 := constant S_ .f32 0x7F800000#32
  let main_v20 : FVec F S3x64x256 .f32 := broadcastInDim S3x64x256 ![] bcast_S_S3x64x256 main_cst_6
  let main_v21 : IVec S3x64x256 1 := cmpf .olt main_v19 main_v20
  let main_c_7 : IVec S_ 1 := constantI S_ 1 1#1
  let main_v22 : IVec S_ 1 := (fun x v => Host.reduce IntOp.andi x v reducesTo_S3x64x256_S_d0_1_2 h_S_) main_v21 main_c_7
  let main_v23 : IVec S_ 1 := andi main_v18 main_v22
  let main_v24 : FVec F S3x256 .f32 := Host.absf main_arg7
  let main_cst_8 : FVec F S_ .f32 := constant S_ .f32 0x7F800000#32
  let main_v25 : FVec F S3x256 .f32 := broadcastInDim S3x256 ![] bcast_S_S3x256 main_cst_8
  let main_v26 : IVec S3x256 1 := cmpf .olt main_v24 main_v25
  let main_c_9 : IVec S_ 1 := constantI S_ 1 1#1
  let main_v27 : IVec S_ 1 := (fun x v => Host.reduce IntOp.andi x v reducesTo_S3x256_S_d0_1 h_S_) main_v26 main_c_9
  let main_v28 : IVec S_ 1 := andi main_v23 main_v27
  let main_v29 : FVec F S3x256x256 .f32 := Host.absf main_arg8
  let main_cst_10 : FVec F S_ .f32 := constant S_ .f32 0x7F800000#32
  let main_v30 : FVec F S3x256x256 .f32 := broadcastInDim S3x256x256 ![] bcast_S_S3x256x256 main_cst_10
  let main_v31 : IVec S3x256x256 1 := cmpf .olt main_v29 main_v30
  let main_c_11 : IVec S_ 1 := constantI S_ 1 1#1
  let main_v32 : IVec S_ 1 := (fun x v => Host.reduce IntOp.andi x v reducesTo_S3x256x256_S_d0_1_2 h_S_) main_v31 main_c_11
  let main_v33 : IVec S_ 1 := andi main_v28 main_v32
  fn_part2 (F := F) main_arg1 main_arg9 main_arg10 main_arg11 main_arg12 main_arg13 main_arg14 main_arg15 main_v33

def fn {F : FTy → Type} [FloatOps F] (main_arg0 : FVec F S20000x128 .f32) (main_arg1 : IVec S2x320000 32) (main_arg2 : FVec F S320000x64 .f32) (main_arg3 : IVec S20000 32) (main_arg4 : FVec F S128x256 .f32) (main_arg5 : FVec F S256 .f32) (main_arg6 : FVec F S3x64x256 .f32) (main_arg7 : FVec F S3x256 .f32) (main_arg8 : FVec F S3x256x256 .f32) (main_arg9 : FVec F S3x256 .f32) (main_arg10 : FVec F S3x256x256 .f32) (main_arg11 : FVec F S3x256 .f32) (main_arg12 : FVec F S256x256 .f32) (main_arg13 : FVec F S256 .f32) (main_arg14 : FVec F S256x256 .f32) (main_arg15 : FVec F S256 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S320000x64 .f32 := Host.absf main_arg2
  let main_cst_0 : FVec F S_ .f32 := constant S_ .f32 0x7F800000#32
  let main_v5 : FVec F S320000x64 .f32 := broadcastInDim S320000x64 ![] bcast_S_S320000x64 main_cst_0
  let main_v6 : IVec S320000x64 1 := cmpf .olt main_v4 main_v5
  let main_c_1 : IVec S_ 1 := constantI S_ 1 1#1
  let main_v7 : IVec S_ 1 := (fun x v => Host.reduce IntOp.andi x v reducesTo_S320000x64_S_d0_1 h_S_) main_v6 main_c_1
  let main_v8 : IVec S_ 1 := andi main_v3 main_v7
  let main_v9 : FVec F S128x256 .f32 := Host.absf main_arg4
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_arg6 main_arg7 main_arg8 main_arg9 main_arg10 main_arg11 main_arg12 main_arg13 main_arg14 main_arg15 main_v13 main_v16
-- ==== Kernel.lean ====
abbrev S20000x128 : Shape := ⟨2, ![20000, 128]⟩
abbrev S2x320000 : Shape := ⟨2, ![2, 320000]⟩
abbrev S320000x64 : Shape := ⟨2, ![320000, 64]⟩
abbrev S20000 : Shape := ⟨1, ![20000]⟩
abbrev S128x256 : Shape := ⟨2, ![128, 256]⟩
abbrev S256 : Shape := ⟨1, ![256]⟩
abbrev S3x64x256 : Shape := ⟨3, ![3, 64, 256]⟩
abbrev S3x256 : Shape := ⟨2, ![3, 256]⟩
abbrev S3x256x256 : Shape := ⟨3, ![3, 256, 256]⟩
abbrev S256x256 : Shape := ⟨2, ![256, 256]⟩
abbrev S1x320000 : Shape := ⟨2, ![1, 320000]⟩
abbrev S320000 : Shape := ⟨1, ![320000]⟩
abbrev S1x256 : Shape := ⟨2, ![1, 256]⟩
abbrev S20000x256 : Shape := ⟨2, ![20000, 256]⟩
abbrev S2000x128 : Shape := ⟨2, ![2000, 128]⟩
abbrev S2000x256 : Shape := ⟨2, ![2000, 256]⟩
abbrev S_ : Shape := ⟨0, ![]⟩
abbrev S320000x1 : Shape := ⟨2, ![320000, 1]⟩
abbrev S1 : Shape := ⟨1, ![1]⟩
abbrev S1x1 : Shape := ⟨2, ![1, 1]⟩
abbrev S320000x256 : Shape := ⟨2, ![320000, 256]⟩
abbrev S1x64x256 : Shape := ⟨3, ![1, 64, 256]⟩
abbrev S64x256 : Shape := ⟨2, ![64, 256]⟩
abbrev S2000x64 : Shape := ⟨2, ![2000, 64]⟩
abbrev S1x256x256 : Shape := ⟨3, ![1, 256, 256]⟩
abbrev S20000x1 : Shape := ⟨2, ![20000, 1]⟩
abbrev S64 : Shape := ⟨1, ![64]⟩
abbrev S64x1 : Shape := ⟨2, ![64, 1]⟩

abbrev nBuf : Space → Nat
  | .hbm => 173
  | .vmem => 66
  | .smem => 0
  | _ => 0

abbrev hbmTy0_0 (i : Nat) : BufTy := match i % 128 with
  | 0 => ⟨S20000x128, .f32⟩
  | 1 => ⟨S2x320000, .i32⟩
  | 2 => ⟨S320000x64, .f32⟩
  | 3 => ⟨S20000, .i32⟩
  | 4 => ⟨S128x256, .f32⟩
  | 5 => ⟨S256, .f32⟩
  | 6 => ⟨S3x64x256, .f32⟩
  | 7 => ⟨S3x256, .f32⟩
  | 8 => ⟨S3x256x256, .f32⟩
  | 9 => ⟨S3x256, .f32⟩
  | 10 => ⟨S3x256x256, .f32⟩
  | 11 => ⟨S3x256, .f32⟩
  | 12 => ⟨S256x256, .f32⟩
  | 13 => ⟨S256, .f32⟩
  | 14 => ⟨S256x256, .f32⟩
  | 15 => ⟨S256, .f32⟩
  | 16 => ⟨S1x320000, .i32⟩
  | 17 => ⟨S320000, .i32⟩
  | 18 => ⟨S1x320000, .i32⟩
  | 19 => ⟨S320000, .i32⟩
  | 20 => ⟨S1x256, .f32⟩
  | 21 => ⟨S20000x256, .f32⟩
  | 22 => ⟨S_, .i32⟩
  | 23 => ⟨S320000, .i32⟩
  | 24 => ⟨S320000, .i1⟩
  | 25 => ⟨S_, .i32⟩
  | 26 => ⟨S320000, .i32⟩
  | 27 => ⟨S320000, .i32⟩
  | 28 => ⟨S320000, .i32⟩
  | 29 => ⟨S320000x1, .i32⟩
  | 30 => ⟨S1, .i32⟩
  | 31 => ⟨S_, .i32⟩
  | 32 => ⟨S320000x1, .i32⟩
  | 33 => ⟨S320000x1, .i1⟩
  | 34 => ⟨S1x1, .i32⟩
  | 35 => ⟨S320000x1, .i32⟩
  | 36 => ⟨S320000x1, .i1⟩
  | 37 => ⟨S320000x1, .i1⟩
  | 38 => ⟨S_, .i1⟩
  | 39 => ⟨S320000, .i1⟩
  | 40 => ⟨S320000x256, .f32⟩
  | 41 => ⟨S320000x256, .i1⟩
  | 42 => ⟨S_, .f32⟩
  | 43 => ⟨S320000x256, .f32⟩
  | 44 => ⟨S320000x256, .f32⟩
  | 45 => ⟨S1x64x256, .f32⟩
  | 46 => ⟨S64x256, .f32⟩
  | 47 => ⟨S1x256, .f32⟩
  | 48 => ⟨S256, .f32⟩
  | 49 => ⟨S1x256, .f32⟩
  | 50 => ⟨S320000x256, .f32⟩
  | 51 => ⟨S_, .f32⟩
  | 52 => ⟨S20000x256, .f32⟩
  | 53 => ⟨S320000x1, .i32⟩
  | 54 => ⟨S20000x256, .f32⟩
  | 55 => ⟨S1x256x256, .f32⟩
  | 56 => ⟨S256x256, .f32⟩
  | 57 => ⟨S1x256, .f32⟩
  | 58 => ⟨S256, .f32⟩
  | 59 => ⟨S1x256x256, .f32⟩
  | 60 => ⟨S256x256, .f32⟩
  | 61 => ⟨S1x256, .f32⟩
  | 62 => ⟨S256, .f32⟩
  | 63 => ⟨S1x256, .f32⟩
  | 64 => ⟨S1x256, .f32⟩
  | 65 => ⟨S20000x256, .f32⟩
  | 66 => ⟨S_, .i32⟩
  | 67 => ⟨S320000, .i32⟩
  | 68 => ⟨S320000, .i1⟩
  | 69 => ⟨S_, .i32⟩
  | 70 => ⟨S320000, .i32⟩
  | 71 => ⟨S320000, .i32⟩
  | 72 => ⟨S320000, .i32⟩
  | 73 => ⟨S320000x1, .i32⟩
  | 74 => ⟨S1, .i32⟩
  | 75 => ⟨S_, .i32⟩
  | 76 => ⟨S320000x1, .i32⟩
  | 77 => ⟨S320000x1, .i1⟩
  | 78 => ⟨S1x1, .i32⟩
  | 79 => ⟨S320000x1, .i32⟩
  | 80 => ⟨S320000x1, .i1⟩
  | 81 => ⟨S320000x1, .i1⟩
  | 82 => ⟨S_, .i1⟩
  | 83 => ⟨S320000, .i1⟩
  | 84 => ⟨S320000x256, .f32⟩
  | 85 => ⟨S320000x256, .i1⟩
  | 86 => ⟨S_, .f32⟩
  | 87 => ⟨S320000x256, .f32⟩
  | 88 => ⟨S320000x256, .f32⟩
  | 89 => ⟨S1x64x256, .f32⟩
  | 90 => ⟨S64x256, .f32⟩
  | 91 => ⟨S1x256, .f32⟩
  | 92 => ⟨S256, .f32⟩
  | 93 => ⟨S1x256, .f32⟩
  | 94 => ⟨S320000x256, .f32⟩
  | 95 => ⟨S_, .f32⟩
  | 96 => ⟨S20000x256, .f32⟩
  | 97 => ⟨S320000x1, .i32⟩
  | 98 => ⟨S20000x256, .f32⟩
  | 99 => ⟨S1x256x256, .f32⟩
  | 100 => ⟨S256x256, .f32⟩
  | 101 => ⟨S1x256, .f32⟩
  | 102 => ⟨S256, .f32⟩
  | 103 => ⟨S1x256x256, .f32⟩
  | 104 => ⟨S256x256, .f32⟩
  | 105 => ⟨S1x256, .f32⟩
  | 106 => ⟨S256, .f32⟩
  | 107 => ⟨S1x256, .f32⟩
  | 108 => ⟨S1x256, .f32⟩
  | 109 => ⟨S20000x256, .f32⟩
  | 110 => ⟨S_, .i32⟩
  | 111 => ⟨S320000, .i32⟩
  | 112 => ⟨S320000, .i1⟩
  | 113 => ⟨S_, .i32⟩
  | 114 => ⟨S320000, .i32⟩
  | 115 => ⟨S320000, .i32⟩
  | 116 => ⟨S320000, .i32⟩
  | 117 => ⟨S320000x1, .i32⟩
  | 118 => ⟨S1, .i32⟩
  | 119 => ⟨S_, .i32⟩
  | 120 => ⟨S320000x1, .i32⟩
  | 121 => ⟨S320000x1, .i1⟩
  | 122 => ⟨S1x1, .i32⟩
  | 123 => ⟨S320000x1, .i32⟩
  | 124 => ⟨S320000x1, .i1⟩
  | 125 => ⟨S320000x1, .i1⟩
  | 126 => ⟨S_, .i1⟩
  | 127 => ⟨S320000, .i1⟩
  | _ => ⟨S20000x128, .f32⟩

abbrev hbmTy0_1 (i : Nat) : BufTy := match i % 128 with
  | 0 => ⟨S320000x256, .f32⟩
  | 1 => ⟨S320000x256, .i1⟩
  | 2 => ⟨S_, .f32⟩
  | 3 => ⟨S320000x256, .f32⟩
  | 4 => ⟨S320000x256, .f32⟩
  | 5 => ⟨S1x64x256, .f32⟩
  | 6 => ⟨S64x256, .f32⟩
  | 7 => ⟨S1x256, .f32⟩
  | 8 => ⟨S256, .f32⟩
  | 9 => ⟨S1x256, .f32⟩
  | 10 => ⟨S320000x256, .f32⟩
  | 11 => ⟨S_, .f32⟩
  | 12 => ⟨S20000x256, .f32⟩
  | 13 => ⟨S320000x1, .i32⟩
  | 14 => ⟨S20000x256, .f32⟩
  | 15 => ⟨S1x256x256, .f32⟩
  | 16 => ⟨S256x256, .f32⟩
  | 17 => ⟨S1x256, .f32⟩
  | 18 => ⟨S256, .f32⟩
  | 19 => ⟨S1x256x256, .f32⟩
  | 20 => ⟨S256x256, .f32⟩
  | 21 => ⟨S1x256, .f32⟩
  | 22 => ⟨S256, .f32⟩
  | 23 => ⟨S1x256, .f32⟩
  | 24 => ⟨S1x256, .f32⟩
  | 25 => ⟨S20000x256, .f32⟩
  | 26 => ⟨S_, .f32⟩
  | 27 => ⟨S64x256, .f32⟩
  | 28 => ⟨S20000x1, .i32⟩
  | 29 => ⟨S64x256, .f32⟩
  | 30 => ⟨S_, .f32⟩
  | 31 => ⟨S20000, .f32⟩
  | 32 => ⟨S_, .f32⟩
  | 33 => ⟨S64, .f32⟩
  | 34 => ⟨S20000x1, .i32⟩
  | 35 => ⟨S64, .f32⟩
  | 36 => ⟨S_, .f32⟩
  | 37 => ⟨S64, .f32⟩
  | 38 => ⟨S64, .f32⟩
  | 39 => ⟨S64x1, .f32⟩
  | 40 => ⟨S64x256, .f32⟩
  | 41 => ⟨S64x256, .f32⟩
  | 42 => ⟨S1x256, .f32⟩
  | 43 => ⟨S1x256, .f32⟩
  | 44 => ⟨S64x256, .f32⟩
  | _ => ⟨S20000x128, .f32⟩

abbrev hbmTy (i : Nat) : BufTy := match i / 128 with
  | 0 => hbmTy0_0 i
  | 1 => hbmTy0_1 i
  | _ => ⟨S20000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S1x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x64, .f32⟩
  | .local _ .vmem, ⟨9, _⟩ => ⟨S2000x64, .f32⟩
  | .local _ .vmem, ⟨10, _⟩ => ⟨S64x256, .f32⟩
  | .local _ .vmem, ⟨11, _⟩ => ⟨S1x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S256x256, .f32⟩
  | .local _ .vmem, ⟨19, _⟩ => ⟨S1x256, .f32⟩
  | .local _ .vmem, ⟨20, _⟩ => ⟨S256x256, .f32⟩
  | .local _ .vmem, ⟨21, _⟩ => ⟨S1x256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S2000x64, .f32⟩
  | .local _ .vmem, ⟨27, _⟩ => ⟨S2000x64, .f32⟩
  | .local _ .vmem, ⟨28, _⟩ => ⟨S64x256, .f32⟩
  | .local _ .vmem, ⟨29, _⟩ => ⟨S1x256, .f32⟩
  | .local _ .vmem, ⟨30, _⟩ => ⟨S2000x256, .f32⟩
  | .local _ .vmem, ⟨31, _⟩ => ⟨S2000x256, .f32⟩
  | .local _ .vmem, ⟨32, _⟩ => ⟨S2000x256, .f32⟩
  | .local _ .vmem, ⟨33, _⟩ => ⟨S2000x256, .f32⟩
  | .local _ .vmem, ⟨34, _⟩ => ⟨S2000x256, .f32⟩
  | .local _ .vmem, ⟨35, _⟩ => ⟨S2000x256, .f32⟩
  | .local _ .vmem, ⟨36, _⟩ => ⟨S256x256, .f32⟩
  | .local _ .vmem, ⟨37, _⟩ => ⟨S1x256, .f32⟩
  | .local _ .vmem, ⟨38, _⟩ => ⟨S256x256, .f32⟩
  | .local _ .vmem, ⟨39, _⟩ => ⟨S1x256, .f32⟩
  | .local _ .vmem, ⟨40, _⟩ => ⟨S2000x256, .f32⟩
  | .local _ .vmem, ⟨41, _⟩ => ⟨S2000x256, .f32⟩
  | .local _ .vmem, ⟨42, _⟩ => ⟨S2000x256, .f32⟩
  | .local _ .vmem, ⟨43, _⟩ => ⟨S2000x256, .f32⟩
  | .local _ .vmem, ⟨44, _⟩ => ⟨S2000x64, .f32⟩
  | .local _ .vmem, ⟨45, _⟩ => ⟨S2000x64, .f32⟩
  | .local _ .vmem, ⟨46, _⟩ => ⟨S64x256, .f32⟩
  | .local _ .vmem, ⟨47, _⟩ => ⟨S1x256, .f32⟩
  | .local _ .vmem, ⟨48, _⟩ => ⟨S2000x256, .f32⟩
  | .local _ .vmem, ⟨49, _⟩ => ⟨S2000x256, .f32⟩
  | .local _ .vmem, ⟨50, _⟩ => ⟨S2000x256, .f32⟩
  | .local _ .vmem, ⟨51, _⟩ => ⟨S2000x256, .f32⟩
  | .local _ .vmem, ⟨52, _⟩ => ⟨S2000x256, .f32⟩
  | .local _ .vmem, ⟨53, _⟩ => ⟨S2000x256, .f32⟩
  | .local _ .vmem, ⟨54, _⟩ => ⟨S256x256, .f32⟩
  | .local _ .vmem, ⟨55, _⟩ => ⟨S1x256, .f32⟩
  | .local _ .vmem, ⟨56, _⟩ => ⟨S256x256, .f32⟩
  | .local _ .vmem, ⟨57, _⟩ => ⟨S1x256, .f32⟩
  | .local _ .vmem, ⟨58, _⟩ => ⟨S2000x256, .f32⟩
  | .local _ .vmem, ⟨59, _⟩ => ⟨S2000x256, .f32⟩
  | .local _ .vmem, ⟨60, _⟩ => ⟨S64x256, .f32⟩
  | .local _ .vmem, ⟨61, _⟩ => ⟨S256x256, .f32⟩
  | .local _ .vmem, ⟨62, _⟩ => ⟨S1x256, .f32⟩
  | .local _ .vmem, ⟨63, _⟩ => ⟨S256x256, .f32⟩
  | .local _ .vmem, ⟨64, _⟩ => ⟨S1x256, .f32⟩
  | .local _ .vmem, ⟨65, _⟩ => ⟨S64x256, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_call0_cst : Ref sig .tc := ⟨.hbm, 42, rfl⟩
abbrev main_call0_v15 : Ref sig .tc := ⟨.hbm, 43, rfl⟩
abbrev main_v6 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_cst : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_call1_c : Ref sig .tc := ⟨.hbm, 66, rfl⟩
abbrev main_call1_v0 : Ref sig .tc := ⟨.hbm, 67, rfl⟩
abbrev main_call1_v1 : Ref sig .tc := ⟨.hbm, 68, rfl⟩
abbrev main_call1_c_0 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_v5 : Ref sig .tc := ⟨.hbm, 73, rfl⟩
abbrev main_call1_c_1 : Ref sig .tc := ⟨.hbm, 74, rfl⟩
abbrev main_call1_c_2 : Ref sig .tc := ⟨.hbm, 75, rfl⟩
abbrev main_call1_v6 : Ref sig .tc := ⟨.hbm, 76, rfl⟩
abbrev main_call1_v7 : Ref sig .tc := ⟨.hbm, 77, rfl⟩
abbrev main_call1_v8 : Ref sig .tc := ⟨.hbm, 78, rfl⟩
abbrev main_call1_v9 : Ref sig .tc := ⟨.hbm, 79, rfl⟩
abbrev main_call1_v10 : Ref sig .tc := ⟨.hbm, 80, rfl⟩
abbrev main_call1_v11 : Ref sig .tc := ⟨.hbm, 81, rfl⟩
abbrev main_call1_c_3 : Ref sig .tc := ⟨.hbm, 82, rfl⟩
abbrev main_call1_v12 : Ref sig .tc := ⟨.hbm, 83, rfl⟩
abbrev main_call1_v13 : Ref sig .tc := ⟨.hbm, 84, rfl⟩
abbrev main_call1_v14 : Ref sig .tc := ⟨.hbm, 85, rfl⟩
abbrev main_call1_cst : Ref sig .tc := ⟨.hbm, 86, rfl⟩
abbrev main_call1_v15 : Ref sig .tc := ⟨.hbm, 87, rfl⟩
abbrev main_v27 : Ref sig .tc := ⟨.hbm, 88, rfl⟩
abbrev main_v28 : Ref sig .tc := ⟨.hbm, 89, rfl⟩
abbrev main_v29 : Ref sig .tc := ⟨.hbm, 90, rfl⟩
abbrev main_v30 : Ref sig .tc := ⟨.hbm, 91, rfl⟩
abbrev main_v31 : Ref sig .tc := ⟨.hbm, 92, rfl⟩
abbrev main_v32 : Ref sig .tc := ⟨.hbm, 93, rfl⟩
abbrev main_v33 : Ref sig .tc := ⟨.hbm, 94, rfl⟩
abbrev main_cst_0 : Ref sig .tc := ⟨.hbm, 95, rfl⟩
abbrev main_v34 : Ref sig .tc := ⟨.hbm, 96, rfl⟩
abbrev main_v35 : Ref sig .tc := ⟨.hbm, 97, rfl⟩
abbrev main_v36 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_call2_c : Ref sig .tc := ⟨.hbm, 110, rfl⟩
abbrev main_call2_v0 : Ref sig .tc := ⟨.hbm, 111, rfl⟩
abbrev main_call2_v1 : Ref sig .tc := ⟨.hbm, 112, rfl⟩
abbrev main_call2_c_0 : Ref sig .tc := ⟨.hbm, 113, rfl⟩
abbrev main_call2_v2 : Ref sig .tc := ⟨.hbm, 114, rfl⟩
abbrev main_call2_v3 : Ref sig .tc := ⟨.hbm, 115, rfl⟩
abbrev main_call2_v4 : Ref sig .tc := ⟨.hbm, 116, rfl⟩
abbrev main_call2_v5 : Ref sig .tc := ⟨.hbm, 117, rfl⟩
abbrev main_call2_c_1 : Ref sig .tc := ⟨.hbm, 118, rfl⟩
abbrev main_call2_c_2 : Ref sig .tc := ⟨.hbm, 119, rfl⟩
abbrev main_call2_v6 : Ref sig .tc := ⟨.hbm, 120, rfl⟩
abbrev main_call2_v7 : Ref sig .tc := ⟨.hbm, 121, rfl⟩
abbrev main_call2_v8 : Ref sig .tc := ⟨.hbm, 122, rfl⟩
abbrev main_call2_v9 : Ref sig .tc := ⟨.hbm, 123, rfl⟩
abbrev main_call2_v10 : Ref sig .tc := ⟨.hbm, 124, rfl⟩
abbrev main_call2_v11 : Ref sig .tc := ⟨.hbm, 125, rfl⟩
abbrev main_call2_c_3 : Ref sig .tc := ⟨.hbm, 126, rfl⟩
abbrev main_call2_v12 : Ref sig .tc := ⟨.hbm, 127, rfl⟩
abbrev main_call2_v13 : Ref sig .tc := ⟨.hbm, 128, rfl⟩
abbrev main_call2_v14 : Ref sig .tc := ⟨.hbm, 129, rfl⟩
abbrev main_call2_cst : Ref sig .tc := ⟨.hbm, 130, rfl⟩
abbrev main_call2_v15 : Ref sig .tc := ⟨.hbm, 131, rfl⟩
abbrev main_v48 : Ref sig .tc := ⟨.hbm, 132, rfl⟩
abbrev main_v49 : Ref sig .tc := ⟨.hbm, 133, rfl⟩
abbrev main_v50 : Ref sig .tc := ⟨.hbm, 134, rfl⟩
abbrev main_v51 : Ref sig .tc := ⟨.hbm, 135, rfl⟩
abbrev main_v52 : Ref sig .tc := ⟨.hbm, 136, rfl⟩
abbrev main_v53 : Ref sig .tc := ⟨.hbm, 137, rfl⟩
abbrev main_v54 : Ref sig .tc := ⟨.hbm, 138, rfl⟩
abbrev main_cst_1 : Ref sig .tc := ⟨.hbm, 139, rfl⟩
abbrev main_v55 : Ref sig .tc := ⟨.hbm, 140, rfl⟩
abbrev main_v56 : Ref sig .tc := ⟨.hbm, 141, rfl⟩
abbrev main_v57 : Ref sig .tc := ⟨.hbm, 142, rfl⟩
abbrev main_v58 : Ref sig .tc := ⟨.hbm, 143, rfl⟩
abbrev main_v59 : Ref sig .tc := ⟨.hbm, 144, rfl⟩
abbrev main_v60 : Ref sig .tc := ⟨.hbm, 145, rfl⟩
abbrev main_v61 : Ref sig .tc := ⟨.hbm, 146, rfl⟩
abbrev main_v62 : Ref sig .tc := ⟨.hbm, 147, rfl⟩
abbrev main_v63 : Ref sig .tc := ⟨.hbm, 148, rfl⟩
abbrev main_v64 : Ref sig .tc := ⟨.hbm, 149, rfl⟩
abbrev main_v65 : Ref sig .tc := ⟨.hbm, 150, rfl⟩
abbrev main_v66 : Ref sig .tc := ⟨.hbm, 151, rfl⟩
abbrev main_v67 : Ref sig .tc := ⟨.hbm, 152, rfl⟩
abbrev main_v68 : Ref sig .tc := ⟨.hbm, 153, rfl⟩
abbrev main_cst_2 : Ref sig .tc := ⟨.hbm, 154, rfl⟩
abbrev main_v69 : Ref sig .tc := ⟨.hbm, 155, rfl⟩
abbrev main_v70 : Ref sig .tc := ⟨.hbm, 156, rfl⟩
abbrev main_v71 : Ref sig .tc := ⟨.hbm, 157, rfl⟩
abbrev main_cst_3 : Ref sig .tc := ⟨.hbm, 158, rfl⟩
abbrev main_v72 : Ref sig .tc := ⟨.hbm, 159, rfl⟩
abbrev main_cst_4 : Ref sig .tc := ⟨.hbm, 160, rfl⟩
abbrev main_v73 : Ref sig .tc := ⟨.hbm, 161, rfl⟩
abbrev main_v74 : Ref sig .tc := ⟨.hbm, 162, rfl⟩
abbrev main_v75 : Ref sig .tc := ⟨.hbm, 163, rfl⟩
abbrev main_cst_5 : Ref sig .tc := ⟨.hbm, 164, rfl⟩
abbrev main_v76 : Ref sig .tc := ⟨.hbm, 165, rfl⟩
abbrev main_v77 : Ref sig .tc := ⟨.hbm, 166, rfl⟩
abbrev main_v78 : Ref sig .tc := ⟨.hbm, 167, rfl⟩
abbrev main_v79 : Ref sig .tc := ⟨.hbm, 168, rfl⟩
abbrev main_v80 : Ref sig .tc := ⟨.hbm, 169, rfl⟩
abbrev main_v81 : Ref sig .tc := ⟨.hbm, 170, rfl⟩
abbrev main_v82 : Ref sig .tc := ⟨.hbm, 171, rfl⟩
abbrev main_v83 : Ref sig .tc := ⟨.hbm, 172, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg6_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg5_0 : Ref sig .tc := ⟨.vmem, 39, rfl⟩
abbrev cc4_stg6_0 : Ref sig .tc := ⟨.vmem, 40, rfl⟩
abbrev cc4_stg6_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg1_1 : Ref sig .tc := ⟨.vmem, 45, rfl⟩
abbrev cc5_stg2_0 : Ref sig .tc := ⟨.vmem, 46, rfl⟩
abbrev cc5_stg3_0 : Ref sig .tc := ⟨.vmem, 47, rfl⟩
abbrev cc5_stg4_0 : Ref sig .tc := ⟨.vmem, 48, rfl⟩
abbrev cc5_stg4_1 : Ref sig .tc := ⟨.vmem, 49, rfl⟩
abbrev cc6_stg0_0 : Ref sig .tc := ⟨.vmem, 50, rfl⟩
abbrev cc6_stg0_1 : Ref sig .tc := ⟨.vmem, 51, rfl⟩
abbrev cc6_stg1_0 : Ref sig .tc := ⟨.vmem, 52, rfl⟩
abbrev cc6_stg1_1 : Ref sig .tc := ⟨.vmem, 53, rfl⟩
abbrev cc6_stg2_0 : Ref sig .tc := ⟨.vmem, 54, rfl⟩
abbrev cc6_stg3_0 : Ref sig .tc := ⟨.vmem, 55, rfl⟩
abbrev cc6_stg4_0 : Ref sig .tc := ⟨.vmem, 56, rfl⟩
abbrev cc6_stg5_0 : Ref sig .tc := ⟨.vmem, 57, rfl⟩
abbrev cc6_stg6_0 : Ref sig .tc := ⟨.vmem, 58, rfl⟩
abbrev cc6_stg6_1 : Ref sig .tc := ⟨.vmem, 59, rfl⟩
abbrev cc7_stg0_0 : Ref sig .tc := ⟨.vmem, 60, rfl⟩
abbrev cc7_stg1_0 : Ref sig .tc := ⟨.vmem, 61, rfl⟩
abbrev cc7_stg2_0 : Ref sig .tc := ⟨.vmem, 62, rfl⟩
abbrev cc7_stg3_0 : Ref sig .tc := ⟨.vmem, 63, rfl⟩
abbrev cc7_stg4_0 : Ref sig .tc := ⟨.vmem, 64, rfl⟩
abbrev cc7_stg5_0 : Ref sig .tc := ⟨.vmem, 65, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem6_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem4_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc4_sem4_0 : DmaSem sig := 38
abbrev cc4_sem5_0 : DmaSem sig := 39
abbrev cc4_sem6_0 : DmaSem sig := 40
abbrev cc4_sem6_1 : DmaSem sig := 41
abbrev cc5_sem0_0 : DmaSem sig := 42
abbrev cc5_sem0_1 : DmaSem sig := 43
abbrev cc5_sem1_0 : DmaSem sig := 44
abbrev cc5_sem1_1 : DmaSem sig := 45
abbrev cc5_sem2_0 : DmaSem sig := 46
abbrev cc5_sem3_0 : DmaSem sig := 47
abbrev cc5_sem4_0 : DmaSem sig := 48
abbrev cc5_sem4_1 : DmaSem sig := 49
abbrev cc6_sem0_0 : DmaSem sig := 50
abbrev cc6_sem0_1 : DmaSem sig := 51
abbrev cc6_sem1_0 : DmaSem sig := 52
abbrev cc6_sem1_1 : DmaSem sig := 53
abbrev cc6_sem2_0 : DmaSem sig := 54
abbrev cc6_sem3_0 : DmaSem sig := 55
abbrev cc6_sem4_0 : DmaSem sig := 56
abbrev cc6_sem5_0 : DmaSem sig := 57
abbrev cc6_sem6_0 : DmaSem sig := 58
abbrev cc6_sem6_1 : DmaSem sig := 59
abbrev cc7_sem0_0 : DmaSem sig := 60
abbrev cc7_sem1_0 : DmaSem sig := 61
abbrev cc7_sem2_0 : DmaSem sig := 62
abbrev cc7_sem3_0 : DmaSem sig := 63
abbrev cc7_sem4_0 : DmaSem sig := 64
abbrev cc7_sem5_0 : DmaSem sig := 65

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![160], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![160], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S256x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x256 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![160], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x256 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x256 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S256x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S256x256 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x256 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S2000x256 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 1 → Memref sig .tc .vmem S64x256 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 1 → Memref sig .tc .vmem S256x256 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S256x256 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x256 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S64x256 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  reducesTo_S320000x1_S320000_d1 : S320000x1.ReducesTo [1] S320000
  h_S_ : 0 < S_.numel
  bcast_S320000_S320000x256_0 : S320000.BroadcastsInDim S320000x256 (![0] : Fin 1 → Fin S320000x256.rank)
  bcast_S_S320000x256 : S_.BroadcastsInDim S320000x256 (![] : Fin 0 → Fin S320000x256.rank)
  slices_S3x64x256_S1x64x256_0_0_0 : S3x64x256.Slices ![0, 0, 0] S1x64x256
  shapeCasts_S1x64x256_S64x256 : S1x64x256.ShapeCasts S64x256
  slices_S3x256_S1x256_0_0 : S3x256.Slices ![0, 0] S1x256
  shapeCasts_S1x256_S256 : S1x256.ShapeCasts S256
  inb_S2000x64_S2000x64_0_0 : ∀ a, (![0, 0] : Fin 2 → Nat) a + S2000x64.size a ≤ S2000x64.size a
  h_S2000x64 : 0 < S2000x64.numel
  inb_S64x256_S64x256_0_0 : ∀ a, (![0, 0] : Fin 2 → Nat) a + S64x256.size a ≤ S64x256.size a
  h_S64x256 : 0 < S64x256.numel
  shapeCasts_S64x256_S64x256 : S64x256.ShapeCasts S64x256
  shapeCasts_S2000x256_S2000x256 : S2000x256.ShapeCasts S2000x256
  bcast_S_S20000x256 : S_.BroadcastsInDim S20000x256 (![] : Fin 0 → Fin S20000x256.rank)
  slices_S3x256x256_S1x256x256_0_0_0 : S3x256x256.Slices ![0, 0, 0] S1x256x256
  shapeCasts_S1x256x256_S256x256 : S1x256x256.ShapeCasts S256x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S3x64x256_S1x64x256_1_0_0 : S3x64x256.Slices ![1, 0, 0] S1x64x256
  slices_S3x256_S1x256_1_0 : S3x256.Slices ![1, 0] S1x256
  slices_S3x256x256_S1x256x256_1_0_0 : S3x256x256.Slices ![1, 0, 0] S1x256x256
  slices_S3x64x256_S1x64x256_2_0_0 : S3x64x256.Slices ![2, 0, 0] S1x64x256
  slices_S3x256_S1x256_2_0 : S3x256.Slices ![2, 0] S1x256
  slices_S3x256x256_S1x256x256_2_0_0 : S3x256x256.Slices ![2, 0, 0] S1x256x256
  bcast_S_S64x256 : S_.BroadcastsInDim S64x256 (![] : Fin 0 → Fin S64x256.rank)
  bcast_S20000_S20000x1_0 : S20000.BroadcastsInDim S20000x1 (![0] : Fin 1 → Fin S20000x1.rank)
  bcast_S_S20000 : S_.BroadcastsInDim S20000 (![] : Fin 0 → Fin S20000.rank)
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  broadcasts_S1x256_S64x256 : S1x256.Broadcasts S64x256
  reduces_S64x256_S64 : S64x256.Reduces [1] S64
  shapeCasts_S64_S64x1 : S64.ShapeCasts S64x1
  broadcasts_S64x1_S64x256 : S64x1.Broadcasts S64x256
  dot_S2000x128_S128x256_S2000x256_1_0_0_1_n_n_wf : DotDims.WF S2000x128 S128x256 S2000x256 [1] [0] [0] [1] [] []
  gather_S20000x256_S320000x1_S320000x256_1_0_n_n_0_1_1256_wf : GatherDims.WF S20000x256 S320000x1 S320000x256 [1] [0] [] [0] [] 1 ![1, 256]
  dot_S2000x64_S64x256_S2000x256_1_0_0_1_n_n_wf : DotDims.WF S2000x64 S64x256 S2000x256 [1] [0] [0] [1] [] []
  scatter_S20000x256_S320000x1_S320000x256_1_0_0_1_wf : ScatterDims.WF S20000x256 S320000x1 S320000x256 [1] [0] [0] 1
  dot_S2000x256_S256x256_S2000x256_1_0_0_1_n_n_wf : DotDims.WF S2000x256 S256x256 S2000x256 [1] [0] [0] [1] [] []
  scatter_S64x256_S20000x1_S20000x256_1_0_0_1_wf : ScatterDims.WF S64x256 S20000x1 S20000x256 [1] [0] [0] 1
  scatter_S64_S20000x1_S20000_n_0_0_1_wf : ScatterDims.WF S64 S20000x1 S20000 [] [0] [0] 1
  dot_S64x256_S256x256_S64x256_1_0_0_1_n_n_wf : DotDims.WF S64x256 S256x256 S64x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S20000x128.size a
  hwx0_0 : ∀ i : grid0.Coords, EltTy.bits .f32 = 32 ∨ (Rect.block (s := S20000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S20000x256.size a
  hwx0_3 : ∀ i : grid0.Coords, EltTy.bits .f32 = 32 ∨ (Rect.block (s := S20000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S320000x256.size a
  hwx1_0 : ∀ i : grid1.Coords, EltTy.bits .f32 = 32 ∨ (Rect.block (s := S320000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S320000x64.size a
  hwx1_1 : ∀ i : grid1.Coords, EltTy.bits .f32 = 32 ∨ (Rect.block (s := S320000x64) S2000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x256.size a ≤ S64x256.size a
  hwx1_2 : ∀ i : grid1.Coords, EltTy.bits .f32 = 32 ∨ (Rect.block (s := S64x256) S64x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S320000x256.size a
  hwx1_4 : ∀ i : grid1.Coords, EltTy.bits .f32 = 32 ∨ (Rect.block (s := S320000x256) S2000x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S20000x256.size a
  hwx2_0 : ∀ i : grid2.Coords, EltTy.bits .f32 = 32 ∨ (Rect.block (s := S20000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S20000x256.size a
  hwx2_1 : ∀ i : grid2.Coords, EltTy.bits .f32 = 32 ∨ (Rect.block (s := S20000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x256.size a ≤ S20000x256.size a
  hwx2_6 : ∀ i : grid2.Coords, EltTy.bits .f32 = 32 ∨ (Rect.block (s := S20000x256) S2000x256.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S320000x256.size a
  hwx3_0 : ∀ i : grid3.Coords, EltTy.bits .f32 = 32 ∨ (Rect.block (s := S320000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S320000x64.size a
  hwx3_1 : ∀ i : grid3.Coords, EltTy.bits .f32 = 32 ∨ (Rect.block (s := S320000x64) S2000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x256.size a ≤ S64x256.size a
  hwx3_2 : ∀ i : grid3.Coords, EltTy.bits .f32 = 32 ∨ (Rect.block (s := S64x256) S64x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x256.size a ≤ S320000x256.size a
  hwx3_4 : ∀ i : grid3.Coords, EltTy.bits .f32 = 32 ∨ (Rect.block (s := S320000x256) S2000x256.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S20000x256.size a
  hwx4_0 : ∀ i : grid4.Coords, EltTy.bits .f32 = 32 ∨ (Rect.block (s := S20000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x256.size a ≤ S20000x256.size a
  hwx4_1 : ∀ i : grid4.Coords, EltTy.bits .f32 = 32 ∨ (Rect.block (s := S20000x256) S2000x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x256.size a ≤ S256x256.size a
  hwx4_2 : ∀ i : grid4.Coords, EltTy.bits .f32 = 32 ∨ (Rect.block (s := S256x256) S256x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S256x256.size a ≤ S256x256.size a
  hwx4_4 : ∀ i : grid4.Coords, EltTy.bits .f32 = 32 ∨ (Rect.block (s := S256x256) S256x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x256.size a ≤ S1x256.size a
  hwx4_5 : ∀ i : grid4.Coords, EltTy.bits .f32 = 32 ∨ (Rect.block (s := S1x256) S1x256.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x256.size a ≤ S20000x256.size a
  hwx4_6 : ∀ i : grid4.Coords, EltTy.bits .f32 = 32 ∨ (Rect.block (s := S20000x256) S2000x256.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S320000x256.size a
  hwx5_0 : ∀ i : grid5.Coords, EltTy.bits .f32 = 32 ∨ (Rect.block (s := S320000x256) S2000x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x64.size a ≤ S320000x64.size a
  hwx5_1 : ∀ i : grid5.Coords, EltTy.bits .f32 = 32 ∨ (Rect.block (s := S320000x64) S2000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x256.size a ≤ S64x256.size a
  hwx5_2 : ∀ i : grid5.Coords, EltTy.bits .f32 = 32 ∨ (Rect.block (s := S64x256) S64x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x256.size a ≤ S320000x256.size a
  hwx5_4 : ∀ i : grid5.Coords, EltTy.bits .f32 = 32 ∨ (Rect.block (s := S320000x256) S2000x256.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x256.size a ≤ S20000x256.size a
  hwx6_0 : ∀ i : grid6.Coords, EltTy.bits .f32 = 32 ∨ (Rect.block (s := S20000x256) S2000x256.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x256.size a ≤ S20000x256.size a
  hwx6_1 : ∀ i : grid6.Coords, EltTy.bits .f32 = 32 ∨ (Rect.block (s := S20000x256) S2000x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S256x256.size a ≤ S256x256.size a
  hwx6_2 : ∀ i : grid6.Coords, EltTy.bits .f32 = 32 ∨ (Rect.block (s := S256x256) S256x256.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x256.size a ≤ S1x256.size a
  hwx6_3 : ∀ i : grid6.Coords, EltTy.bits .f32 = 32 ∨ (Rect.block (s := S1x256) S1x256.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S256x256.size a ≤ S256x256.size a
  hwx6_4 : ∀ i : grid6.Coords, EltTy.bits .f32 = 32 ∨ (Rect.block (s := S256x256) S256x256.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x256.size a ≤ S1x256.size a
  hwx6_5 : ∀ i : grid6.Coords, EltTy.bits .f32 = 32 ∨ (Rect.block (s := S1x256) S1x256.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S2000x256.size a ≤ S20000x256.size a
  hwx6_6 : ∀ i : grid6.Coords, EltTy.bits .f32 = 32 ∨ (Rect.block (s := S20000x256) S2000x256.size (cc6_transform_6 i) (hinb6_6 i)).WholeWords (EltTy.packing .f32)
  hrank7 : 0 < grid7.rank
  hstage7_0 : ∀ j, (stage7_0 j).IsWhole
  nbuf7_0 : grid7.bufCount reads7_0 true = 1
  hreads7_0 : ∀ i i' : grid7.Coords, (∀ a, reads7_0 a = true → i a = i' a) → cc7_transform_0 i = cc7_transform_0 i'
  hinb7_0 : ∀ (i : grid7.Coords) a, (cc7_transform_0 i a + 1) * S64x256.size a ≤ S64x256.size a
  hwx7_0 : ∀ i : grid7.Coords, EltTy.bits .f32 = 32 ∨ (Rect.block (s := S64x256) S64x256.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S256x256.size a ≤ S256x256.size a
  hwx7_1 : ∀ i : grid7.Coords, EltTy.bits .f32 = 32 ∨ (Rect.block (s := S256x256) S256x256.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x256.size a ≤ S1x256.size a
  hwx7_2 : ∀ i : grid7.Coords, EltTy.bits .f32 = 32 ∨ (Rect.block (s := S1x256) S1x256.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S256x256.size a ≤ S256x256.size a
  hwx7_3 : ∀ i : grid7.Coords, EltTy.bits .f32 = 32 ∨ (Rect.block (s := S256x256) S256x256.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x256.size a ≤ S1x256.size a
  hwx7_4 : ∀ i : grid7.Coords, EltTy.bits .f32 = 32 ∨ (Rect.block (s := S1x256) S1x256.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S64x256.size a ≤ S64x256.size a
  hwx7_5 : ∀ i : grid7.Coords, EltTy.bits .f32 = 32 ∨ (Rect.block (s := S64x256) S64x256.size (cc7_transform_5 i) (hinb7_5 i)).WholeWords (EltTy.packing .f32)

variable [Facts₀]

def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def dot_S2000x64_S64x256_S2000x256_1_0_0_1_n_n : DotDims S2000x64 S64x256 S2000x256 where
  lhsContracting := [1]
  rhsContracting := [0]
  lhsNonContracting := [0]
  rhsNonContracting := [1]
  lhsBatch := []
  rhsBatch := []
  wf := dot_S2000x64_S64x256_S2000x256_1_0_0_1_n_n_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def scatter_S64x256_S20000x1_S20000x256_1_0_0_1 : ScatterDims S64x256 S20000x1 S20000x256 where
  updateWindowDims := [1]
  insertedWindowDims := [0]
  scatterDimsToOperandDims := [0]
  indexVectorDim := 1
  wf := scatter_S64x256_S20000x1_S20000x256_1_0_0_1_wf
def scatter_S64_S20000x1_S20000_n_0_0_1 : ScatterDims S64 S20000x1 S20000 where
  updateWindowDims := []
  insertedWindowDims := [0]
  scatterDimsToOperandDims := [0]
  indexVectorDim := 1
  wf := scatter_S64_S20000x1_S20000_n_0_0_1_wf
def dot_S64x256_S256x256_S64x256_1_0_0_1_n_n : DotDims S64x256 S256x256 S64x256 where
  lhsContracting := [1]
  rhsContracting := [0]
  lhsNonContracting := [0]
  rhsNonContracting := [1]
  lhsBatch := []
  rhsBatch := []
  wf := dot_S64x256_S256x256_S64x256_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S64x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S2000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v5) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v17) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v24) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v21) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v25) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v26) S2000x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v27) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg2) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v29) S64x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v32) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v33) S2000x256.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v26) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v36) S2000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v38) S256x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v45) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v42) S256x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v46) S1x256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v47) S2000x256.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v48) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg2) S2000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v50) S64x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v53) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v54) S2000x256.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v47) S2000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v57) S2000x256.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v59) S256x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v66) S1x256.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v63) S256x256.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v67) S1x256.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v68) S2000x256.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v80) S64x256.size cc7_transform_0 reads7_0 false true 1 stage7_0 sem7_0
    hrank7 hreads7_0 hinb7_0 nbuf7_0 (Memref.isWhole_whole _) hwx7_0 hstage7_0

abbrev win7_1 : Pipeline.Window sig grid7 :=
  Pipeline.Window.ofSpec (Memref.whole main_arg12) S256x256.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v81) S1x256.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg14) S256x256.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v82) S1x256.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v83) S64x256.size cc7_transform_5 reads7_5 true true 1 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S20000x128 : Shape := ⟨2, ![20000, 128]⟩
abbrev S2x320000 : Shape := ⟨2, ![2, 320000]⟩
abbrev S320000x64 : Shape := ⟨2, ![320000, 64]⟩
abbrev S20000 : Shape := ⟨1, ![20000]⟩
abbrev S128x256 : Shape := ⟨2, ![128, 256]⟩
abbrev S256 : Shape := ⟨1, ![256]⟩
abbrev S3x64x256 : Shape := ⟨3, ![3, 64, 256]⟩
abbrev S3x256 : Shape := ⟨2, ![3, 256]⟩
abbrev S3x256x256 : Shape := ⟨3, ![3, 256, 256]⟩
abbrev S256x256 : Shape := ⟨2, ![256, 256]⟩
abbrev S1x320000 : Shape := ⟨2, ![1, 320000]⟩
abbrev S320000 : Shape := ⟨1, ![320000]⟩
abbrev S20000x256 : Shape := ⟨2, ![20000, 256]⟩
abbrev S1x256 : Shape := ⟨2, ![1, 256]⟩
abbrev S_ : Shape := ⟨0, ![]⟩
abbrev S320000x1 : Shape := ⟨2, ![320000, 1]⟩
abbrev S320000x256 : Shape := ⟨2, ![320000, 256]⟩
abbrev S1x64x256 : Shape := ⟨3, ![1, 64, 256]⟩
abbrev S64x256 : Shape := ⟨2, ![64, 256]⟩
abbrev S1x256x256 : Shape := ⟨3, ![1, 256, 256]⟩
abbrev S20000x1 : Shape := ⟨2, ![20000, 1]⟩
abbrev S64 : Shape := ⟨1, ![64]⟩
abbrev S64x1 : Shape := ⟨2, ![64, 1]⟩

abbrev nBuf : Space → Nat
  | .hbm => 205
  | .vmem => 0
  | .smem => 0
  | _ => 0

abbrev hbmTy0_0 (i : Nat) : BufTy := match i % 128 with
  | 0 => ⟨S20000x128, .f32⟩
  | 1 => ⟨S2x320000, .i32⟩
  | 2 => ⟨S320000x64, .f32⟩
  | 3 => ⟨S20000, .i32⟩
  | 4 => ⟨S128x256, .f32⟩
  | 5 => ⟨S256, .f32⟩
  | 6 => ⟨S3x64x256, .f32⟩
  | 7 => ⟨S3x256, .f32⟩
  | 8 => ⟨S3x256x256, .f32⟩
  | 9 => ⟨S3x256, .f32⟩
  | 10 => ⟨S3x256x256, .f32⟩
  | 11 => ⟨S3x256, .f32⟩
  | 12 => ⟨S256x256, .f32⟩
  | 13 => ⟨S256, .f32⟩
  | 14 => ⟨S256x256, .f32⟩
  | 15 => ⟨S256, .f32⟩
  | 16 => ⟨S1x320000, .i32⟩
  | 17 => ⟨S320000, .i32⟩
  | 18 => ⟨S1x320000, .i32⟩
  | 19 => ⟨S320000, .i32⟩
  | 20 => ⟨S20000x256, .f32⟩
  | 21 => ⟨S1x256, .f32⟩
  | 22 => ⟨S20000x256, .f32⟩
  | 23 => ⟨S20000x256, .f32⟩
  | 24 => ⟨S_, .i32⟩
  | 25 => ⟨S320000, .i32⟩
  | 26 => ⟨S320000, .i1⟩
  | 27 => ⟨S_, .i32⟩
  | 28 => ⟨S320000, .i32⟩
  | 29 => ⟨S320000, .i32⟩
  | 30 => ⟨S320000, .i32⟩
  | 31 => ⟨S320000x1, .i32⟩
  | 32 => ⟨S320000x256, .f32⟩
  | 33 => ⟨S1x64x256, .f32⟩
  | 34 => ⟨S64x256, .f32⟩
  | 35 => ⟨S320000x256, .f32⟩
  | 36 => ⟨S320000x256, .f32⟩
  | 37 => ⟨S1x256, .f32⟩
  | 38 => ⟨S256, .f32⟩
  | 39 => ⟨S1x256, .f32⟩
  | 40 => ⟨S320000x256, .f32⟩
  | 41 => ⟨S320000x256, .f32⟩
  | 42 => ⟨S_, .f32⟩
  | 43 => ⟨S320000x256, .f32⟩
  | 44 => ⟨S320000x256, .f32⟩
  | 45 => ⟨S_, .f32⟩
  | 46 => ⟨S20000x256, .f32⟩
  | 47 => ⟨S320000x1, .i32⟩
  | 48 => ⟨S20000x256, .f32⟩
  | 49 => ⟨S20000x256, .f32⟩
  | 50 => ⟨S1x256x256, .f32⟩
  | 51 => ⟨S256x256, .f32⟩
  | 52 => ⟨S20000x256, .f32⟩
  | 53 => ⟨S1x256, .f32⟩
  | 54 => ⟨S256, .f32⟩
  | 55 => ⟨S1x256, .f32⟩
  | 56 => ⟨S20000x256, .f32⟩
  | 57 => ⟨S20000x256, .f32⟩
  | 58 => ⟨S_, .f32⟩
  | 59 => ⟨S20000x256, .f32⟩
  | 60 => ⟨S20000x256, .f32⟩
  | 61 => ⟨S1x256x256, .f32⟩
  | 62 => ⟨S256x256, .f32⟩
  | 63 => ⟨S20000x256, .f32⟩
  | 64 => ⟨S1x256, .f32⟩
  | 65 => ⟨S256, .f32⟩
  | 66 => ⟨S1x256, .f32⟩
  | 67 => ⟨S20000x256, .f32⟩
  | 68 => ⟨S20000x256, .f32⟩
  | 69 => ⟨S_, .f32⟩
  | 70 => ⟨S20000x256, .f32⟩
  | 71 => ⟨S20000x256, .f32⟩
  | 72 => ⟨S_, .i32⟩
  | 73 => ⟨S320000, .i32⟩
  | 74 => ⟨S320000, .i1⟩
  | 75 => ⟨S_, .i32⟩
  | 76 => ⟨S320000, .i32⟩
  | 77 => ⟨S320000, .i32⟩
  | 78 => ⟨S320000, .i32⟩
  | 79 => ⟨S320000x1, .i32⟩
  | 80 => ⟨S320000x256, .f32⟩
  | 81 => ⟨S1x64x256, .f32⟩
  | 82 => ⟨S64x256, .f32⟩
  | 83 => ⟨S320000x256, .f32⟩
  | 84 => ⟨S320000x256, .f32⟩
  | 85 => ⟨S1x256, .f32⟩
  | 86 => ⟨S256, .f32⟩
  | 87 => ⟨S1x256, .f32⟩
  | 88 => ⟨S320000x256, .f32⟩
  | 89 => ⟨S320000x256, .f32⟩
  | 90 => ⟨S_, .f32⟩
  | 91 => ⟨S320000x256, .f32⟩
  | 92 => ⟨S320000x256, .f32⟩
  | 93 => ⟨S_, .f32⟩
  | 94 => ⟨S20000x256, .f32⟩
  | 95 => ⟨S320000x1, .i32⟩
  | 96 => ⟨S20000x256, .f32⟩
  | 97 => ⟨S20000x256, .f32⟩
  | 98 => ⟨S1x256x256, .f32⟩
  | 99 => ⟨S256x256, .f32⟩
  | 100 => ⟨S20000x256, .f32⟩
  | 101 => ⟨S1x256, .f32⟩
  | 102 => ⟨S256, .f32⟩
  | 103 => ⟨S1x256, .f32⟩
  | 104 => ⟨S20000x256, .f32⟩
  | 105 => ⟨S20000x256, .f32⟩
  | 106 => ⟨S_, .f32⟩
  | 107 => ⟨S20000x256, .f32⟩
  | 108 => ⟨S20000x256, .f32⟩
  | 109 => ⟨S1x256x256, .f32⟩
  | 110 => ⟨S256x256, .f32⟩
  | 111 => ⟨S20000x256, .f32⟩
  | 112 => ⟨S1x256, .f32⟩
  | 113 => ⟨S256, .f32⟩
  | 114 => ⟨S1x256, .f32⟩
  | 115 => ⟨S20000x256, .f32⟩
  | 116 => ⟨S20000x256, .f32⟩
  | 117 => ⟨S_, .f32⟩
  | 118 => ⟨S20000x256, .f32⟩
  | 119 => ⟨S20000x256, .f32⟩
  | 120 => ⟨S_, .i32⟩
  | 121 => ⟨S320000, .i32⟩
  | 122 => ⟨S320000, .i1⟩
  | 123 => ⟨S_, .i32⟩
  | 124 => ⟨S320000, .i32⟩
  | 125 => ⟨S320000, .i32⟩
  | 126 => ⟨S320000, .i32⟩
  | 127 => ⟨S320000x1, .i32⟩
  | _ => ⟨S20000x128, .f32⟩

abbrev hbmTy0_1 (i : Nat) : BufTy := match i % 128 with
  | 0 => ⟨S320000x256, .f32⟩
  | 1 => ⟨S1x64x256, .f32⟩
  | 2 => ⟨S64x256, .f32⟩
  | 3 => ⟨S320000x256, .f32⟩
  | 4 => ⟨S320000x256, .f32⟩
  | 5 => ⟨S1x256, .f32⟩
  | 6 => ⟨S256, .f32⟩
  | 7 => ⟨S1x256, .f32⟩
  | 8 => ⟨S320000x256, .f32⟩
  | 9 => ⟨S320000x256, .f32⟩
  | 10 => ⟨S_, .f32⟩
  | 11 => ⟨S320000x256, .f32⟩
  | 12 => ⟨S320000x256, .f32⟩
  | 13 => ⟨S_, .f32⟩
  | 14 => ⟨S20000x256, .f32⟩
  | 15 => ⟨S320000x1, .i32⟩
  | 16 => ⟨S20000x256, .f32⟩
  | 17 => ⟨S20000x256, .f32⟩
  | 18 => ⟨S1x256x256, .f32⟩
  | 19 => ⟨S256x256, .f32⟩
  | 20 => ⟨S20000x256, .f32⟩
  | 21 => ⟨S1x256, .f32⟩
  | 22 => ⟨S256, .f32⟩
  | 23 => ⟨S1x256, .f32⟩
  | 24 => ⟨S20000x256, .f32⟩
  | 25 => ⟨S20000x256, .f32⟩
  | 26 => ⟨S_, .f32⟩
  | 27 => ⟨S20000x256, .f32⟩
  | 28 => ⟨S20000x256, .f32⟩
  | 29 => ⟨S1x256x256, .f32⟩
  | 30 => ⟨S256x256, .f32⟩
  | 31 => ⟨S20000x256, .f32⟩
  | 32 => ⟨S1x256, .f32⟩
  | 33 => ⟨S256, .f32⟩
  | 34 => ⟨S1x256, .f32⟩
  | 35 => ⟨S20000x256, .f32⟩
  | 36 => ⟨S20000x256, .f32⟩
  | 37 => ⟨S_, .f32⟩
  | 38 => ⟨S20000x256, .f32⟩
  | 39 => ⟨S20000x256, .f32⟩
  | 40 => ⟨S_, .f32⟩
  | 41 => ⟨S64x256, .f32⟩
  | 42 => ⟨S20000x1, .i32⟩
  | 43 => ⟨S64x256, .f32⟩
  | 44 => ⟨S_, .f32⟩
  | 45 => ⟨S20000, .f32⟩
  | 46 => ⟨S_, .f32⟩
  | 47 => ⟨S64, .f32⟩
  | 48 => ⟨S20000x1, .i32⟩
  | 49 => ⟨S64, .f32⟩
  | 50 => ⟨S_, .f32⟩
  | 51 => ⟨S64, .f32⟩
  | 52 => ⟨S64, .f32⟩
  | 53 => ⟨S64x1, .f32⟩
  | 54 => ⟨S64x256, .f32⟩
  | 55 => ⟨S64x256, .f32⟩
  | 56 => ⟨S64x256, .f32⟩
  | 57 => ⟨S1x256, .f32⟩
  | 58 => ⟨S64x256, .f32⟩
  | 59 => ⟨S64x256, .f32⟩
  | 60 => ⟨S_, .f32⟩
  | 61 => ⟨S64x256, .f32⟩
  | 62 => ⟨S64x256, .f32⟩
  | 63 => ⟨S64x256, .f32⟩
  | 64 => ⟨S1x256, .f32⟩
  | 65 => ⟨S64x256, .f32⟩
  | 66 => ⟨S64x256, .f32⟩
  | 67 => ⟨S64x256, .f32⟩
  | 68 => ⟨S_, .f32⟩
  | 69 => ⟨S64, .f32⟩
  | 70 => ⟨S64x1, .f32⟩
  | 71 => ⟨S64x1, .f32⟩
  | 72 => ⟨S_, .f32⟩
  | 73 => ⟨S64x1, .f32⟩
  | 74 => ⟨S64x1, .f32⟩
  | 75 => ⟨S64x256, .f32⟩
  | 76 => ⟨S64x256, .f32⟩
  | _ => ⟨S20000x128, .f32⟩

abbrev hbmTy (i : Nat) : BufTy := match i / 128 with
  | 0 => hbmTy0_0 i
  | 1 => hbmTy0_1 i
  | _ => ⟨S20000x128, .f32⟩

abbrev bufTy : (tb : Table) → Fin (tcTables nBuf tb) → BufTy
  | .hbm, ⟨i, _⟩ => hbmTy i
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_v9 : Ref sig .tc := ⟨.hbm, 26, rfl⟩
abbrev main_c_0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_call0_cst : Ref sig .tc := ⟨.hbm, 42, rfl⟩
abbrev main_call0_v0 : Ref sig .tc := ⟨.hbm, 43, rfl⟩
abbrev main_v24 : Ref sig .tc := ⟨.hbm, 44, rfl⟩
abbrev main_cst : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_call1_cst : Ref sig .tc := ⟨.hbm, 58, rfl⟩
abbrev main_call1_v0 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_call2_cst : Ref sig .tc := ⟨.hbm, 69, rfl⟩
abbrev main_call2_v0 : Ref sig .tc := ⟨.hbm, 70, rfl⟩
abbrev main_v46 : Ref sig .tc := ⟨.hbm, 71, rfl⟩
abbrev main_c_1 : Ref sig .tc := ⟨.hbm, 72, rfl⟩
abbrev main_v47 : Ref sig .tc := ⟨.hbm, 73, rfl⟩
abbrev main_v48 : Ref sig .tc := ⟨.hbm, 74, rfl⟩
abbrev main_c_2 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_call3_cst : Ref sig .tc := ⟨.hbm, 90, rfl⟩
abbrev main_call3_v0 : Ref sig .tc := ⟨.hbm, 91, rfl⟩
abbrev main_v63 : Ref sig .tc := ⟨.hbm, 92, rfl⟩
abbrev main_cst_3 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_call4_cst : Ref sig .tc := ⟨.hbm, 106, rfl⟩
abbrev main_call4_v0 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_call5_cst : Ref sig .tc := ⟨.hbm, 117, rfl⟩
abbrev main_call5_v0 : Ref sig .tc := ⟨.hbm, 118, rfl⟩
abbrev main_v85 : Ref sig .tc := ⟨.hbm, 119, rfl⟩
abbrev main_c_4 : Ref sig .tc := ⟨.hbm, 120, rfl⟩
abbrev main_v86 : Ref sig .tc := ⟨.hbm, 121, rfl⟩
abbrev main_v87 : Ref sig .tc := ⟨.hbm, 122, rfl⟩
abbrev main_c_5 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_call6_cst : Ref sig .tc := ⟨.hbm, 138, rfl⟩
abbrev main_call6_v0 : Ref sig .tc := ⟨.hbm, 139, rfl⟩
abbrev main_v102 : Ref sig .tc := ⟨.hbm, 140, rfl⟩
abbrev main_cst_6 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_call7_cst : Ref sig .tc := ⟨.hbm, 154, rfl⟩
abbrev main_call7_v0 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_call8_cst : Ref sig .tc := ⟨.hbm, 165, rfl⟩
abbrev main_call8_v0 : Ref sig .tc := ⟨.hbm, 166, rfl⟩
abbrev main_v124 : Ref sig .tc := ⟨.hbm, 167, rfl⟩
abbrev main_cst_7 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_cst_8 : Ref sig .tc := ⟨.hbm, 172, rfl⟩
abbrev main_v128 : Ref sig .tc := ⟨.hbm, 173, rfl⟩
abbrev main_cst_9 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_cst_10 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_call9_cst : Ref sig .tc := ⟨.hbm, 188, rfl⟩
abbrev main_call9_v0 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_call10_v0 : Ref sig .tc := ⟨.hbm, 195, rfl⟩
abbrev main_call10_cst : Ref sig .tc := ⟨.hbm, 196, rfl⟩
abbrev main_call10_v1 : Ref sig .tc := ⟨.hbm, 197, rfl⟩
abbrev main_call10_v2 : Ref sig .tc := ⟨.hbm, 198, rfl⟩
abbrev main_v146 : Ref sig .tc := ⟨.hbm, 199, rfl⟩
abbrev main_cst_11 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  bcast_S_S320000 : S_.BroadcastsInDim S320000 (![] : Fin 0 → Fin S320000.rank)
  bcast_S320000_S320000x1_0 : S320000.BroadcastsInDim S320000x1 (![0] : Fin 1 → Fin S320000x1.rank)
  slices_S3x64x256_S1x64x256_0_0_0 : S3x64x256.Slices ![0, 0, 0] S1x64x256
  shapeCasts_S1x64x256_S64x256 : S1x64x256.ShapeCasts S64x256
  slices_S3x256_S1x256_0_0 : S3x256.Slices ![0, 0] S1x256
  shapeCasts_S1x256_S256 : S1x256.ShapeCasts S256
  bcast_S1x256_S320000x256_0_1 : S1x256.BroadcastsInDim S320000x256 (![0, 1] : Fin 2 → Fin S320000x256.rank)
  bcast_S_S320000x256 : S_.BroadcastsInDim S320000x256 (![] : Fin 0 → Fin S320000x256.rank)
  bcast_S_S20000x256 : S_.BroadcastsInDim S20000x256 (![] : Fin 0 → Fin S20000x256.rank)
  slices_S3x256x256_S1x256x256_0_0_0 : S3x256x256.Slices ![0, 0, 0] S1x256x256
  shapeCasts_S1x256x256_S256x256 : S1x256x256.ShapeCasts S256x256
  slices_S3x64x256_S1x64x256_1_0_0 : S3x64x256.Slices ![1, 0, 0] S1x64x256
  slices_S3x256_S1x256_1_0 : S3x256.Slices ![1, 0] S1x256
  slices_S3x256x256_S1x256x256_1_0_0 : S3x256x256.Slices ![1, 0, 0] S1x256x256
  slices_S3x64x256_S1x64x256_2_0_0 : S3x64x256.Slices ![2, 0, 0] S1x64x256
  slices_S3x256_S1x256_2_0 : S3x256.Slices ![2, 0] S1x256
  slices_S3x256x256_S1x256x256_2_0_0 : S3x256x256.Slices ![2, 0, 0] S1x256x256
  bcast_S_S64x256 : S_.BroadcastsInDim S64x256 (![] : Fin 0 → Fin S64x256.rank)
  bcast_S20000_S20000x1_0 : S20000.BroadcastsInDim S20000x1 (![0] : Fin 1 → Fin S20000x1.rank)
  bcast_S_S20000 : S_.BroadcastsInDim S20000 (![] : Fin 0 → Fin S20000.rank)
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  bcast_S1x256_S64x256_0_1 : S1x256.BroadcastsInDim S64x256 (![0, 1] : Fin 2 → Fin S64x256.rank)
  reducesTo_S64x256_S64_d1 : S64x256.ReducesTo [1] S64
  h_S_ : 0 < S_.numel
  bcast_S_S64x1 : S_.BroadcastsInDim S64x1 (![] : Fin 0 → Fin S64x1.rank)
  dot_S20000x128_S128x256_S20000x256_1_0_0_1_n_n_wf : DotDims.WF S20000x128 S128x256 S20000x256 [1] [0] [0] [1] [] []
  gather_S20000x256_S320000x1_S320000x256_1_0_n_n_0_1_1256_wf : GatherDims.WF S20000x256 S320000x1 S320000x256 [1] [0] [] [0] [] 1 ![1, 256]
  dot_S320000x64_S64x256_S320000x256_1_0_0_1_n_n_wf : DotDims.WF S320000x64 S64x256 S320000x256 [1] [0] [0] [1] [] []
  scatter_S20000x256_S320000x1_S320000x256_1_0_0_1_wf : ScatterDims.WF S20000x256 S320000x1 S320000x256 [1] [0] [0] 1
  dot_S20000x256_S256x256_S20000x256_1_0_0_1_n_n_wf : DotDims.WF S20000x256 S256x256 S20000x256 [1] [0] [0] [1] [] []
  scatter_S64x256_S20000x1_S20000x256_1_0_0_1_wf : ScatterDims.WF S64x256 S20000x1 S20000x256 [1] [0] [0] 1
  scatter_S64_S20000x1_S20000_n_0_0_1_wf : ScatterDims.WF S64 S20000x1 S20000 [] [0] [0] 1
  dot_S64x256_S256x256_S64x256_1_0_0_1_n_n_wf : DotDims.WF S64x256 S256x256 S64x256 [1] [0] [0] [1] [] []

variable [Facts₀]

def dot_S20000x128_S128x256_S20000x256_1_0_0_1_n_n : DotDims S20000x128 S128x256 S20000x256 where
  lhsContracting := [1]
  rhsContracting := [0]
  lhsNonContracting := [0]
  rhsNonContracting := [1]
  lhsBatch := []
  rhsBatch := []
  wf := dot_S20000x128_S128x256_S20000x256_1_0_0_1_n_n_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def dot_S320000x64_S64x256_S320000x256_1_0_0_1_n_n : DotDims S320000x64 S64x256 S320000x256 where
  lhsContracting := [1]
  rhsContracting := [0]
  lhsNonContracting := [0]
  rhsNonContracting := [1]
  lhsBatch := []
  rhsBatch := []
  wf := dot_S320000x64_S64x256_S320000x256_1_0_0_1_n_n_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def scatter_S64x256_S20000x1_S20000x256_1_0_0_1 : ScatterDims S64x256 S20000x1 S20000x256 where
  updateWindowDims := [1]
  insertedWindowDims := [0]
  scatterDimsToOperandDims := [0]
  indexVectorDim := 1
  wf := scatter_S64x256_S20000x1_S20000x256_1_0_0_1_wf
def scatter_S64_S20000x1_S20000_n_0_0_1 : ScatterDims S64 S20000x1 S20000 where
  updateWindowDims := []
  insertedWindowDims := [0]
  scatterDimsToOperandDims := [0]
  indexVectorDim := 1
  wf := scatter_S64_S20000x1_S20000_n_0_0_1_wf
def dot_S64x256_S256x256_S64x256_1_0_0_1_n_n : DotDims S64x256 S256x256 S64x256 where
  lhsContracting := [1]
  rhsContracting := [0]
  lhsNonContracting := [0]
  rhsNonContracting := [1]
  lhsBatch := []
  rhsBatch := []
  wf := dot_S64x256_S256x256_S64x256_1_0_0_1_n_n_wf

class Facts : Prop extends Facts₀ where

variable [Facts]
-- ==== Proof.KeepA.lean ====
/-
  A table of cases. The kernel program's run passes through twenty boundaries W0 … W19, one segment of @main (a stretch
  of host operations, or a pallas_call region) between consecutive ones. Each lemma k<j>_<buffer> says that the segment
  from boundary j to boundary j+1 leaves that buffer as it was: no operation of a host stretch writes it; a region
  writes only its output arrays and hands its input arrays back unchanged. Each lemma at<j>_<buffer> chains them: the buffer at
  boundary j holds what it held right after the segment that wrote it (an argument of @main: what the launch memory holds).
-/
import proofs.«407353_j69303592288943_1_alg».proof.Proof.Gen.KernelIdeal.Frame
import Idealize.ShloMosaic.PureOps.Ideal

set_option maxRecDepth 16384

noncomputable section

namespace Cert.KernelIdeal.KeepA

open Cert.KernelIdeal Cert.KernelIdeal.Gen
open Idealize.ShloMosaic Idealize.ShloMosaic.TcCoe Idealize.SL.Sem

/-- A buffer none of a stretch's operations writes is, after the stretch, what it was before. -/
macro "keep_host " ops:ident ", " b:ident : tactic => `(tactic|
  exact StableHlo.after_of_forall_not_mem (b := Proc.devRef .tc $b) _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

variable (m : (ℓ : Loc nD τ sig) → Buf (Elt Ideal) ℓ) (ρ : Dev nD → PrngReg)

theorem k0_main_arg0 (c : Dev nD) : W1 m ρ c (Proc.devRef .tc main_arg0) = W0 m ρ c (Proc.devRef .tc main_arg0) := by keep_host hostOps0, main_arg0
theorem at0_main_arg0 (c : Dev nD) : W0 m ρ c (Proc.devRef .tc main_arg0) = m ((c : Thread nD τ).loc main_arg0) := rfl
theorem at1_main_arg0 (c : Dev nD) : W1 m ρ c (Proc.devRef .tc main_arg0) = m ((c : Thread nD τ).loc main_arg0) := (k0_main_arg0 m ρ c).trans (at0_main_arg0 m ρ c)

theorem k0_main_arg4 (c : Dev nD) : W1 m ρ c (Proc.devRef .tc main_arg4) = W0 m ρ c (Proc.devRef .tc main_arg4) := by keep_host hostOps0, main_arg4
theorem at0_main_arg4 (c : Dev nD) : W0 m ρ c (Proc.devRef .tc main_arg4) = m ((c : Thread nD τ).loc main_arg4) := rfl
theorem at1_main_arg4 (c : Dev nD) : W1 m ρ c (Proc.devRef .tc main_arg4) = m ((c : Thread nD τ).loc main_arg4) := (k0_main_arg4 m ρ c).trans (at0_main_arg4 m ρ c)

theorem k0_main_arg2 (c : Dev nD) : W1 m ρ c (Proc.devRef .tc main_arg2) = W0 m ρ c (Proc.devRef .tc main_arg2) := by keep_host hostOps0, main_arg2
theorem k1_main_arg2 (c : Dev nD) : W2 m ρ c (Proc.devRef .tc main_arg2) = W1 m ρ c (Proc.devRef .tc main_arg2) := W2_of_ne m ρ c main_arg2 (by decide)
theorem k2_main_arg2 (c : Dev nD) : W3 m ρ c (Proc.devRef .tc main_arg2) = W2 m ρ c (Proc.devRef .tc main_arg2) := by keep_host hostOps1, main_arg2
theorem k3_main_arg2 (c : Dev nD) : W4 m ρ c (Proc.devRef .tc main_arg2) = W3 m ρ c (Proc.devRef .tc main_arg2) := by keep_host hostOps1_1, main_arg2
theorem k4_main_arg2 (c : Dev nD) : W5 m ρ c (Proc.devRef .tc main_arg2) = W4 m ρ c (Proc.devRef .tc main_arg2) :=
  (W5_arr m ρ c 1).trans (((dat1 (V4 m ρ) c).arrAt_in 1 rfl _).trans (A_eq1 (V4 m ρ) c 1))
theorem k5_main_arg2 (c : Dev nD) : W6 m ρ c (Proc.devRef .tc main_arg2) = W5 m ρ c (Proc.devRef .tc main_arg2) := by keep_host hostOps2, main_arg2
theorem k6_main_arg2 (c : Dev nD) : W7 m ρ c (Proc.devRef .tc main_arg2) = W6 m ρ c (Proc.devRef .tc main_arg2) := W7_of_ne m ρ c main_arg2 (by decide)
theorem k7_main_arg2 (c : Dev nD) : W8 m ρ c (Proc.devRef .tc main_arg2) = W7 m ρ c (Proc.devRef .tc main_arg2) := by keep_host hostOps3, main_arg2
theorem k8_main_arg2 (c : Dev nD) : W9 m ρ c (Proc.devRef .tc main_arg2) = W8 m ρ c (Proc.devRef .tc main_arg2) := by keep_host hostOps3_1, main_arg2
theorem k9_main_arg2 (c : Dev nD) : W10 m ρ c (Proc.devRef .tc main_arg2) = W9 m ρ c (Proc.devRef .tc main_arg2) :=
  (W10_arr m ρ c 1).trans (((dat3 (V9 m ρ) c).arrAt_in 1 rfl _).trans (A_eq3 (V9 m ρ) c 1))
theorem k10_main_arg2 (c : Dev nD) : W11 m ρ c (Proc.devRef .tc main_arg2) = W10 m ρ c (Proc.devRef .tc main_arg2) := by keep_host hostOps4, main_arg2
theorem k11_main_arg2 (c : Dev nD) : W12 m ρ c (Proc.devRef .tc main_arg2) = W11 m ρ c (Proc.devRef .tc main_arg2) := W12_of_ne m ρ c main_arg2 (by decide)
theorem k12_main_arg2 (c : Dev nD) : W13 m ρ c (Proc.devRef .tc main_arg2) = W12 m ρ c (Proc.devRef .tc main_arg2) := by keep_host hostOps5, main_arg2
theorem k13_main_arg2 (c : Dev nD) : W14 m ρ c (Proc.devRef .tc main_arg2) = W13 m ρ c (Proc.devRef .tc main_arg2) := by keep_host hostOps5_1, main_arg2
theorem at0_main_arg2 (c : Dev nD) : W0 m ρ c (Proc.devRef .tc main_arg2) = m ((c : Thread nD τ).loc main_arg2) := rfl
theorem at1_main_arg2 (c : Dev nD) : W1 m ρ c (Proc.devRef .tc main_arg2) = m ((c : Thread nD τ).loc main_arg2) := (k0_main_arg2 m ρ c).trans (at0_main_arg2 m ρ c)
theorem at2_main_arg2 (c : Dev nD) : W2 m ρ c (Proc.devRef .tc main_arg2) = m ((c : Thread nD τ).loc main_arg2) := (k1_main_arg2 m ρ c).trans (at1_main_arg2 m ρ c)
theorem at3_main_arg2 (c : Dev nD) : W3 m ρ c (Proc.devRef .tc main_arg2) = m ((c : Thread nD τ).loc main_arg2) := (k2_main_arg2 m ρ c).trans (at2_main_arg2 m ρ c)
theorem at4_main_arg2 (c : Dev nD) : W4 m ρ c (Proc.devRef .tc main_arg2) = m ((c : Thread nD τ).loc main_arg2) := (k3_main_arg2 m ρ c).trans (at3_main_arg2 m ρ c)
theorem at5_main_arg2 (c : Dev nD) : W5 m ρ c (Proc.devRef .tc main_arg2) = m ((c : Thread nD τ).loc main_arg2) := (k4_main_arg2 m ρ c).trans (at4_main_arg2 m ρ c)
theorem at6_main_arg2 (c : Dev nD) : W6 m ρ c (Proc.devRef .tc main_arg2) = m ((c : Thread nD τ).loc main_arg2) := (k5_main_arg2 m ρ c).trans (at5_main_arg2 m ρ c)
theorem at7_main_arg2 (c : Dev nD) : W7 m ρ c (Proc.devRef .tc main_arg2) = m ((c : Thread nD τ).loc main_arg2) := (k6_main_arg2 m ρ c).trans (at6_main_arg2 m ρ c)
theorem at8_main_arg2 (c : Dev nD) : W8 m ρ c (Proc.devRef .tc main_arg2) = m ((c : Thread nD τ).loc main_arg2) := (k7_main_arg2 m ρ c).trans (at7_main_arg2 m ρ c)
theorem at9_main_arg2 (c : Dev nD) : W9 m ρ c (Proc.devRef .tc main_arg2) = m ((c : Thread nD τ).loc main_arg2) := (k8_main_arg2 m ρ c).trans (at8_main_arg2 m ρ c)
theorem at10_main_arg2 (c : Dev nD) : W10 m ρ c (Proc.devRef .tc main_arg2) = m ((c : Thread nD τ).loc main_arg2) := (k9_main_arg2 m ρ c).trans (at9_main_arg2 m ρ c)
theorem at11_main_arg2 (c : Dev nD) : W11 m ρ c (Proc.devRef .tc main_arg2) = m ((c : Thread nD τ).loc main_arg2) := (k10_main_arg2 m ρ c).trans (at10_main_arg2 m ρ c)
theorem at12_main_arg2 (c : Dev nD) : W12 m ρ c (Proc.devRef .tc main_arg2) = m ((c : Thread nD τ).loc main_arg2) := (k11_main_arg2 m ρ c).trans (at11_main_arg2 m ρ c)
theorem at13_main_arg2 (c : Dev nD) : W13 m ρ c (Proc.devRef .tc main_arg2) = m ((c : Thread nD τ).loc main_arg2) := (k12_main_arg2 m ρ c).trans (at12_main_arg2 m ρ c)
theorem at14_main_arg2 (c : Dev nD) : W14 m ρ c (Proc.devRef .tc main_arg2) = m ((c : Thread nD τ).loc main_arg2) := (k13_main_arg2 m ρ c).trans (at13_main_arg2 m ρ c)

theorem k0_main_arg3 (c : Dev nD) : W1 m ρ c (Proc.devRef .tc main_arg3) = W0 m ρ c (Proc.devRef .tc main_arg3) := by keep_host hostOps0, main_arg3
theorem k1_main_arg3 (c : Dev nD) : W2 m ρ c (Proc.devRef .tc main_arg3) = W1 m ρ c (Proc.devRef .tc main_arg3) := W2_of_ne m ρ c main_arg3 (by decide)
theorem k2_main_arg3 (c : Dev nD) : W3 m ρ c (Proc.devRef .tc main_arg3) = W2 m ρ c (Proc.devRef .tc main_arg3) := by keep_host hostOps1, main_arg3
theorem k3_main_arg3 (c : Dev nD) : W4 m ρ c (Proc.devRef .tc main_arg3) = W3 m ρ c (Proc.devRef .tc main_arg3) := by keep_host hostOps1_1, main_arg3
theorem k4_main_arg3 (c : Dev nD) : W5 m ρ c (Proc.devRef .tc main_arg3) = W4 m ρ c (Proc.devRef .tc main_arg3) := W5_of_ne m ρ c main_arg3 (by decide)
theorem k5_main_arg3 (c : Dev nD) : W6 m ρ c (Proc.devRef .tc main_arg3) = W5 m ρ c (Proc.devRef .tc main_arg3) := by keep_host hostOps2, main_arg3
theorem k6_main_arg3 (c : Dev nD) : W7 m ρ c (Proc.devRef .tc main_arg3) = W6 m ρ c (Proc.devRef .tc main_arg3) := W7_of_ne m ρ c main_arg3 (by decide)
theorem k7_main_arg3 (c : Dev nD) : W8 m ρ c (Proc.devRef .tc main_arg3) = W7 m ρ c (Proc.devRef .tc main_arg3) := by keep_host hostOps3, main_arg3
theorem k8_main_arg3 (c : Dev nD) : W9 m ρ c (Proc.devRef .tc main_arg3) = W8 m ρ c (Proc.devRef .tc main_arg3) := by keep_host hostOps3_1, main_arg3
theorem k9_main_arg3 (c : Dev nD) : W10 m ρ c (Proc.devRef .tc main_arg3) = W9 m ρ c (Proc.devRef .tc main_arg3) := W10_of_ne m ρ c main_arg3 (by decide)
theorem k10_main_arg3 (c : Dev nD) : W11 m ρ c (Proc.devRef .tc main_arg3) = W10 m ρ c (Proc.devRef .tc main_arg3) := by keep_host hostOps4, main_arg3
theorem k11_main_arg3 (c : Dev nD) : W12 m ρ c (Proc.devRef .tc main_arg3) = W11 m ρ c (Proc.devRef .tc main_arg3) := W12_of_ne m ρ c main_arg3 (by decide)
theorem k12_main_arg3 (c : Dev nD) : W13 m ρ c (Proc.devRef .tc main_arg3) = W12 m ρ c (Proc.devRef .tc main_arg3) := by keep_host hostOps5, main_arg3
theorem k13_main_arg3 (c : Dev nD) : W14 m ρ c (Proc.devRef .tc main_arg3) = W13 m ρ c (Proc.devRef .tc main_arg3) := by keep_host hostOps5_1, main_arg3
theorem k14_main_arg3 (c : Dev nD) : W15 m ρ c (Proc.devRef .tc main_arg3) = W14 m ρ c (Proc.devRef .tc main_arg3) := W15_of_ne m ρ c main_arg3 (by decide)
theorem k15_main_arg3 (c : Dev nD) : W16 m ρ c (Proc.devRef .tc main_arg3) = W15 m ρ c (Proc.devRef .tc main_arg3) := by keep_host hostOps6, main_arg3
theorem k16_main_arg3 (c : Dev nD) : W17 m ρ c (Proc.devRef .tc main_arg3) = W16 m ρ c (Proc.devRef .tc main_arg3) := W17_of_ne m ρ c main_arg3 (by decide)
theorem at0_main_arg3 (c : Dev nD) : W0 m ρ c (Proc.devRef .tc main_arg3) = m ((c : Thread nD τ).loc main_arg3) := rfl
theorem at1_main_arg3 (c : Dev nD) : W1 m ρ c (Proc.devRef .tc main_arg3) = m ((c : Thread nD τ).loc main_arg3) := (k0_main_arg3 m ρ c).trans (at0_main_arg3 m ρ c)
theorem at2_main_arg3 (c : Dev nD) : W2 m ρ c (Proc.devRef .tc main_arg3) = m ((c : Thread nD τ).loc main_arg3) := (k1_main_arg3 m ρ c).trans (at1_main_arg3 m ρ c)
theorem at3_main_arg3 (c : Dev nD) : W3 m ρ c (Proc.devRef .tc main_arg3) = m ((c : Thread nD τ).loc main_arg3) := (k2_main_arg3 m ρ c).trans (at2_main_arg3 m ρ c)
theorem at4_main_arg3 (c : Dev nD) : W4 m ρ c (Proc.devRef .tc main_arg3) = m ((c : Thread nD τ).loc main_arg3) := (k3_main_arg3 m ρ c).trans (at3_main_arg3 m ρ c)
theorem at5_main_arg3 (c : Dev nD) : W5 m ρ c (Proc.devRef .tc main_arg3) = m ((c : Thread nD τ).loc main_arg3) := (k4_main_arg3 m ρ c).trans (at4_main_arg3 m ρ c)
theorem at6_main_arg3 (c : Dev nD) : W6 m ρ c (Proc.devRef .tc main_arg3) = m ((c : Thread nD τ).loc main_arg3) := (k5_main_arg3 m ρ c).trans (at5_main_arg3 m ρ c)
theorem at7_main_arg3 (c : Dev nD) : W7 m ρ c (Proc.devRef .tc main_arg3) = m ((c : Thread nD τ).loc main_arg3) := (k6_main_arg3 m ρ c).trans (at6_main_arg3 m ρ c)
theorem at8_main_arg3 (c : Dev nD) : W8 m ρ c (Proc.devRef .tc main_arg3) = m ((c : Thread nD τ).loc main_arg3) := (k7_main_arg3 m ρ c).trans (at7_main_arg3 m ρ c)
theorem at9_main_arg3 (c : Dev nD) : W9 m ρ c (Proc.devRef .tc main_arg3) = m ((c : Thread nD τ).loc main_arg3) := (k8_main_arg3 m ρ c).trans (at8_main_arg3 m ρ c)
theorem at10_main_arg3 (c : Dev nD) : W10 m ρ c (Proc.devRef .tc main_arg3) = m ((c : Thread nD τ).loc main_arg3) := (k9_main_arg3 m ρ c).trans (at9_main_arg3 m ρ c)
theorem at11_main_arg3 (c : Dev nD) : W11 m ρ c (Proc.devRef .tc main_arg3) = m ((c : Thread nD τ).loc main_arg3) := (k10_main_arg3 m ρ c).trans (at10_main_arg3 m ρ c)
theorem at12_main_arg3 (c : Dev nD) : W12 m ρ c (Proc.devRef .tc main_arg3) = m ((c : Thread nD τ).loc main_arg3) := (k11_main_arg3 m ρ c).trans (at11_main_arg3 m ρ c)
theorem at13_main_arg3 (c : Dev nD) : W13 m ρ c (Proc.devRef .tc main_arg3) = m ((c : Thread nD τ).loc main_arg3) := (k12_main_arg3 m ρ c).trans (at12_main_arg3 m ρ c)
theorem at14_main_arg3 (c : Dev nD) : W14 m ρ c (Proc.devRef .tc main_arg3) = m ((c : Thread nD τ).loc main_arg3) := (k13_main_arg3 m ρ c).trans (at13_main_arg3 m ρ c)
theorem at15_main_arg3 (c : Dev nD) : W15 m ρ c (Proc.devRef .tc main_arg3) = m ((c : Thread nD τ).loc main_arg3) := (k14_main_arg3 m ρ c).trans (at14_main_arg3 m ρ c)
theorem at16_main_arg3 (c : Dev nD) : W16 m ρ c (Proc.devRef .tc main_arg3) = m ((c : Thread nD τ).loc main_arg3) := (k15_main_arg3 m ρ c).trans (at15_main_arg3 m ρ c)
theorem at17_main_arg3 (c : Dev nD) : W17 m ρ c (Proc.devRef .tc main_arg3) = m ((c : Thread nD τ).loc main_arg3) := (k16_main_arg3 m ρ c).trans (at16_main_arg3 m ρ c)

theorem k0_main_arg6 (c : Dev nD) : W1 m ρ c (Proc.devRef .tc main_arg6) = W0 m ρ c (Proc.devRef .tc main_arg6) := by keep_host hostOps0, main_arg6
theorem k1_main_arg6 (c : Dev nD) : W2 m ρ c (Proc.devRef .tc main_arg6) = W1 m ρ c (Proc.devRef .tc main_arg6) := W2_of_ne m ρ c main_arg6 (by decide)
theorem k2_main_arg6 (c : Dev nD) : W3 m ρ c (Proc.devRef .tc main_arg6) = W2 m ρ c (Proc.devRef .tc main_arg6) := by keep_host hostOps1, main_arg6
theorem k3_main_arg6 (c : Dev nD) : W4 m ρ c (Proc.devRef .tc main_arg6) = W3 m ρ c (Proc.devRef .tc main_arg6) := by keep_host hostOps1_1, main_arg6
theorem k4_main_arg6 (c : Dev nD) : W5 m ρ c (Proc.devRef .tc main_arg6) = W4 m ρ c (Proc.devRef .tc main_arg6) := W5_of_ne m ρ c main_arg6 (by decide)
theorem k5_main_arg6 (c : Dev nD) : W6 m ρ c (Proc.devRef .tc main_arg6) = W5 m ρ c (Proc.devRef .tc main_arg6) := by keep_host hostOps2, main_arg6
theorem k6_main_arg6 (c : Dev nD) : W7 m ρ c (Proc.devRef .tc main_arg6) = W6 m ρ c (Proc.devRef .tc main_arg6) := W7_of_ne m ρ c main_arg6 (by decide)
theorem k7_main_arg6 (c : Dev nD) : W8 m ρ c (Proc.devRef .tc main_arg6) = W7 m ρ c (Proc.devRef .tc main_arg6) := by keep_host hostOps3, main_arg6
theorem k8_main_arg6 (c : Dev nD) : W9 m ρ c (Proc.devRef .tc main_arg6) = W8 m ρ c (Proc.devRef .tc main_arg6) := by keep_host hostOps3_1, main_arg6
theorem k9_main_arg6 (c : Dev nD) : W10 m ρ c (Proc.devRef .tc main_arg6) = W9 m ρ c (Proc.devRef .tc main_arg6) := W10_of_ne m ρ c main_arg6 (by decide)
theorem k10_main_arg6 (c : Dev nD) : W11 m ρ c (Proc.devRef .tc main_arg6) = W10 m ρ c (Proc.devRef .tc main_arg6) := by keep_host hostOps4, main_arg6
theorem k11_main_arg6 (c : Dev nD) : W12 m ρ c (Proc.devRef .tc main_arg6) = W11 m ρ c (Proc.devRef .tc main_arg6) := W12_of_ne m ρ c main_arg6 (by decide)
theorem k12_main_arg6 (c : Dev nD) : W13 m ρ c (Proc.devRef .tc main_arg6) = W12 m ρ c (Proc.devRef .tc main_arg6) := by keep_host hostOps5, main_arg6
theorem at0_main_arg6 (c : Dev nD) : W0 m ρ c (Proc.devRef .tc main_arg6) = m ((c : Thread nD τ).loc main_arg6) := rfl
theorem at1_main_arg6 (c : Dev nD) : W1 m ρ c (Proc.devRef .tc main_arg6) = m ((c : Thread nD τ).loc main_arg6) := (k0_main_arg6 m ρ c).trans (at0_main_arg6 m ρ c)
theorem at2_main_arg6 (c : Dev nD) : W2 m ρ c (Proc.devRef .tc main_arg6) = m ((c : Thread nD τ).loc main_arg6) := (k1_main_arg6 m ρ c).trans (at1_main_arg6 m ρ c)
theorem at3_main_arg6 (c : Dev nD) : W3 m ρ c (Proc.devRef .tc main_arg6) = m ((c : Thread nD τ).loc main_arg6) := (k2_main_arg6 m ρ c).trans (at2_main_arg6 m ρ c)
theorem at4_main_arg6 (c : Dev nD) : W4 m ρ c (Proc.devRef .tc main_arg6) = m ((c : Thread nD τ).loc main_arg6) := (k3_main_arg6 m ρ c).trans (at3_main_arg6 m ρ c)
theorem at5_main_arg6 (c : Dev nD) : W5 m ρ c (Proc.devRef .tc main_arg6) = m ((c : Thread nD τ).loc main_arg6) := (k4_main_arg6 m ρ c).trans (at4_main_arg6 m ρ c)
theorem at6_main_arg6 (c : Dev nD) : W6 m ρ c (Proc.devRef .tc main_arg6) = m ((c : Thread nD τ).loc main_arg6) := (k5_main_arg6 m ρ c).trans (at5_main_arg6 m ρ c)
theorem at7_main_arg6 (c : Dev nD) : W7 m ρ c (Proc.devRef .tc main_arg6) = m ((c : Thread nD τ).loc main_arg6) := (k6_main_arg6 m ρ c).trans (at6_main_arg6 m ρ c)
theorem at8_main_arg6 (c : Dev nD) : W8 m ρ c (Proc.devRef .tc main_arg6) = m ((c : Thread nD τ).loc main_arg6) := (k7_main_arg6 m ρ c).trans (at7_main_arg6 m ρ c)
theorem at9_main_arg6 (c : Dev nD) : W9 m ρ c (Proc.devRef .tc main_arg6) = m ((c : Thread nD τ).loc main_arg6) := (k8_main_arg6 m ρ c).trans (at8_main_arg6 m ρ c)
theorem at10_main_arg6 (c : Dev nD) : W10 m ρ c (Proc.devRef .tc main_arg6) = m ((c : Thread nD τ).loc main_arg6) := (k9_main_arg6 m ρ c).trans (at9_main_arg6 m ρ c)
theorem at11_main_arg6 (c : Dev nD) : W11 m ρ c (Proc.devRef .tc main_arg6) = m ((c : Thread nD τ).loc main_arg6) := (k10_main_arg6 m ρ c).trans (at10_main_arg6 m ρ c)
theorem at12_main_arg6 (c : Dev nD) : W12 m ρ c (Proc.devRef .tc main_arg6) = m ((c : Thread nD τ).loc main_arg6) := (k11_main_arg6 m ρ c).trans (at11_main_arg6 m ρ c)
theorem at13_main_arg6 (c : Dev nD) : W13 m ρ c (Proc.devRef .tc main_arg6) = m ((c : Thread nD τ).loc main_arg6) := (k12_main_arg6 m ρ c).trans (at12_main_arg6 m ρ c)

theorem k0_main_arg7 (c : Dev nD) : W1 m ρ c (Proc.devRef .tc main_arg7) = W0 m ρ c (Proc.devRef .tc main_arg7) := by keep_host hostOps0, main_arg7
theorem k1_main_arg7 (c : Dev nD) : W2 m ρ c (Proc.devRef .tc main_arg7) = W1 m ρ c (Proc.devRef .tc main_arg7) := W2_of_ne m ρ c main_arg7 (by decide)
theorem k2_main_arg7 (c : Dev nD) : W3 m ρ c (Proc.devRef .tc main_arg7) = W2 m ρ c (Proc.devRef .tc main_arg7) := by keep_host hostOps1, main_arg7
theorem k3_main_arg7 (c : Dev nD) : W4 m ρ c (Proc.devRef .tc main_arg7) = W3 m ρ c (Proc.devRef .tc main_arg7) := by keep_host hostOps1_1, main_arg7
theorem k4_main_arg7 (c : Dev nD) : W5 m ρ c (Proc.devRef .tc main_arg7) = W4 m ρ c (Proc.devRef .tc main_arg7) := W5_of_ne m ρ c main_arg7 (by decide)
theorem k5_main_arg7 (c : Dev nD) : W6 m ρ c (Proc.devRef .tc main_arg7) = W5 m ρ c (Proc.devRef .tc main_arg7) := by keep_host hostOps2, main_arg7
theorem k6_main_arg7 (c : Dev nD) : W7 m ρ c (Proc.devRef .tc main_arg7) = W6 m ρ c (Proc.devRef .tc main_arg7) := W7_of_ne m ρ c main_arg7 (by decide)
theorem k7_main_arg7 (c : Dev nD) : W8 m ρ c (Proc.devRef .tc main_arg7) = W7 m ρ c (Proc.devRef .tc main_arg7) := by keep_host hostOps3, main_arg7
theorem k8_main_arg7 (c : Dev nD) : W9 m ρ c (Proc.devRef .tc main_arg7) = W8 m ρ c (Proc.devRef .tc main_arg7) := by keep_host hostOps3_1, main_arg7
theorem k9_main_arg7 (c : Dev nD) : W10 m ρ c (Proc.devRef .tc main_arg7) = W9 m ρ c (Proc.devRef .tc main_arg7) := W10_of_ne m ρ c main_arg7 (by decide)
theorem k10_main_arg7 (c : Dev nD) : W11 m ρ c (Proc.devRef .tc main_arg7) = W10 m ρ c (Proc.devRef .tc main_arg7) := by keep_host hostOps4, main_arg7
theorem k11_main_arg7 (c : Dev nD) : W12 m ρ c (Proc.devRef .tc main_arg7) = W11 m ρ c (Proc.devRef .tc main_arg7) := W12_of_ne m ρ c main_arg7 (by decide)
theorem k12_main_arg7 (c : Dev nD) : W13 m ρ c (Proc.devRef .tc main_arg7) = W12 m ρ c (Proc.devRef .tc main_arg7) := by keep_host hostOps5, main_arg7
theorem at0_main_arg7 (c : Dev nD) : W0 m ρ c (Proc.devRef .tc main_arg7) = m ((c : Thread nD τ).loc main_arg7) := rfl
theorem at1_main_arg7 (c : Dev nD) : W1 m ρ c (Proc.devRef .tc main_arg7) = m ((c : Thread nD τ).loc main_arg7) := (k0_main_arg7 m ρ c).trans (at0_main_arg7 m ρ c)
theorem at2_main_arg7 (c : Dev nD) : W2 m ρ c (Proc.devRef .tc main_arg7) = m ((c : Thread nD τ).loc main_arg7) := (k1_main_arg7 m ρ c).trans (at1_main_arg7 m ρ c)
theorem at3_main_arg7 (c : Dev nD) : W3 m ρ c (Proc.devRef .tc main_arg7) = m ((c : Thread nD τ).loc main_arg7) := (k2_main_arg7 m ρ c).trans (at2_main_arg7 m ρ c)
theorem at4_main_arg7 (c : Dev nD) : W4 m ρ c (Proc.devRef .tc main_arg7) = m ((c : Thread nD τ).loc main_arg7) := (k3_main_arg7 m ρ c).trans (at3_main_arg7 m ρ c)
theorem at5_main_arg7 (c : Dev nD) : W5 m ρ c (Proc.devRef .tc main_arg7) = m ((c : Thread nD τ).loc main_arg7) := (k4_main_arg7 m ρ c).trans (at4_main_arg7 m ρ c)
theorem at6_main_arg7 (c : Dev nD) : W6 m ρ c (Proc.devRef .tc main_arg7) = m ((c : Thread nD τ).loc main_arg7) := (k5_main_arg7 m ρ c).trans (at5_main_arg7 m ρ c)
theorem at7_main_arg7 (c : Dev nD) : W7 m ρ c (Proc.devRef .tc main_arg7) = m ((c : Thread nD τ).loc main_arg7) := (k6_main_arg7 m ρ c).trans (at6_main_arg7 m ρ c)
theorem at8_main_arg7 (c : Dev nD) : W8 m ρ c (Proc.devRef .tc main_arg7) = m ((c : Thread nD τ).loc main_arg7) := (k7_main_arg7 m ρ c).trans (at7_main_arg7 m ρ c)
theorem at9_main_arg7 (c : Dev nD) : W9 m ρ c (Proc.devRef .tc main_arg7) = m ((c : Thread nD τ).loc main_arg7) := (k8_main_arg7 m ρ c).trans (at8_main_arg7 m ρ c)
theorem at10_main_arg7 (c : Dev nD) : W10 m ρ c (Proc.devRef .tc main_arg7) = m ((c : Thread nD τ).loc main_arg7) := (k9_main_arg7 m ρ c).trans (at9_main_arg7 m ρ c)
theorem at11_main_arg7 (c : Dev nD) : W11 m ρ c (Proc.devRef .tc main_arg7) = m ((c : Thread nD τ).loc main_arg7) := (k10_main_arg7 m ρ c).trans (at10_main_arg7 m ρ c)
theorem at12_main_arg7 (c : Dev nD) : W12 m ρ c (Proc.devRef .tc main_arg7) = m ((c : Thread nD τ).loc main_arg7) := (k11_main_arg7 m ρ c).trans (at11_main_arg7 m ρ c)
theorem at13_main_arg7 (c : Dev nD) : W13 m ρ c (Proc.devRef .tc main_arg7) = m ((c : Thread nD τ).loc main_arg7) := (k12_main_arg7 m ρ c).trans (at12_main_arg7 m ρ c)

theorem k0_main_arg12 (c : Dev nD) : W1 m ρ c (Proc.devRef .tc main_arg12) = W0 m ρ c (Proc.devRef .tc main_arg12) := by keep_host hostOps0, main_arg12
theorem k1_main_arg12 (c : Dev nD) : W2 m ρ c (Proc.devRef .tc main_arg12) = W1 m ρ c (Proc.devRef .tc main_arg12) := W2_of_ne m ρ c main_arg12 (by decide)
theorem k2_main_arg12 (c : Dev nD) : W3 m ρ c (Proc.devRef .tc main_arg12) = W2 m ρ c (Proc.devRef .tc main_arg12) := by keep_host hostOps1, main_arg12
theorem k3_main_arg12 (c : Dev nD) : W4 m ρ c (Proc.devRef .tc main_arg12) = W3 m ρ c (Proc.devRef .tc main_arg12) := by keep_host hostOps1_1, main_arg12
theorem k4_main_arg12 (c : Dev nD) : W5 m ρ c (Proc.devRef .tc main_arg12) = W4 m ρ c (Proc.devRef .tc main_arg12) := W5_of_ne m ρ c main_arg12 (by decide)
theorem k5_main_arg12 (c : Dev nD) : W6 m ρ c (Proc.devRef .tc main_arg12) = W5 m ρ c (Proc.devRef .tc main_arg12) := by keep_host hostOps2, main_arg12
theorem k6_main_arg12 (c : Dev nD) : W7 m ρ c (Proc.devRef .tc main_arg12) = W6 m ρ c (Proc.devRef .tc main_arg12) := W7_of_ne m ρ c main_arg12 (by decide)
theorem k7_main_arg12 (c : Dev nD) : W8 m ρ c (Proc.devRef .tc main_arg12) = W7 m ρ c (Proc.devRef .tc main_arg12) := by keep_host hostOps3, main_arg12
theorem k8_main_arg12 (c : Dev nD) : W9 m ρ c (Proc.devRef .tc main_arg12) = W8 m ρ c (Proc.devRef .tc main_arg12) := by keep_host hostOps3_1, main_arg12
theorem k9_main_arg12 (c : Dev nD) : W10 m ρ c (Proc.devRef .tc main_arg12) = W9 m ρ c (Proc.devRef .tc main_arg12) := W10_of_ne m ρ c main_arg12 (by decide)
theorem k10_main_arg12 (c : Dev nD) : W11 m ρ c (Proc.devRef .tc main_arg12) = W10 m ρ c (Proc.devRef .tc main_arg12) := by keep_host hostOps4, main_arg12
theorem k11_main_arg12 (c : Dev nD) : W12 m ρ c (Proc.devRef .tc main_arg12) = W11 m ρ c (Proc.devRef .tc main_arg12) := W12_of_ne m ρ c main_arg12 (by decide)
theorem k12_main_arg12 (c : Dev nD) : W13 m ρ c (Proc.devRef .tc main_arg12) = W12 m ρ c (Proc.devRef .tc main_arg12) := by keep_host hostOps5, main_arg12
theorem k13_main_arg12 (c : Dev nD) : W14 m ρ c (Proc.devRef .tc main_arg12) = W13 m ρ c (Proc.devRef .tc main_arg12) := by keep_host hostOps5_1, main_arg12
theorem k14_main_arg12 (c : Dev nD) : W15 m ρ c (Proc.devRef .tc main_arg12) = W14 m ρ c (Proc.devRef .tc main_arg12) := W15_of_ne m ρ c main_arg12 (by decide)
theorem k15_main_arg12 (c : Dev nD) : W16 m ρ c (Proc.devRef .tc main_arg12) = W15 m ρ c (Proc.devRef .tc main_arg12) := by keep_host hostOps6, main_arg12
theorem k16_main_arg12 (c : Dev nD) : W17 m ρ c (Proc.devRef .tc main_arg12) = W16 m ρ c (Proc.devRef .tc main_arg12) := W17_of_ne m ρ c main_arg12 (by decide)
theorem k17_main_arg12 (c : Dev nD) : W18 m ρ c (Proc.devRef .tc main_arg12) = W17 m ρ c (Proc.devRef .tc main_arg12) := by keep_host hostOps7, main_arg12
theorem at0_main_arg12 (c : Dev nD) : W0 m ρ c (Proc.devRef .tc main_arg12) = m ((c : Thread nD τ).loc main_arg12) := rfl
theorem at1_main_arg12 (c : Dev nD) : W1 m ρ c (Proc.devRef .tc main_arg12) = m ((c : Thread nD τ).loc main_arg12) := (k0_main_arg12 m ρ c).trans (at0_main_arg12 m ρ c)
theorem at2_main_arg12 (c : Dev nD) : W2 m ρ c (Proc.devRef .tc main_arg12) = m ((c : Thread nD τ).loc main_arg12) := (k1_main_arg12 m ρ c).trans (at1_main_arg12 m ρ c)
theorem at3_main_arg12 (c : Dev nD) : W3 m ρ c (Proc.devRef .tc main_arg12) = m ((c : Thread nD τ).loc main_arg12) := (k2_main_arg12 m ρ c).trans (at2_main_arg12 m ρ c)
theorem at4_main_arg12 (c : Dev nD) : W4 m ρ c (Proc.devRef .tc main_arg12) = m ((c : Thread nD τ).loc main_arg12) := (k3_main_arg12 m ρ c).trans (at3_main_arg12 m ρ c)
theorem at5_main_arg12 (c : Dev nD) : W5 m ρ c (Proc.devRef .tc main_arg12) = m ((c : Thread nD τ).loc main_arg12) := (k4_main_arg12 m ρ c).trans (at4_main_arg12 m ρ c)
theorem at6_main_arg12 (c : Dev nD) : W6 m ρ c (Proc.devRef .tc main_arg12) = m ((c : Thread nD τ).loc main_arg12) := (k5_main_arg12 m ρ c).trans (at5_main_arg12 m ρ c)
theorem at7_main_arg12 (c : Dev nD) : W7 m ρ c (Proc.devRef .tc main_arg12) = m ((c : Thread nD τ).loc main_arg12) := (k6_main_arg12 m ρ c).trans (at6_main_arg12 m ρ c)
theorem at8_main_arg12 (c : Dev nD) : W8 m ρ c (Proc.devRef .tc main_arg12) = m ((c : Thread nD τ).loc main_arg12) := (k7_main_arg12 m ρ c).trans (at7_main_arg12 m ρ c)
theorem at9_main_arg12 (c : Dev nD) : W9 m ρ c (Proc.devRef .tc main_arg12) = m ((c : Thread nD τ).loc main_arg12) := (k8_main_arg12 m ρ c).trans (at8_main_arg12 m ρ c)
theorem at10_main_arg12 (c : Dev nD) : W10 m ρ c (Proc.devRef .tc main_arg12) = m ((c : Thread nD τ).loc main_arg12) := (k9_main_arg12 m ρ c).trans (at9_main_arg12 m ρ c)
theorem at11_main_arg12 (c : Dev nD) : W11 m ρ c (Proc.devRef .tc main_arg12) = m ((c : Thread nD τ).loc main_arg12) := (k10_main_arg12 m ρ c).trans (at10_main_arg12 m ρ c)
theorem at12_main_arg12 (c : Dev nD) : W12 m ρ c (Proc.devRef .tc main_arg12) = m ((c : Thread nD τ).loc main_arg12) := (k11_main_arg12 m ρ c).trans (at11_main_arg12 m ρ c)
theorem at13_main_arg12 (c : Dev nD) : W13 m ρ c (Proc.devRef .tc main_arg12) = m ((c : Thread nD τ).loc main_arg12) := (k12_main_arg12 m ρ c).trans (at12_main_arg12 m ρ c)
theorem at14_main_arg12 (c : Dev nD) : W14 m ρ c (Proc.devRef .tc main_arg12) = m ((c : Thread nD τ).loc main_arg12) := (k13_main_arg12 m ρ c).trans (at13_main_arg12 m ρ c)
theorem at15_main_arg12 (c : Dev nD) : W15 m ρ c (Proc.devRef .tc main_arg12) = m ((c : Thread nD τ).loc main_arg12) := (k14_main_arg12 m ρ c).trans (at14_main_arg12 m ρ c)
theorem at16_main_arg12 (c : Dev nD) : W16 m ρ c (Proc.devRef .tc main_arg12) = m ((c : Thread nD τ).loc main_arg12) := (k15_main_arg12 m ρ c).trans (at15_main_arg12 m ρ c)
theorem at17_main_arg12 (c : Dev nD) : W17 m ρ c (Proc.devRef .tc main_arg12) = m ((c : Thread nD τ).loc main_arg12) := (k16_main_arg12 m ρ c).trans (at16_main_arg12 m ρ c)
theorem at18_main_arg12 (c : Dev nD) : W18 m ρ c (Proc.devRef .tc main_arg12) = m ((c : Thread nD τ).loc main_arg12) := (k17_main_arg12 m ρ c).trans (at17_main_arg12 m ρ c)

theorem k0_main_arg14 (c : Dev nD) : W1 m ρ c (Proc.devRef .tc main_arg14) = W0 m ρ c (Proc.devRef .tc main_arg14) := by keep_host hostOps0, main_arg14
theorem k1_main_arg14 (c : Dev nD) : W2 m ρ c (Proc.devRef .tc main_arg14) = W1 m ρ c (Proc.devRef .tc main_arg14) := W2_of_ne m ρ c main_arg14 (by decide)
theorem k2_main_arg14 (c : Dev nD) : W3 m ρ c (Proc.devRef .tc main_arg14) = W2 m ρ c (Proc.devRef .tc main_arg14) := by keep_host hostOps1, main_arg14
theorem k3_main_arg14 (c : Dev nD) : W4 m ρ c (Proc.devRef .tc main_arg14) = W3 m ρ c (Proc.devRef .tc main_arg14) := by keep_host hostOps1_1, main_arg14
theorem k4_main_arg14 (c : Dev nD) : W5 m ρ c (Proc.devRef .tc main_arg14) = W4 m ρ c (Proc.devRef .tc main_arg14) := W5_of_ne m ρ c main_arg14 (by decide)
theorem k5_main_arg14 (c : Dev nD) : W6 m ρ c (Proc.devRef .tc main_arg14) = W5 m ρ c (Proc.devRef .tc main_arg14) := by keep_host hostOps2, main_arg14
theorem k6_main_arg14 (c : Dev nD) : W7 m ρ c (Proc.devRef .tc main_arg14) = W6 m ρ c (Proc.devRef .tc main_arg14) := W7_of_ne m ρ c main_arg14 (by decide)
theorem k7_main_arg14 (c : Dev nD) : W8 m ρ c (Proc.devRef .tc main_arg14) = W7 m ρ c (Proc.devRef .tc main_arg14) := by keep_host hostOps3, main_arg14
theorem k8_main_arg14 (c : Dev nD) : W9 m ρ c (Proc.devRef .tc main_arg14) = W8 m ρ c (Proc.devRef .tc main_arg14) := by keep_host hostOps3_1, main_arg14
theorem k9_main_arg14 (c : Dev nD) : W10 m ρ c (Proc.devRef .tc main_arg14) = W9 m ρ c (Proc.devRef .tc main_arg14) := W10_of_ne m ρ c main_arg14 (by decide)
theorem k10_main_arg14 (c : Dev nD) : W11 m ρ c (Proc.devRef .tc main_arg14) = W10 m ρ c (Proc.devRef .tc main_arg14) := by keep_host hostOps4, main_arg14
theorem k11_main_arg14 (c : Dev nD) : W12 m ρ c (Proc.devRef .tc main_arg14) = W11 m ρ c (Proc.devRef .tc main_arg14) := W12_of_ne m ρ c main_arg14 (by decide)
theorem k12_main_arg14 (c : Dev nD) : W13 m ρ c (Proc.devRef .tc main_arg14) = W12 m ρ c (Proc.devRef .tc main_arg14) := by keep_host hostOps5, main_arg14
theorem k13_main_arg14 (c : Dev nD) : W14 m ρ c (Proc.devRef .tc main_arg14) = W13 m ρ c (Proc.devRef .tc main_arg14) := by keep_host hostOps5_1, main_arg14
theorem k14_main_arg14 (c : Dev nD) : W15 m ρ c (Proc.devRef .tc main_arg14) = W14 m ρ c (Proc.devRef .tc main_arg14) := W15_of_ne m ρ c main_arg14 (by decide)
theorem k15_main_arg14 (c : Dev nD) : W16 m ρ c (Proc.devRef .tc main_arg14) = W15 m ρ c (Proc.devRef .tc main_arg14) := by keep_host hostOps6, main_arg14
theorem k16_main_arg14 (c : Dev nD) : W17 m ρ c (Proc.devRef .tc main_arg14) = W16 m ρ c (Proc.devRef .tc main_arg14) := W17_of_ne m ρ c main_arg14 (by decide)
theorem k17_main_arg14 (c : Dev nD) : W18 m ρ c (Proc.devRef .tc main_arg14) = W17 m ρ c (Proc.devRef .tc main_arg14) := by keep_host hostOps7, main_arg14
theorem at0_main_arg14 (c : Dev nD) : W0 m ρ c (Proc.devRef .tc main_arg14) = m ((c : Thread nD τ).loc main_arg14) := rfl
theorem at1_main_arg14 (c : Dev nD) : W1 m ρ c (Proc.devRef .tc main_arg14) = m ((c : Thread nD τ).loc main_arg14) := (k0_main_arg14 m ρ c).trans (at0_main_arg14 m ρ c)
theorem at2_main_arg14 (c : Dev nD) : W2 m ρ c (Proc.devRef .tc main_arg14) = m ((c : Thread nD τ).loc main_arg14) := (k1_main_arg14 m ρ c).trans (at1_main_arg14 m ρ c)
theorem at3_main_arg14 (c : Dev nD) : W3 m ρ c (Proc.devRef .tc main_arg14) = m ((c : Thread nD τ).loc main_arg14) := (k2_main_arg14 m ρ c).trans (at2_main_arg14 m ρ c)
theorem at4_main_arg14 (c : Dev nD) : W4 m ρ c (Proc.devRef .tc main_arg14) = m ((c : Thread nD τ).loc main_arg14) := (k3_main_arg14 m ρ c).trans (at3_main_arg14 m ρ c)
theorem at5_main_arg14 (c : Dev nD) : W5 m ρ c (Proc.devRef .tc main_arg14) = m ((c : Thread nD τ).loc main_arg14) := (k4_main_arg14 m ρ c).trans (at4_main_arg14 m ρ c)
theorem at6_main_arg14 (c : Dev nD) : W6 m ρ c (Proc.devRef .tc main_arg14) = m ((c : Thread nD τ).loc main_arg14) := (k5_main_arg14 m ρ c).trans (at5_main_arg14 m ρ c)
theorem at7_main_arg14 (c : Dev nD) : W7 m ρ c (Proc.devRef .tc main_arg14) = m ((c : Thread nD τ).loc main_arg14) := (k6_main_arg14 m ρ c).trans (at6_main_arg14 m ρ c)
theorem at8_main_arg14 (c : Dev nD) : W8 m ρ c (Proc.devRef .tc main_arg14) = m ((c : Thread nD τ).loc main_arg14) := (k7_main_arg14 m ρ c).trans (at7_main_arg14 m ρ c)
theorem at9_main_arg14 (c : Dev nD) : W9 m ρ c (Proc.devRef .tc main_arg14) = m ((c : Thread nD τ).loc main_arg14) := (k8_main_arg14 m ρ c).trans (at8_main_arg14 m ρ c)
theorem at10_main_arg14 (c : Dev nD) : W10 m ρ c (Proc.devRef .tc main_arg14) = m ((c : Thread nD τ).loc main_arg14) := (k9_main_arg14 m ρ c).trans (at9_main_arg14 m ρ c)
theorem at11_main_arg14 (c : Dev nD) : W11 m ρ c (Proc.devRef .tc main_arg14) = m ((c : Thread nD τ).loc main_arg14) := (k10_main_arg14 m ρ c).trans (at10_main_arg14 m ρ c)
theorem at12_main_arg14 (c : Dev nD) : W12 m ρ c (Proc.devRef .tc main_arg14) = m ((c : Thread nD τ).loc main_arg14) := (k11_main_arg14 m ρ c).trans (at11_main_arg14 m ρ c)
theorem at13_main_arg14 (c : Dev nD) : W13 m ρ c (Proc.devRef .tc main_arg14) = m ((c : Thread nD τ).loc main_arg14) := (k12_main_arg14 m ρ c).trans (at12_main_arg14 m ρ c)
theorem at14_main_arg14 (c : Dev nD) : W14 m ρ c (Proc.devRef .tc main_arg14) = m ((c : Thread nD τ).loc main_arg14) := (k13_main_arg14 m ρ c).trans (at13_main_arg14 m ρ c)
theorem at15_main_arg14 (c : Dev nD) : W15 m ρ c (Proc.devRef .tc main_arg14) = m ((c : Thread nD τ).loc main_arg14) := (k14_main_arg14 m ρ c).trans (at14_main_arg14 m ρ c)
theorem at16_main_arg14 (c : Dev nD) : W16 m ρ c (Proc.devRef .tc main_arg14) = m ((c : Thread nD τ).loc main_arg14) := (k15_main_arg14 m ρ c).trans (at15_main_arg14 m ρ c)
theorem at17_main_arg14 (c : Dev nD) : W17 m ρ c (Proc.devRef .tc main_arg14) = m ((c : Thread nD τ).loc main_arg14) := (k16_main_arg14 m ρ c).trans (at16_main_arg14 m ρ c)
theorem at18_main_arg14 (c : Dev nD) : W18 m ρ c (Proc.devRef .tc main_arg14) = m ((c : Thread nD τ).loc main_arg14) := (k17_main_arg14 m ρ c).trans (at17_main_arg14 m ρ c)

end Cert.KernelIdeal.KeepA

end
-- ==== Proof.Spec.lean ====
/-
  The mathematics both programs compute, as functions of whole arrays over the extended reals.

  A graph network with sum aggregation: node features are projected by an affine map; three times, every edge forms
  the message max(h[src] + (a·Wₑ + bₑ), 0) from its source node's features and its own attributes a, every node sums the
  messages of the edges that point at it, and a two-layer perceptron with max(·, 0) after each layer updates the node
  from h + sum; the nodes are then pooled per graph, a last two-layer perceptron is applied and every row is divided by
  the larger of its Euclidean norm and a small constant. The gather along edges, the sum over incoming edges and the
  pooling are data-dependent rearrangements of rows; here they are PARAMETERS (functions from arrays to arrays), since
  the two programs apply the very same ones.
-/
import Idealize.ShloMosaic.Lib.ValueIdx
import Idealize.ShloMosaic.PureOps.Ideal

noncomputable section

namespace Gine

open Idealize.ShloMosaic Idealize.ShloMosaic.ValueIdx

/-- An m×n array of extended reals. -/
abbrev Mat (m n : Nat) : Type := (⟨2, ![m, n]⟩ : Shape).Idx → EReal
/-- A length-n array of extended reals. -/
abbrev Row (n : Nat) : Type := (⟨1, ![n]⟩ : Shape).Idx → EReal

variable {M K N P : Nat}

/-- The affine map X ↦ X·W + b: entry (r, c) is (∑ₖ X[r,k]·W[k,c]) + b[c]. -/
def lin (X : Mat M K) (W : Mat K N) (b : Row N) : Mat M N :=
  fun i => (∑ k : Fin K, X (ix2 (i 0) k) * W (ix2 k (i 1))) + b (ix1 (i 1))

/-- max(·, 0), entry by entry. -/
def relu (Y : Mat M N) : Mat M N := fun i => max (Y i) 0

/-- The message of every edge: max(Hs + (EA·W + b), 0), where row e of Hs is the features of edge e's source node. -/
def msg (Hs : Mat M N) (EA : Mat M K) (W : Mat K N) (b : Row N) : Mat M N :=
  relu fun i => Hs i + lin EA W b i

/-- The node update: max(max((H + Ag)·W₁ + b₁, 0)·W₂ + b₂, 0). -/
def upd (H Ag : Mat M N) (W1 : Mat N N) (b1 : Row N) (W2 : Mat N N) (b2 : Row N) : Mat M N :=
  relu (lin (relu (lin (fun i => H i + Ag i) W1 b1)) W2 b2)

/-- Every row divided by the larger of its Euclidean norm and eps. -/
def unit (Z : Mat M P) (eps : EReal) : Mat M P :=
  fun i => Ideal.div (Z i) (max (Ideal.sqrt (∑ c : Fin P, Z (ix2 (i 0) c) * Z (ix2 (i 0) c))) eps)

/-- The output head: the two-layer perceptron, then the rows scaled to unit length. -/
def outp (G : Mat M N) (W1 : Mat N N) (b1 : Row N) (W2 : Mat N P) (b2 : Row P) (eps : EReal) : Mat M P :=
  unit (lin (relu (lin G W1 b1)) W2 b2) eps

/-- One round of message passing: gather along edges, messages, sum at the targets, update. -/
def layer {E Ed : Nat} (gth : Mat M N → Mat E N) (sct : Mat E N → Mat M N) (H : Mat M N) (EA : Mat E Ed)
    (eW : Mat Ed N) (eb : Row N) (W1 : Mat N N) (b1 : Row N) (W2 : Mat N N) (b2 : Row N) : Mat M N :=
  upd H (sct (msg (gth H) EA eW eb)) W1 b1 W2 b2

end Gine

end
-- ==== Proof.Model.lean ====
/-
  The whole network as one function of the input arrays: the node projection, three rounds of message passing, the
  pooling per graph and the output head. Each round has its own weights and its own rearrangements of rows (the gather
  along edges and the sum at the edges' targets), given as functions; so has the pooling.
-/
import proofs.«407353_j69303592288943_1_alg».proof.Proof.Spec

noncomputable section

namespace Gine

open Idealize.ShloMosaic

/-- What one round of message passing is made of: the gather along edges, the sum at the targets, the edge map's
    weights and the node update's two layers. -/
structure LayerP (M N E Ed : Nat) where
  gth : Mat M N → Mat E N
  sct : Mat E N → Mat M N
  eW : Mat Ed N
  eb : Row N
  W1 : Mat N N
  b1 : Row N
  W2 : Mat N N
  b2 : Row N

variable {M N E Ed Xd G P : Nat}

/-- The round applied to node features H, with edge attributes EA. -/
def LayerP.run (p : LayerP M N E Ed) (EA : Mat E Ed) (H : Mat M N) : Mat M N :=
  layer p.gth p.sct H EA p.eW p.eb p.W1 p.b1 p.W2 p.b2

/-- The network: project, three rounds, pool, output head. -/
def model (p0 p1 p2 : LayerP M N E Ed) (pool : Mat M N → Mat G N) (x : Mat M Xd) (xW : Mat Xd N) (xb : Row N)
    (EA : Mat E Ed) (oW1 : Mat N N) (ob1 : Row N) (oW2 : Mat N P) (ob2 : Row P) (eps : EReal) : Mat G P :=
  outp (pool (p2.run EA (p1.run EA (p0.run EA (lin x xW xb))))) oW1 ob1 oW2 ob2 eps

end Gine

end
-- ==== Proof.KParams.lean ====
/-
  The kernel program's host-side pieces, as functions: the source and target rows of the edge list, the gather of node
  rows along edges as the kernel spells it (indices below zero wrapped once, rows outside the table filled with the
  not-a-number word), the sum of messages at the edges' targets, the pooling of nodes per graph (sum divided by the
  larger of the count and one), and each round's weights sliced out of the stacked weight arrays.
-/
import proofs.«407353_j69303592288943_1_alg».proof.Proof.Gen.KernelIdeal
import proofs.«407353_j69303592288943_1_alg».proof.Proof.Model

noncomputable section

namespace Cert.KernelIdeal.KParams

open Cert.KernelIdeal Cert.KernelIdeal.Facts₀ Cert.KernelIdeal.Facts
open Idealize.ShloMosaic

/-- Row 0 of the edge list: every edge's source node. -/
def src (a1 : IVec S2x320000 32) : IVec S320000 32 :=
  shapeCast S320000 (extractStridedSlice S1x320000 ![0, 0] a1 slices_S2x320000_S1x320000_0_0) shapeCasts_S1x320000_S320000

/-- Row 1 of the edge list: every edge's target node. -/
def dst (a1 : IVec S2x320000 32) : IVec S320000 32 :=
  shapeCast S320000 (extractStridedSlice S1x320000 ![1, 0] a1 slices_S2x320000_S1x320000_1_0) shapeCasts_S1x320000_S320000

/-- An index below zero counted from the end of the 20000 rows, once. -/
def wrap (s : IVec S320000 32) : IVec S320000 32 :=
  select (cmpi .slt s (broadcastInDim S320000 ![] bcast_S_S320000 (constantI S_ 32 0#32)))
    (addi s (broadcastInDim S320000 ![] bcast_S_S320000 (constantI S_ 32 20000#32))) s

/-- The wrapped indices as a column of start indices. -/
def col (s : IVec S320000 32) : IVec S320000x1 32 := broadcastInDim S320000x1 ![0] bcast_S320000_S320000x1_0 (wrap s)

/-- Per edge: is the wrapped index a row of the table, 0 ≤ · ≤ 19999. -/
def inTable (s : IVec S320000 32) : IVec S320000 1 :=
  Host.reduce IntOp.andi
    (andi (cmpi .sge (col s) (broadcastInDim S320000x1 ![] bcast_S_S320000x1 (constantI S_ 32 0#32)))
      (cmpi .sle (col s) (broadcastInDim S320000x1 ![0, 1] bcast_S1x1_S320000x1_0_1 (broadcastInDim S1x1 ![1] bcast_S1_S1x1_1 (constantI S1 32 19999#32)))))
    (constantI S_ 1 1#1) reducesTo_S320000x1_S320000_d1 h_S_

/-- The rows of h at the (wrapped, clamped) indices. -/
def rowsAt (s : IVec S320000 32) (h : FVec Ideal S20000x256 .f32) : FVec Ideal S320000x256 .f32 :=
  Host.gather gather_S20000x256_S320000x1_S320000x256_1_0_n_n_0_1_1256 h (col s)

/-- The kernel's gather: the row where the index is a row of the table, the not-a-number word elsewhere. -/
def take (s : IVec S320000 32) (h : FVec Ideal S20000x256 .f32) : FVec Ideal S320000x256 .f32 :=
  select (broadcastInDim S320000x256 ![0] bcast_S320000_S320000x256_0 (inTable s)) (rowsAt s h)
    (broadcastInDim S320000x256 ![] bcast_S_S320000x256 (constant S_ .f32 0x7FC00000#32))

/-- The sum, at every node, of the rows of u whose edge points at it. -/
def sct (d : IVec S320000 32) (u : FVec Ideal S320000x256 .f32) : FVec Ideal S20000x256 .f32 :=
  Host.scatterAdd scatter_S20000x256_S320000x1_S320000x256_1_0_0_1
    (broadcastInDim S20000x256 ![] bcast_S_S20000x256 (constant S_ .f32 0x00000000#32))
    (broadcastInDim S320000x1 ![0] bcast_S320000_S320000x1_0 d) u

/-- Per graph: the sum of its nodes' rows divided by the larger of the number of its nodes and one. -/
def pool (a3 : IVec S20000 32) (h : FVec Ideal S20000x256 .f32) : FVec Ideal S64x256 .f32 :=
  Host.divf
    (Host.scatterAdd scatter_S64x256_S20000x1_S20000x256_1_0_0_1 (broadcastInDim S64x256 ![] bcast_S_S64x256 (constant S_ .f32 0x00000000#32))
      (broadcastInDim S20000x1 ![0] bcast_S20000_S20000x1_0 a3) h)
    (broadcastInDim S64x256 ![0, 1] bcast_S64x1_S64x256_0_1 (broadcastInDim S64x1 ![0] bcast_S64_S64x1_0
      (maximumf
        (Host.scatterAdd scatter_S64_S20000x1_S20000_n_0_0_1 (broadcastInDim S64 ![] bcast_S_S64 (constant S_ .f32 0x00000000#32))
          (broadcastInDim S20000x1 ![0] bcast_S20000_S20000x1_0 a3) (broadcastInDim S20000 ![] bcast_S_S20000 (constant S_ .f32 0x3F800000#32)))
        (broadcastInDim S64 ![] bcast_S_S64 (constant S_ .f32 0x3F800000#32)))))

/-- Round 0's weights: the slices of the stacked weight arrays. -/
def eW0 (a6 : FVec Ideal S3x64x256 .f32) : FVec Ideal S64x256 .f32 :=
  shapeCast S64x256 (extractStridedSlice S1x64x256 ![0, 0, 0] a6 slices_S3x64x256_S1x64x256_0_0_0) shapeCasts_S1x64x256_S64x256
def eb0 (a7 : FVec Ideal S3x256 .f32) : FVec Ideal S256 .f32 :=
  shapeCast S256 (extractStridedSlice S1x256 ![0, 0] a7 slices_S3x256_S1x256_0_0) shapeCasts_S1x256_S256
def mW1_0 (a8 : FVec Ideal S3x256x256 .f32) : FVec Ideal S256x256 .f32 :=
  shapeCast S256x256 (extractStridedSlice S1x256x256 ![0, 0, 0] a8 slices_S3x256x256_S1x256x256_0_0_0) shapeCasts_S1x256x256_S256x256
def mb1_0 (a9 : FVec Ideal S3x256 .f32) : FVec Ideal S256 .f32 :=
  shapeCast S256 (extractStridedSlice S1x256 ![0, 0] a9 slices_S3x256_S1x256_0_0) shapeCasts_S1x256_S256
def mW2_0 (a10 : FVec Ideal S3x256x256 .f32) : FVec Ideal S256x256 .f32 :=
  shapeCast S256x256 (extractStridedSlice S1x256x256 ![0, 0, 0] a10 slices_S3x256x256_S1x256x256_0_0_0) shapeCasts_S1x256x256_S256x256
def mb2_0 (a11 : FVec Ideal S3x256 .f32) : FVec Ideal S256 .f32 :=
  shapeCast S256 (extractStridedSlice S1x256 ![0, 0] a11 slices_S3x256_S1x256_0_0) shapeCasts_S1x256_S256

/-- Round 0 of the kernel program. -/
def p0 (a1 : IVec S2x320000 32) (a6 : FVec Ideal S3x64x256 .f32) (a7 : FVec Ideal S3x256 .f32) (a8 : FVec Ideal S3x256x256 .f32)
    (a9 : FVec Ideal S3x256 .f32) (a10 : FVec Ideal S3x256x256 .f32) (a11 : FVec Ideal S3x256 .f32) : Gine.LayerP 20000 256 320000 64 where
  gth := take (src a1)
  sct := sct (dst a1)
  eW := eW0 a6
  eb := eb0 a7
  W1 := mW1_0 a8
  b1 := mb1_0 a9
  W2 := mW2_0 a10
  b2 := mb2_0 a11

/-- Round 1's weights: the slices of the stacked weight arrays. -/
def eW1 (a6 : FVec Ideal S3x64x256 .f32) : FVec Ideal S64x256 .f32 :=
  shapeCast S64x256 (extractStridedSlice S1x64x256 ![1, 0, 0] a6 slices_S3x64x256_S1x64x256_1_0_0) shapeCasts_S1x64x256_S64x256
def eb1 (a7 : FVec Ideal S3x256 .f32) : FVec Ideal S256 .f32 :=
  shapeCast S256 (extractStridedSlice S1x256 ![1, 0] a7 slices_S3x256_S1x256_1_0) shapeCasts_S1x256_S256
def mW1_1 (a8 : FVec Ideal S3x256x256 .f32) : FVec Ideal S256x256 .f32 :=
  shapeCast S256x256 (extractStridedSlice S1x256x256 ![1, 0, 0] a8 slices_S3x256x256_S1x256x256_1_0_0) shapeCasts_S1x256x256_S256x256
def mb1_1 (a9 : FVec Ideal S3x256 .f32) : FVec Ideal S256 .f32 :=
  shapeCast S256 (extractStridedSlice S1x256 ![1, 0] a9 slices_S3x256_S1x256_1_0) shapeCasts_S1x256_S256
def mW2_1 (a10 : FVec Ideal S3x256x256 .f32) : FVec Ideal S256x256 .f32 :=
  shapeCast S256x256 (extractStridedSlice S1x256x256 ![1, 0, 0] a10 slices_S3x256x256_S1x256x256_1_0_0) shapeCasts_S1x256x256_S256x256
def mb2_1 (a11 : FVec Ideal S3x256 .f32) : FVec Ideal S256 .f32 :=
  shapeCast S256 (extractStridedSlice S1x256 ![1, 0] a11 slices_S3x256_S1x256_1_0) shapeCasts_S1x256_S256

/-- Round 1 of the kernel program. -/
def p1 (a1 : IVec S2x320000 32) (a6 : FVec Ideal S3x64x256 .f32) (a7 : FVec Ideal S3x256 .f32) (a8 : FVec Ideal S3x256x256 .f32)
    (a9 : FVec Ideal S3x256 .f32) (a10 : FVec Ideal S3x256x256 .f32) (a11 : FVec Ideal S3x256 .f32) : Gine.LayerP 20000 256 320000 64 where
  gth := take (src a1)
  sct := sct (dst a1)
  eW := eW1 a6
  eb := eb1 a7
  W1 := mW1_1 a8
  b1 := mb1_1 a9
  W2 := mW2_1 a10
  b2 := mb2_1 a11

/-- Round 2's weights: the slices of the stacked weight arrays. -/
def eW2 (a6 : FVec Ideal S3x64x256 .f32) : FVec Ideal S64x256 .f32 :=
  shapeCast S64x256 (extractStridedSlice S1x64x256 ![2, 0, 0] a6 slices_S3x64x256_S1x64x256_2_0_0) shapeCasts_S1x64x256_S64x256
def eb2 (a7 : FVec Ideal S3x256 .f32) : FVec Ideal S256 .f32 :=
  shapeCast S256 (extractStridedSlice S1x256 ![2, 0] a7 slices_S3x256_S1x256_2_0) shapeCasts_S1x256_S256
def mW1_2 (a8 : FVec Ideal S3x256x256 .f32) : FVec Ideal S256x256 .f32 :=
  shapeCast S256x256 (extractStridedSlice S1x256x256 ![2, 0, 0] a8 slices_S3x256x256_S1x256x256_2_0_0) shapeCasts_S1x256x256_S256x256
def mb1_2 (a9 : FVec Ideal S3x256 .f32) : FVec Ideal S256 .f32 :=
  shapeCast S256 (extractStridedSlice S1x256 ![2, 0] a9 slices_S3x256_S1x256_2_0) shapeCasts_S1x256_S256
def mW2_2 (a10 : FVec Ideal S3x256x256 .f32) : FVec Ideal S256x256 .f32 :=
  shapeCast S256x256 (extractStridedSlice S1x256x256 ![2, 0, 0] a10 slices_S3x256x256_S1x256x256_2_0_0) shapeCasts_S1x256x256_S256x256
def mb2_2 (a11 : FVec Ideal S3x256 .f32) : FVec Ideal S256 .f32 :=
  shapeCast S256 (extractStridedSlice S1x256 ![2, 0] a11 slices_S3x256_S1x256_2_0) shapeCasts_S1x256_S256

/-- Round 2 of the kernel program. -/
def p2 (a1 : IVec S2x320000 32) (a6 : FVec Ideal S3x64x256 .f32) (a7 : FVec Ideal S3x256 .f32) (a8 : FVec Ideal S3x256x256 .f32)
    (a9 : FVec Ideal S3x256 .f32) (a10 : FVec Ideal S3x256x256 .f32) (a11 : FVec Ideal S3x256 .f32) : Gine.LayerP 20000 256 320000 64 where
  gth := take (src a1)
  sct := sct (dst a1)
  eW := eW2 a6
  eb := eb2 a7
  W1 := mW1_2 a8
  b1 := mb1_2 a9
  W2 := mW2_2 a10
  b2 := mb2_2 a11

end Cert.KernelIdeal.KParams

end
-- ==== Proof.LibPlainDot.lean ====
/-
  A plain matrix product read at an index.

  For a contraction of an M×K matrix with a K×N matrix along the shared axis (the left operand's axis 1 against the
  right operand's axis 0, no batch axes), the entry at row r and column c is the sum over k of A[r, k] · B[k, c].
  This holds for the kernel's matrix product into a zero accumulator and for the host's dot product alike, on the
  extended reals, and it is stated for ANY dimension-number record with those axis lists, so that each printed record
  is an instance by reflexivity of its lists.
-/
import Idealize.ShloMosaic.Lib.ValueIdx
import Idealize.ShloMosaic.PureOps.Ideal.Laws

noncomputable section

namespace PlainDot

open Idealize.ShloMosaic Idealize.ShloMosaic.ValueIdx

variable {M K N : Nat} {φ₁ φ₂ : FTy}

/-- The axis lists of a plain product. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable (d : DotDims ⟨2, ![M, K]⟩ ⟨2, ![K, N]⟩ ⟨2, ![M, N]⟩) (hd : IsPlain d)

include hd

theorem contr_rank : d.contr.rank = 1 := by rw [d.rank_contr, hd.lc]; rfl

theorem contr_size : d.contr.size ⟨0, by rw [contr_rank d hd]; exact Nat.one_pos⟩ = K := by
  have h := d.size_contr 0 (by rw [hd.lc]; exact Nat.one_pos)
  rw [h]
  simp [hd.lc]

/-- The left operand is read at row `r`, column the contraction coordinate. -/
theorem lhsIdx_eq (r : Fin M) (c : Fin N) (k : Fin K) :
    d.lhsIdx (ix2 r c) ((contrEquiv1 d K (contr_rank d hd) (contr_size d hd)).symm k) = ix2 r k := by
  funext a
  apply Fin.ext
  match a with
  | ⟨0, _⟩ =>
    show (d.lhsIdx (ix2 r c) _ (0 : Fin 2)).val = r.val
    unfold DotDims.lhsIdx
    have hb : (0 : Fin 2) ∉ d.lhsBatch := by rw [hd.lb]; exact List.not_mem_nil
    have hn : (0 : Fin 2) ∈ d.lhsNonContracting := by rw [hd.ln]; exact List.mem_singleton.mpr rfl
    rw [dif_neg hb, dif_pos hn]
    simp only [Fin.val_cast]
    have key : ∀ (p : Nat) (hp : p < 2), p = 0 → ((ix2 r c : (⟨2, ![M, N]⟩ : Shape).Idx) ⟨p, hp⟩).val = r.val :=
      fun p hp h => by subst h; rfl
    exact key _ _ (by simp [hd.lb, hd.ln])
  | ⟨1, _⟩ =>
    show (d.lhsIdx (ix2 r c) _ (1 : Fin 2)).val = k.val
    rw [d.lhsIdx_val_of_single hd.lc]
    exact contrEquiv1_symm_val d K (contr_rank d hd) (contr_size d hd) k

/-- The right operand is read at row the contraction coordinate, column `c`. -/
theorem rhsIdx_eq (r : Fin M) (c : Fin N) (k : Fin K) :
    d.rhsIdx (ix2 r c) ((contrEquiv1 d K (contr_rank d hd) (contr_size d hd)).symm k) = ix2 k c := by
  funext a
  apply Fin.ext
  match a with
  | ⟨0, _⟩ =>
    show (d.rhsIdx (ix2 r c) _ (0 : Fin 2)).val = k.val
    rw [d.rhsIdx_val_of_single hd.rc]
    exact contrEquiv1_symm_val d K (contr_rank d hd) (contr_size d hd) k
  | ⟨1, _⟩ =>
    show (d.rhsIdx (ix2 r c) _ (1 : Fin 2)).val = c.val
    unfold DotDims.rhsIdx
    have hb : (1 : Fin 2) ∉ d.rhsBatch := by rw [hd.rb]; exact List.not_mem_nil
    have hn : (1 : Fin 2) ∈ d.rhsNonContracting := by rw [hd.rn]; exact List.mem_singleton.mpr rfl
    rw [dif_neg hb, dif_pos hn]
    simp only [Fin.val_cast]
    have key : ∀ (p : Nat) (hp : p < 2), p = 1 → ((ix2 r c : (⟨2, ![M, N]⟩ : Shape).Idx) ⟨p, hp⟩).val = c.val :=
      fun p hp h => by subst h; rfl
    exact key _ _ (by simp [hd.lb, hd.ln, hd.rn])

/-- The contraction sum, re-indexed by the shared axis's coordinate. -/
theorem sum_eq (A : (⟨2, ![M, K]⟩ : Shape).Idx → EReal) (B : (⟨2, ![K, N]⟩ : Shape).Idx → EReal) (r : Fin M) (c : Fin N) :
    (∑ q : d.contr.Idx, A (d.lhsIdx (ix2 r c) q) * B (d.rhsIdx (ix2 r c) q)) = ∑ k : Fin K, A (ix2 r k) * B (ix2 k c) := by
  rw [← Equiv.sum_comp (contrEquiv1 d K (contr_rank d hd) (contr_size d hd)).symm]
  exact Finset.sum_congr rfl fun k _ => by rw [lhsIdx_eq d hd r c k, rhsIdx_eq d hd r c k]

/-- The kernel's matrix product into the zero accumulator, at an entry. -/
theorem matmul_zero_apply (prec : Option ContractPrecision) (A : FVec Ideal ⟨2, ![M, K]⟩ φ₁) (B : FVec Ideal ⟨2, ![K, N]⟩ φ₂)
    (r : Fin M) (c : Fin N) :
    FloatOps.matmul d prec A B (constant ⟨2, ![M, N]⟩ .f32 0x00000000#32) (ix2 r c) = ∑ k : Fin K, A (ix2 r k) * B (ix2 k c) := by
  rw [Ideal.matmul_constant_zero_apply]
  exact sum_eq d hd A B r c

/-- The host's dot product, at an entry. -/
theorem dotGeneral_apply (prec : Option ContractPrecision) (sched : HostSchedule) (A : FVec Ideal ⟨2, ![M, K]⟩ φ₁)
    (B : FVec Ideal ⟨2, ![K, N]⟩ φ₂) (r : Fin M) (c : Fin N) :
    FloatOps.dotGeneral d prec sched A B (ix2 r c) = ∑ k : Fin K, A (ix2 r k) * B (ix2 k c) := by
  rw [Ideal.dotGeneral_apply]
  exact sum_eq d hd A B r c

end PlainDot

end
-- ==== Proof.LibAffine.lean ====
/-
  The affine layer X ↦ X·W + b and the cut-off max(·, 0), as the two programs spell them, are the specification's
  functions; and each of the specification's layers acts on every row by itself.

  The kernel forms X·W as a matrix product accumulated into zeros and adds a 1×N bias row broadcast over the rows; the
  host forms it as a dot product and adds a length-N bias broadcast over the rows. On the extended reals both are
  (∑ₖ X[r,k]·W[k,c]) + b[c]. Because entry (r, c) of every layer depends on row r of its row-indexed operands only, a
  layer applied to a selection of rows is the same selection of the layer's rows: this is what lets a result computed
  block of rows by block of rows be read as one function of the whole arrays.
-/
import proofs.«407353_j69303592288943_1_alg».proof.Proof.Spec
import proofs.«407353_j69303592288943_1_alg».proof.Proof.LibPlainDot
import Idealize.ShloMosaic.PureOps.Ideal.Laws
import Idealize.ShloMosaic.Lib.Pipeline.Value
import Idealize.ShloMosaic.Lib.ValueLayout
import Idealize.ShloMosaic.Lib.StableHlo.Predicate

noncomputable section

namespace Gine

open Idealize.ShloMosaic Idealize.ShloMosaic.ValueIdx

variable {M K N P : Nat}

/-- The one row of a 1×N array, as a length-N array. -/
def rowOf (b : Mat 1 N) : Row N := fun j => b (ix2 0 (j 0))

/-- A change of float format is the identity on the extended reals. -/
theorem truncf_id {s : Shape} {φ ψ : FTy} (a : FVec Ideal s φ) (h : ψ.bits < φ.bits) : (truncf ψ a h : FVec Ideal s ψ) = a := rfl

/-- The kernel's affine map: a matrix product into the zero accumulator plus a broadcast 1×N bias row is X·W + b. -/
theorem kernel_lin (d : DotDims ⟨2, ![M, K]⟩ ⟨2, ![K, N]⟩ ⟨2, ![M, N]⟩) (hd : PlainDot.IsPlain d) {φ₁ φ₂ : FTy}
    (prec : Option ContractPrecision) (X : FVec Ideal ⟨2, ![M, K]⟩ φ₁) (W : FVec Ideal ⟨2, ![K, N]⟩ φ₂)
    (b : FVec Ideal ⟨2, ![1, N]⟩ .f32) (hb : (⟨2, ![1, N]⟩ : Shape).Broadcasts ⟨2, ![M, N]⟩) :
    addf (matmul d prec X W (constant ⟨2, ![M, N]⟩ .f32 0x00000000#32)) (broadcastTo ⟨2, ![M, N]⟩ b hb)
      = lin X W (rowOf b) := by
  funext i
  obtain ⟨r, c, rfl⟩ : ∃ (r : Fin M) (c : Fin N), i = ix2 r c := ⟨i 0, i 1, eq_ix2 i⟩
  show FloatOps.matmul d prec X W (constant ⟨2, ![M, N]⟩ .f32 0x00000000#32) (ix2 r c) + broadcastTo ⟨2, ![M, N]⟩ b hb (ix2 r c) = _
  rw [PlainDot.matmul_zero_apply d hd prec X W r c,
    broadcastTo_apply b hb (ix2 r c) (ix2 0 c) (fun a => by
      match a with
      | ⟨0, _⟩ => simp
      | ⟨1, _⟩ =>
        show c.val = if N = 1 then 0 else c.val
        have := c.isLt
        split <;> omega)]
  rfl

/-- The host's affine map: a dot product plus a length-N bias broadcast along the rows is X·W + b. -/
theorem host_lin (d : DotDims ⟨2, ![M, K]⟩ ⟨2, ![K, N]⟩ ⟨2, ![M, N]⟩) (hd : PlainDot.IsPlain d) {φ₁ φ₂ : FTy}
    (prec : Option ContractPrecision) (X : FVec Ideal ⟨2, ![M, K]⟩ φ₁) (W : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral d prec X W) (broadcastInDim ⟨2, ![M, N]⟩ ![0, 1] h2 (broadcastInDim ⟨2, ![1, N]⟩ ![1] h1 b))
      = lin X W b := by
  funext i
  obtain ⟨r, c, rfl⟩ : ∃ (r : Fin M) (c : Fin N), i = ix2 r c := ⟨i 0, i 1, eq_ix2 i⟩
  show Host.dotGeneral d prec X W (ix2 r c) + broadcastInDim ⟨2, ![M, N]⟩ ![0, 1] h2 (broadcastInDim ⟨2, ![1, N]⟩ ![1] h1 b) (ix2 r c) = _
  simp only [Host.dotGeneral]
  rw [PlainDot.dotGeneral_apply d hd prec _ X W r c]
  rw [show (ix2 r c : (⟨2, ![M, N]⟩ : Shape).Idx) = StableHlo.Predicate.ij r c from rfl, StableHlo.Predicate.bcast_cols h1 h2 b r c]
  have e : (Shape.Idx.ofFin c : (⟨1, ![N]⟩ : Shape).Idx) = ix1 c := by
    funext a; match a with | ⟨0, _⟩ => rfl
  rw [e]
  rfl

/-- max(·, 0) with the kernel's splat of the zero word. -/
theorem kernel_relu (Y : FVec Ideal ⟨2, ![M, N]⟩ .f32) :
    maximumf Y (broadcast ⟨2, ![M, N]⟩ (Scalar.ofBits .f32 0x00000000#32)) = relu Y := by
  funext i
  show max (Y i) (Ideal.ofBits .f32 0x00000000#32) = max (Y i) 0
  rw [Ideal.ofBits_zero_f32]

/-- max(·, 0) with the host's broadcast of the zero constant. -/
theorem host_relu (Y : FVec Ideal ⟨2, ![M, N]⟩ .f32) (h : (⟨0, ![]⟩ : Shape).BroadcastsInDim ⟨2, ![M, N]⟩ ![]) :
    maximumf Y (broadcastInDim ⟨2, ![M, N]⟩ ![] h (constant ⟨0, ![]⟩ .f32 0x00000000#32)) = relu Y := by
  funext i
  show max (Y i) (broadcastInDim ⟨2, ![M, N]⟩ ![] h (constant ⟨0, ![]⟩ .f32 0x00000000#32) i) = max (Y i) 0
  rw [StableHlo.Predicate.bcast_scalar h (by decide) _ i]
  show max (Y i) (Ideal.ofBits .f32 0x00000000#32) = max (Y i) 0
  rw [Ideal.ofBits_zero_f32]

/-! ## Row selection: every operation above works row by row -/

/-- The rows f 0, f 1, … of an array, as an array. A block of consecutive rows is the case f r = offset + r. -/
def rowsOf {M' : Nat} (f : Fin M' → Fin M) (X : Mat M N) : Mat M' N := fun i => X (ix2 (f (i 0)) (i 1))

variable {M' : Nat} (f : Fin M' → Fin M)

theorem lin_rowsOf (X : Mat M K) (W : Mat K N) (b : Row N) : lin (rowsOf f X) W b = rowsOf f (lin X W b) := rfl

theorem relu_rowsOf (Y : Mat M N) : relu (rowsOf f Y) = rowsOf f (relu Y) := rfl

theorem msg_rowsOf (Hs : Mat M N) (EA : Mat M K) (W : Mat K N) (b : Row N) :
    msg (rowsOf f Hs) (rowsOf f EA) W b = rowsOf f (msg Hs EA W b) := rfl

theorem upd_rowsOf (H Ag : Mat M N) (W1 : Mat N N) (b1 : Row N) (W2 : Mat N N) (b2 : Row N) :
    upd (rowsOf f H) (rowsOf f Ag) W1 b1 W2 b2 = rowsOf f (upd H Ag W1 b1 W2 b2) := rfl

end Gine

end
-- ==== Proof.Region0.lean ====
/-
  Region 0 (the node projection). The region walks the 20000 rows in ten blocks of 2000; at each block it loads the
  block of x, the whole weight matrix and the 1×256 bias row, forms (block of x)·W + b and stores it as the same block
  of the output. Since the affine map acts row by row, the block of the result is the block of x·W + b of the whole
  arrays; the ten blocks tile the output, so after the region the output array is x·W + b.
-/
import proofs.«407353_j69303592288943_1_alg».proof.Proof.Gen.KernelIdeal.Frame
import proofs.«407353_j69303592288943_1_alg».proof.Proof.LibAffine

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

theorem dot_plain : PlainDot.IsPlain dot_S2000x128_S128x256_S2000x256_1_0_0_1_n_n := ⟨rfl, rfl, rfl, rfl, rfl, rfl⟩

/-- On a block of rows the body computes the affine map of the block. -/
theorem pay_eq (x0 : Vec Ideal S2000x128 .f32) (x1 : Vec Ideal S128x256 .f32) (x2 : Vec Ideal S1x256 .f32) :
    k0_pay1 x0 x1 x2 = Gine.lin x0 x1 (Gine.rowOf x2) := by
  unfold k0_pay1
  simp only [Gine.truncf_id, shapeCast_self]
  exact Gine.kernel_lin _ dot_plain none x0 x1 x2 _

/-- The rows of block t. -/
def rows (t : Fin cfg0.N) : Fin 2000 → Fin 20000 := fun r => ⟨2000 * t.val + r.val, by have := t.isLt; have := r.isLt; have : cfg0.N = 10 := N_0; omega⟩

theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Window 0's block at point t is rows 2000·t … of the array. -/
theorem blk0 (c : Dev nD) (t : Fin cfg0.N) : iblk0 V c 0 t = Gine.rowsOf (rows t) (V c main_arg0) := by
  obtain ⟨e0, e1, -⟩ := idx_facts t
  funext j
  show V c main_arg0 (((cfg0.win 0).blk t).view.emb j) = V c main_arg0 (ix2 (rows t (j 0)) (j 1))
  congr 1
  funext a; apply Fin.ext
  match a with
  | ⟨0, _⟩ => show win0_0.index t (0 : Fin 2) * 2000 + 1 * (j 0).val = 2000 * t.val + (j 0).val; omega
  | ⟨1, _⟩ => show win0_0.index t (1 : Fin 2) * 128 + 1 * (j 1).val = (j 1).val; omega

/-- Windows 1 and 2 hold their whole arrays at every point. -/
theorem blk1 (c : Dev nD) (t : Fin cfg0.N) : iblk0 V c 1 t = V c main_arg4 := by
  obtain ⟨-, -, e0, e1, -⟩ := idx_facts t
  funext j
  show V c main_arg4 (((cfg0.win 1).blk t).view.emb j) = V c main_arg4 j
  congr 1
  funext a; apply Fin.ext
  match a with
  | ⟨0, _⟩ => show win0_1.index t (0 : Fin 2) * 128 + 1 * (j 0).val = (j 0).val; omega
  | ⟨1, _⟩ => show win0_1.index t (1 : Fin 2) * 256 + 1 * (j 1).val = (j 1).val; omega

theorem blk2 (c : Dev nD) (t : Fin cfg0.N) : iblk0 V c 2 t = V c main_v4 := by
  obtain ⟨-, -, -, -, e0, e1, -⟩ := idx_facts t
  funext j
  show V c main_v4 (((cfg0.win 2).blk t).view.emb j) = V c main_v4 j
  congr 1
  funext a; apply Fin.ext
  match a with
  | ⟨0, _⟩ => show win0_2.index t (0 : Fin 2) * 1 + 1 * (j 0).val = (j 0).val; omega
  | ⟨1, _⟩ => show win0_2.index t (1 : Fin 2) * 256 + 1 * (j 1).val = (j 1).val; omega

/-- The output window's block at point t, read out of a whole array, is the same selection of rows. -/
theorem read_out (t : Fin cfg0.N) (G : Gine.Mat 20000 256) :
    ((cfg0.win 3).blk t).view.read (Elt Ideal) G = Gine.rowsOf (rows t) G := by
  obtain ⟨-, -, -, -, -, -, e0, e1⟩ := idx_facts t
  funext j
  show G (((cfg0.win 3).blk t).view.emb j) = G (ix2 (rows t (j 0)) (j 1))
  congr 1
  funext a; apply Fin.ext
  match a with
  | ⟨0, _⟩ => show win0_3.index t (0 : Fin 2) * 2000 + 1 * (j 0).val = 2000 * t.val + (j 0).val; omega
  | ⟨1, _⟩ => show win0_3.index t (1 : Fin 2) * 256 + 1 * (j 1).val = (j 1).val; omega

theorem flushed_eq (c : Dev nD) (t : Fin cfg0.N) :
    (dat0 V c).flushed 3 t = ((cfg0.win 3).blk t).view.read (Elt Ideal) (Gine.lin (V c main_arg0) (V c main_arg4) (Gine.rowOf (V c main_v4))) := by
  show (cfg0.win 3).cut (grid0.coords t) ((dat0 V c).after 3 t) = _
  rw [after0_3]
  unfold out0_3
  rw [View.canon_unit_zero hz]
  simp only [View.ld_unit_zero (S := S2000x128) hz, View.ld_unit_zero (S := S128x256) hz, View.ld_unit_zero (S := S1x256) hz]
  rw [pay_eq, blk0 V c t, blk1 V c t, blk2 V c t, Gine.lin_rowsOf]
  exact (read_out t _).symm

/-- An index of the array is in point t's block iff each coordinate is in the block's range on its axis. -/
theorem mem_blk (t : Fin cfg0.N) (i : S20000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v5).slice (win0_3.rect t)).set ↔ _
  rw [View.set_slice_whole, Rect.mem_set_unit]
  exact Iff.rfl

/-- Row i₀ lies in the block of point i₀ / 2000: the blocks tile the array. -/
theorem cover (i : S20000x256.Idx) : ∃ t : Fin cfg0.N, (cfg0.win 3).flush t = true ∧ i ∈ ((cfg0.win 3).blk t).view.set := by
  have hi0 : (i 0).val < 20000 := (i 0).isLt
  have hi1 : (i 1).val < 256 := (i 1).isLt
  have hN : cfg0.N = 10 := N_0
  refine ⟨⟨(i 0).val / 2000, by omega⟩, flush0_3 _, ?_⟩
  obtain ⟨-, -, -, -, -, -, e0, e1⟩ := idx_facts ⟨(i 0).val / 2000, by omega⟩
  rw [mem_blk]
  intro a
  match a with
  | ⟨0, _⟩ =>
    show win0_3.index _ (0 : Fin 2) * 2000 ≤ (i 0).val ∧ (i 0).val < win0_3.index _ (0 : Fin 2) * 2000 + 2000
    rw [e0]; show (i 0).val / 2000 * 2000 ≤ (i 0).val ∧ (i 0).val < (i 0).val / 2000 * 2000 + 2000; omega
  | ⟨1, _⟩ =>
    show win0_3.index _ (1 : Fin 2) * 256 ≤ (i 1).val ∧ (i 1).val < win0_3.index _ (1 : Fin 2) * 256 + 256
    rw [e1]; omega

/-- After the region the output array is the affine map of the whole arrays, whatever the region found in them. -/
theorem arr (c : Dev nD) :
    (dat0 V c).arrAt 3 cfg0.N = Gine.lin (V c main_arg0) (V c main_arg4) (Gine.rowOf (V c main_v4)) :=
  (dat0 V c).arrAt_eq_of_cover 3 _ (fun t _ => flushed_eq V c t) cover

end Cert.KernelIdeal.Region0

end
-- ==== Proof.KBase.lean ====
/-
  The kernel program's run starts from the launch memory: the first stretch of host operations cuts the edge list into
  its source and target rows and lays the projection's bias out as a 1×256 row; the first region then leaves x·W + b in
  its output array. Also two small facts used all along the run: a length-N array laid out as 1×N and read back as a
  row is the array, and contents carried to a buffer's own type and back are the contents.
-/
import proofs.«407353_j69303592288943_1_alg».proof.Proof.Gen.KernelIdeal.Frame
import proofs.«407353_j69303592288943_1_alg».proof.Proof.KeepA
import proofs.«407353_j69303592288943_1_alg».proof.Proof.KParams
import proofs.«407353_j69303592288943_1_alg».proof.Proof.LibAffine
import proofs.«407353_j69303592288943_1_alg».proof.Proof.Region0
import Idealize.ShloMosaic.Lib.StableHlo.Run

set_option maxRecDepth 16384

noncomputable section

namespace Cert.KernelIdeal.KBase

open Cert.KernelIdeal Cert.KernelIdeal.Gen
open Idealize.ShloMosaic Idealize.ShloMosaic.TcCoe Idealize.SL.Sem Idealize.ShloMosaic.ValueIdx

/-- A length-N array reshaped to 1×N and read back as its one row is the array. -/
theorem rowOf_reshape {N : Nat} (v : (⟨1, ![N]⟩ : Shape).Idx → EReal) (h : (⟨1, ![N]⟩ : Shape).ShapeCasts ⟨2, ![1, N]⟩) :
    Gine.rowOf (shapeCast ⟨2, ![1, N]⟩ v h) = v := by
  funext j
  show shapeCast ⟨2, ![1, N]⟩ v h (ix2 0 (j 0)) = v j
  rw [shapeCast_addUnit_apply ![N] v h]
  congr 1
  funext a
  match a with
  | ⟨0, _⟩ => rfl

/-- Contents carried to a buffer's own type and back are the contents. -/
theorem ofBuf_toBuf {sig : RefSig} {Val : EltTy → Type} {T : BufTy} (x : StableHlo.TRef sig T) (v : T.Contents Val) :
    x.ofBuf (x.toBuf v) = v := by
  obtain ⟨r, h, a, b⟩ := x
  subst h
  rfl

/-- The source rows, read through their buffer's type, are the buffer's contents. -/
theorem of_src (Wc : Valuation τ sig (Elt Ideal)) (h1 : main_v1.ty = ⟨S320000, .i32⟩) (h2 h3) :
    (StableHlo.TRef.of (T := ⟨S320000, .i32⟩) main_v1 h1 h2 h3).ofBuf (Wc (Proc.devRef .tc main_v1)) = Wc (Proc.devRef .tc main_v1) := rfl

variable (m : (ℓ : Loc nD τ sig) → Buf (Elt Ideal) ℓ) (ρ : Dev nD → PrngReg)

/-- At launch every buffer holds the launch memory. -/
theorem launch (c : Dev nD) (b : Ref sig .tc) : W0 m ρ c (Proc.devRef .tc b) = (m ((c : Thread nD τ).loc b)) := rfl

/-- After the first stretch of host operations: the edge list's two rows and the projection's bias as a 1×256 row. -/
theorem src_W1 (c : Dev nD) : W1 m ρ c (Proc.devRef .tc main_v1) = KParams.src (m ((c : Thread nD τ).loc main_arg1)) := by
  show StableHlo.after hostOps0 (W0 m ρ c) (Proc.devRef .tc main_v1) = _
  after_results
  rfl

theorem dst_W1 (c : Dev nD) : W1 m ρ c (Proc.devRef .tc main_v3) = KParams.dst (m ((c : Thread nD τ).loc main_arg1)) := by
  show StableHlo.after hostOps0 (W0 m ρ c) (Proc.devRef .tc main_v3) = _
  after_results
  rfl

theorem bias_W1 (c : Dev nD) : W1 m ρ c (Proc.devRef .tc main_v4) = shapeCast S1x256 (m ((c : Thread nD τ).loc main_arg5)) shapeCasts_S256_S1x256 := by
  show StableHlo.after hostOps0 (W0 m ρ c) (Proc.devRef .tc main_v4) = _
  after_results
  rfl

/-- Region 0: the node projection of the launch arrays. -/
theorem proj_W2 (c : Dev nD) :
    W2 m ρ c (Proc.devRef .tc main_v5) = Gine.lin (m ((c : Thread nD τ).loc main_arg0)) (m ((c : Thread nD τ).loc main_arg4)) (m ((c : Thread nD τ).loc main_arg5)) := by
  have e : W2 m ρ c (Proc.devRef .tc main_v5) = Gine.lin (W1 m ρ c (Proc.devRef .tc main_arg0)) (W1 m ρ c (Proc.devRef .tc main_arg4)) (Gine.rowOf (W1 m ρ c (Proc.devRef .tc main_v4))) :=
    (W2_arr m ρ c 3).trans (Region0.arr (V1 m ρ) c)
  rw [e, KeepA.at1_main_arg0, KeepA.at1_main_arg4, bias_W1, rowOf_reshape]

end Cert.KernelIdeal.KBase

end
-- ==== Proof.KeepB.lean ====
/-
  A table of cases. The kernel program's run passes through twenty boundaries W0 … W19, one segment of @main (a stretch
  of host operations, or a pallas_call region) between consecutive ones. Each lemma k<j>_<buffer> says that the segment
  from boundary j to boundary j+1 leaves that buffer as it was: no operation of a host stretch writes it; a region
  writes only its output arrays and hands its input arrays back unchanged. Each lemma at<j>_<buffer> chains them: the buffer at
  boundary j holds what it held right after the segment that wrote it (an argument of @main: what the launch memory holds).
-/
import proofs.«407353_j69303592288943_1_alg».proof.Proof.Gen.KernelIdeal.Frame
import Idealize.ShloMosaic.PureOps.Ideal

set_option maxRecDepth 16384

noncomputable section

namespace Cert.KernelIdeal.KeepB

open Cert.KernelIdeal Cert.KernelIdeal.Gen
open Idealize.ShloMosaic Idealize.ShloMosaic.TcCoe Idealize.SL.Sem

/-- A buffer none of a stretch's operations writes is, after the stretch, what it was before. -/
macro "keep_host " ops:ident ", " b:ident : tactic => `(tactic|
  exact StableHlo.after_of_forall_not_mem (b := Proc.devRef .tc $b) _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

variable (m : (ℓ : Loc nD τ sig) → Buf (Elt Ideal) ℓ) (ρ : Dev nD → PrngReg)

theorem k0_main_arg8 (c : Dev nD) : W1 m ρ c (Proc.devRef .tc main_arg8) = W0 m ρ c (Proc.devRef .tc main_arg8) := by keep_host hostOps0, main_arg8
theorem k1_main_arg8 (c : Dev nD) : W2 m ρ c (Proc.devRef .tc main_arg8) = W1 m ρ c (Proc.devRef .tc main_arg8) := W2_of_ne m ρ c main_arg8 (by decide)
theorem k2_main_arg8 (c : Dev nD) : W3 m ρ c (Proc.devRef .tc main_arg8) = W2 m ρ c (Proc.devRef .tc main_arg8) := by keep_host hostOps1, main_arg8
theorem k3_main_arg8 (c : Dev nD) : W4 m ρ c (Proc.devRef .tc main_arg8) = W3 m ρ c (Proc.devRef .tc main_arg8) := by keep_host hostOps1_1, main_arg8
theorem k4_main_arg8 (c : Dev nD) : W5 m ρ c (Proc.devRef .tc main_arg8) = W4 m ρ c (Proc.devRef .tc main_arg8) := W5_of_ne m ρ c main_arg8 (by decide)
theorem k5_main_arg8 (c : Dev nD) : W6 m ρ c (Proc.devRef .tc main_arg8) = W5 m ρ c (Proc.devRef .tc main_arg8) := by keep_host hostOps2, main_arg8
theorem k6_main_arg8 (c : Dev nD) : W7 m ρ c (Proc.devRef .tc main_arg8) = W6 m ρ c (Proc.devRef .tc main_arg8) := W7_of_ne m ρ c main_arg8 (by decide)
theorem k7_main_arg8 (c : Dev nD) : W8 m ρ c (Proc.devRef .tc main_arg8) = W7 m ρ c (Proc.devRef .tc main_arg8) := by keep_host hostOps3, main_arg8
theorem k8_main_arg8 (c : Dev nD) : W9 m ρ c (Proc.devRef .tc main_arg8) = W8 m ρ c (Proc.devRef .tc main_arg8) := by keep_host hostOps3_1, main_arg8
theorem k9_main_arg8 (c : Dev nD) : W10 m ρ c (Proc.devRef .tc main_arg8) = W9 m ρ c (Proc.devRef .tc main_arg8) := W10_of_ne m ρ c main_arg8 (by decide)
theorem k10_main_arg8 (c : Dev nD) : W11 m ρ c (Proc.devRef .tc main_arg8) = W10 m ρ c (Proc.devRef .tc main_arg8) := by keep_host hostOps4, main_arg8
theorem k11_main_arg8 (c : Dev nD) : W12 m ρ c (Proc.devRef .tc main_arg8) = W11 m ρ c (Proc.devRef .tc main_arg8) := W12_of_ne m ρ c main_arg8 (by decide)
theorem k12_main_arg8 (c : Dev nD) : W13 m ρ c (Proc.devRef .tc main_arg8) = W12 m ρ c (Proc.devRef .tc main_arg8) := by keep_host hostOps5, main_arg8
theorem k13_main_arg8 (c : Dev nD) : W14 m ρ c (Proc.devRef .tc main_arg8) = W13 m ρ c (Proc.devRef .tc main_arg8) := by keep_host hostOps5_1, main_arg8
theorem k14_main_arg8 (c : Dev nD) : W15 m ρ c (Proc.devRef .tc main_arg8) = W14 m ρ c (Proc.devRef .tc main_arg8) := W15_of_ne m ρ c main_arg8 (by decide)
theorem at0_main_arg8 (c : Dev nD) : W0 m ρ c (Proc.devRef .tc main_arg8) = m ((c : Thread nD τ).loc main_arg8) := rfl
theorem at1_main_arg8 (c : Dev nD) : W1 m ρ c (Proc.devRef .tc main_arg8) = m ((c : Thread nD τ).loc main_arg8) := (k0_main_arg8 m ρ c).trans (at0_main_arg8 m ρ c)
theorem at2_main_arg8 (c : Dev nD) : W2 m ρ c (Proc.devRef .tc main_arg8) = m ((c : Thread nD τ).loc main_arg8) := (k1_main_arg8 m ρ c).trans (at1_main_arg8 m ρ c)
theorem at3_main_arg8 (c : Dev nD) : W3 m ρ c (Proc.devRef .tc main_arg8) = m ((c : Thread nD τ).loc main_arg8) := (k2_main_arg8 m ρ c).trans (at2_main_arg8 m ρ c)
theorem at4_main_arg8 (c : Dev nD) : W4 m ρ c (Proc.devRef .tc main_arg8) = m ((c : Thread nD τ).loc main_arg8) := (k3_main_arg8 m ρ c).trans (at3_main_arg8 m ρ c)
theorem at5_main_arg8 (c : Dev nD) : W5 m ρ c (Proc.devRef .tc main_arg8) = m ((c : Thread nD τ).loc main_arg8) := (k4_main_arg8 m ρ c).trans (at4_main_arg8 m ρ c)
theorem at6_main_arg8 (c : Dev nD) : W6 m ρ c (Proc.devRef .tc main_arg8) = m ((c : Thread nD τ).loc main_arg8) := (k5_main_arg8 m ρ c).trans (at5_main_arg8 m ρ c)
theorem at7_main_arg8 (c : Dev nD) : W7 m ρ c (Proc.devRef .tc main_arg8) = m ((c : Thread nD τ).loc main_arg8) := (k6_main_arg8 m ρ c).trans (at6_main_arg8 m ρ c)
theorem at8_main_arg8 (c : Dev nD) : W8 m ρ c (Proc.devRef .tc main_arg8) = m ((c : Thread nD τ).loc main_arg8) := (k7_main_arg8 m ρ c).trans (at7_main_arg8 m ρ c)
theorem at9_main_arg8 (c : Dev nD) : W9 m ρ c (Proc.devRef .tc main_arg8) = m ((c : Thread nD τ).loc main_arg8) := (k8_main_arg8 m ρ c).trans (at8_main_arg8 m ρ c)
theorem at10_main_arg8 (c : Dev nD) : W10 m ρ c (Proc.devRef .tc main_arg8) = m ((c : Thread nD τ).loc main_arg8) := (k9_main_arg8 m ρ c).trans (at9_main_arg8 m ρ c)
theorem at11_main_arg8 (c : Dev nD) : W11 m ρ c (Proc.devRef .tc main_arg8) = m ((c : Thread nD τ).loc main_arg8) := (k10_main_arg8 m ρ c).trans (at10_main_arg8 m ρ c)
theorem at12_main_arg8 (c : Dev nD) : W12 m ρ c (Proc.devRef .tc main_arg8) = m ((c : Thread nD τ).loc main_arg8) := (k11_main_arg8 m ρ c).trans (at11_main_arg8 m ρ c)
theorem at13_main_arg8 (c : Dev nD) : W13 m ρ c (Proc.devRef .tc main_arg8) = m ((c : Thread nD τ).loc main_arg8) := (k12_main_arg8 m ρ c).trans (at12_main_arg8 m ρ c)
theorem at14_main_arg8 (c : Dev nD) : W14 m ρ c (Proc.devRef .tc main_arg8) = m ((c : Thread nD τ).loc main_arg8) := (k13_main_arg8 m ρ c).trans (at13_main_arg8 m ρ c)
theorem at15_main_arg8 (c : Dev nD) : W15 m ρ c (Proc.devRef .tc main_arg8) = m ((c : Thread nD τ).loc main_arg8) := (k14_main_arg8 m ρ c).trans (at14_main_arg8 m ρ c)

theorem k0_main_arg9 (c : Dev nD) : W1 m ρ c (Proc.devRef .tc main_arg9) = W0 m ρ c (Proc.devRef .tc main_arg9) := by keep_host hostOps0, main_arg9
theorem k1_main_arg9 (c : Dev nD) : W2 m ρ c (Proc.devRef .tc main_arg9) = W1 m ρ c (Proc.devRef .tc main_arg9) := W2_of_ne m ρ c main_arg9 (by decide)
theorem k2_main_arg9 (c : Dev nD) : W3 m ρ c (Proc.devRef .tc main_arg9) = W2 m ρ c (Proc.devRef .tc main_arg9) := by keep_host hostOps1, main_arg9
theorem k3_main_arg9 (c : Dev nD) : W4 m ρ c (Proc.devRef .tc main_arg9) = W3 m ρ c (Proc.devRef .tc main_arg9) := by keep_host hostOps1_1, main_arg9
theorem k4_main_arg9 (c : Dev nD) : W5 m ρ c (Proc.devRef .tc main_arg9) = W4 m ρ c (Proc.devRef .tc main_arg9) := W5_of_ne m ρ c main_arg9 (by decide)
theorem k5_main_arg9 (c : Dev nD) : W6 m ρ c (Proc.devRef .tc main_arg9) = W5 m ρ c (Proc.devRef .tc main_arg9) := by keep_host hostOps2, main_arg9
theorem k6_main_arg9 (c : Dev nD) : W7 m ρ c (Proc.devRef .tc main_arg9) = W6 m ρ c (Proc.devRef .tc main_arg9) := W7_of_ne m ρ c main_arg9 (by decide)
theorem k7_main_arg9 (c : Dev nD) : W8 m ρ c (Proc.devRef .tc main_arg9) = W7 m ρ c (Proc.devRef .tc main_arg9) := by keep_host hostOps3, main_arg9
theorem k8_main_arg9 (c : Dev nD) : W9 m ρ c (Proc.devRef .tc main_arg9) = W8 m ρ c (Proc.devRef .tc main_arg9) := by keep_host hostOps3_1, main_arg9
theorem k9_main_arg9 (c : Dev nD) : W10 m ρ c (Proc.devRef .tc main_arg9) = W9 m ρ c (Proc.devRef .tc main_arg9) := W10_of_ne m ρ c main_arg9 (by decide)
theorem k10_main_arg9 (c : Dev nD) : W11 m ρ c (Proc.devRef .tc main_arg9) = W10 m ρ c (Proc.devRef .tc main_arg9) := by keep_host hostOps4, main_arg9
theorem k11_main_arg9 (c : Dev nD) : W12 m ρ c (Proc.devRef .tc main_arg9) = W11 m ρ c (Proc.devRef .tc main_arg9) := W12_of_ne m ρ c main_arg9 (by decide)
theorem k12_main_arg9 (c : Dev nD) : W13 m ρ c (Proc.devRef .tc main_arg9) = W12 m ρ c (Proc.devRef .tc main_arg9) := by keep_host hostOps5, main_arg9
theorem k13_main_arg9 (c : Dev nD) : W14 m ρ c (Proc.devRef .tc main_arg9) = W13 m ρ c (Proc.devRef .tc main_arg9) := by keep_host hostOps5_1, main_arg9
theorem k14_main_arg9 (c : Dev nD) : W15 m ρ c (Proc.devRef .tc main_arg9) = W14 m ρ c (Proc.devRef .tc main_arg9) := W15_of_ne m ρ c main_arg9 (by decide)
theorem at0_main_arg9 (c : Dev nD) : W0 m ρ c (Proc.devRef .tc main_arg9) = m ((c : Thread nD τ).loc main_arg9) := rfl
theorem at1_main_arg9 (c : Dev nD) : W1 m ρ c (Proc.devRef .tc main_arg9) = m ((c : Thread nD τ).loc main_arg9) := (k0_main_arg9 m ρ c).trans (at0_main_arg9 m ρ c)
theorem at2_main_arg9 (c : Dev nD) : W2 m ρ c (Proc.devRef .tc main_arg9) = m ((c : Thread nD τ).loc main_arg9) := (k1_main_arg9 m ρ c).trans (at1_main_arg9 m ρ c)
theorem at3_main_arg9 (c : Dev nD) : W3 m ρ c (Proc.devRef .tc main_arg9) = m ((c : Thread nD τ).loc main_arg9) := (k2_main_arg9 m ρ c).trans (at2_main_arg9 m ρ c)
theorem at4_main_arg9 (c : Dev nD) : W4 m ρ c (Proc.devRef .tc main_arg9) = m ((c : Thread nD τ).loc main_arg9) := (k3_main_arg9 m ρ c).trans (at3_main_arg9 m ρ c)
theorem at5_main_arg9 (c : Dev nD) : W5 m ρ c (Proc.devRef .tc main_arg9) = m ((c : Thread nD τ).loc main_arg9) := (k4_main_arg9 m ρ c).trans (at4_main_arg9 m ρ c)
theorem at6_main_arg9 (c : Dev nD) : W6 m ρ c (Proc.devRef .tc main_arg9) = m ((c : Thread nD τ).loc main_arg9) := (k5_main_arg9 m ρ c).trans (at5_main_arg9 m ρ c)
theorem at7_main_arg9 (c : Dev nD) : W7 m ρ c (Proc.devRef .tc main_arg9) = m ((c : Thread nD τ).loc main_arg9) := (k6_main_arg9 m ρ c).trans (at6_main_arg9 m ρ c)
theorem at8_main_arg9 (c : Dev nD) : W8 m ρ c (Proc.devRef .tc main_arg9) = m ((c : Thread nD τ).loc main_arg9) := (k7_main_arg9 m ρ c).trans (at7_main_arg9 m ρ c)
theorem at9_main_arg9 (c : Dev nD) : W9 m ρ c (Proc.devRef .tc main_arg9) = m ((c : Thread nD τ).loc main_arg9) := (k8_main_arg9 m ρ c).trans (at8_main_arg9 m ρ c)
theorem at10_main_arg9 (c : Dev nD) : W10 m ρ c (Proc.devRef .tc main_arg9) = m ((c : Thread nD τ).loc main_arg9) := (k9_main_arg9 m ρ c).trans (at9_main_arg9 m ρ c)
theorem at11_main_arg9 (c : Dev nD) : W11 m ρ c (Proc.devRef .tc main_arg9) = m ((c : Thread nD τ).loc main_arg9) := (k10_main_arg9 m ρ c).trans (at10_main_arg9 m ρ c)
theorem at12_main_arg9 (c : Dev nD) : W12 m ρ c (Proc.devRef .tc main_arg9) = m ((c : Thread nD τ).loc main_arg9) := (k11_main_arg9 m ρ c).trans (at11_main_arg9 m ρ c)
theorem at13_main_arg9 (c : Dev nD) : W13 m ρ c (Proc.devRef .tc main_arg9) = m ((c : Thread nD τ).loc main_arg9) := (k12_main_arg9 m ρ c).trans (at12_main_arg9 m ρ c)
theorem at14_main_arg9 (c : Dev nD) : W14 m ρ c (Proc.devRef .tc main_arg9) = m ((c : Thread nD τ).loc main_arg9) := (k13_main_arg9 m ρ c).trans (at13_main_arg9 m ρ c)
theorem at15_main_arg9 (c : Dev nD) : W15 m ρ c (Proc.devRef .tc main_arg9) = m ((c : Thread nD τ).loc main_arg9) := (k14_main_arg9 m ρ c).trans (at14_main_arg9 m ρ c)

theorem k0_main_arg10 (c : Dev nD) : W1 m ρ c (Proc.devRef .tc main_arg10) = W0 m ρ c (Proc.devRef .tc main_arg10) := by keep_host hostOps0, main_arg10
theorem k1_main_arg10 (c : Dev nD) : W2 m ρ c (Proc.devRef .tc main_arg10) = W1 m ρ c (Proc.devRef .tc main_arg10) := W2_of_ne m ρ c main_arg10 (by decide)
theorem k2_main_arg10 (c : Dev nD) : W3 m ρ c (Proc.devRef .tc main_arg10) = W2 m ρ c (Proc.devRef .tc main_arg10) := by keep_host hostOps1, main_arg10
theorem k3_main_arg10 (c : Dev nD) : W4 m ρ c (Proc.devRef .tc main_arg10) = W3 m ρ c (Proc.devRef .tc main_arg10) := by keep_host hostOps1_1, main_arg10
theorem k4_main_arg10 (c : Dev nD) : W5 m ρ c (Proc.devRef .tc main_arg10) = W4 m ρ c (Proc.devRef .tc main_arg10) := W5_of_ne m ρ c main_arg10 (by decide)
theorem k5_main_arg10 (c : Dev nD) : W6 m ρ c (Proc.devRef .tc main_arg10) = W5 m ρ c (Proc.devRef .tc main_arg10) := by keep_host hostOps2, main_arg10
theorem k6_main_arg10 (c : Dev nD) : W7 m ρ c (Proc.devRef .tc main_arg10) = W6 m ρ c (Proc.devRef .tc main_arg10) := W7_of_ne m ρ c main_arg10 (by decide)
theorem k7_main_arg10 (c : Dev nD) : W8 m ρ c (Proc.devRef .tc main_arg10) = W7 m ρ c (Proc.devRef .tc main_arg10) := by keep_host hostOps3, main_arg10
theorem k8_main_arg10 (c : Dev nD) : W9 m ρ c (Proc.devRef .tc main_arg10) = W8 m ρ c (Proc.devRef .tc main_arg10) := by keep_host hostOps3_1, main_arg10
theorem k9_main_arg10 (c : Dev nD) : W10 m ρ c (Proc.devRef .tc main_arg10) = W9 m ρ c (Proc.devRef .tc main_arg10) := W10_of_ne m ρ c main_arg10 (by decide)
theorem k10_main_arg10 (c : Dev nD) : W11 m ρ c (Proc.devRef .tc main_arg10) = W10 m ρ c (Proc.devRef .tc main_arg10) := by keep_host hostOps4, main_arg10
theorem k11_main_arg10 (c : Dev nD) : W12 m ρ c (Proc.devRef .tc main_arg10) = W11 m ρ c (Proc.devRef .tc main_arg10) := W12_of_ne m ρ c main_arg10 (by decide)
theorem k12_main_arg10 (c : Dev nD) : W13 m ρ c (Proc.devRef .tc main_arg10) = W12 m ρ c (Proc.devRef .tc main_arg10) := by keep_host hostOps5, main_arg10
theorem k13_main_arg10 (c : Dev nD) : W14 m ρ c (Proc.devRef .tc main_arg10) = W13 m ρ c (Proc.devRef .tc main_arg10) := by keep_host hostOps5_1, main_arg10
theorem k14_main_arg10 (c : Dev nD) : W15 m ρ c (Proc.devRef .tc main_arg10) = W14 m ρ c (Proc.devRef .tc main_arg10) := W15_of_ne m ρ c main_arg10 (by decide)
theorem at0_main_arg10 (c : Dev nD) : W0 m ρ c (Proc.devRef .tc main_arg10) = m ((c : Thread nD τ).loc main_arg10) := rfl
theorem at1_main_arg10 (c : Dev nD) : W1 m ρ c (Proc.devRef .tc main_arg10) = m ((c : Thread nD τ).loc main_arg10) := (k0_main_arg10 m ρ c).trans (at0_main_arg10 m ρ c)
theorem at2_main_arg10 (c : Dev nD) : W2 m ρ c (Proc.devRef .tc main_arg10) = m ((c : Thread nD τ).loc main_arg10) := (k1_main_arg10 m ρ c).trans (at1_main_arg10 m ρ c)
theorem at3_main_arg10 (c : Dev nD) : W3 m ρ c (Proc.devRef .tc main_arg10) = m ((c : Thread nD τ).loc main_arg10) := (k2_main_arg10 m ρ c).trans (at2_main_arg10 m ρ c)
theorem at4_main_arg10 (c : Dev nD) : W4 m ρ c (Proc.devRef .tc main_arg10) = m ((c : Thread nD τ).loc main_arg10) := (k3_main_arg10 m ρ c).trans (at3_main_arg10 m ρ c)
theorem at5_main_arg10 (c : Dev nD) : W5 m ρ c (Proc.devRef .tc main_arg10) = m ((c : Thread nD τ).loc main_arg10) := (k4_main_arg10 m ρ c).trans (at4_main_arg10 m ρ c)
theorem at6_main_arg10 (c : Dev nD) : W6 m ρ c (Proc.devRef .tc main_arg10) = m ((c : Thread nD τ).loc main_arg10) := (k5_main_arg10 m ρ c).trans (at5_main_arg10 m ρ c)
theorem at7_main_arg10 (c : Dev nD) : W7 m ρ c (Proc.devRef .tc main_arg10) = m ((c : Thread nD τ).loc main_arg10) := (k6_main_arg10 m ρ c).trans (at6_main_arg10 m ρ c)
theorem at8_main_arg10 (c : Dev nD) : W8 m ρ c (Proc.devRef .tc main_arg10) = m ((c : Thread nD τ).loc main_arg10) := (k7_main_arg10 m ρ c).trans (at7_main_arg10 m ρ c)
theorem at9_main_arg10 (c : Dev nD) : W9 m ρ c (Proc.devRef .tc main_arg10) = m ((c : Thread nD τ).loc main_arg10) := (k8_main_arg10 m ρ c).trans (at8_main_arg10 m ρ c)
theorem at10_main_arg10 (c : Dev nD) : W10 m ρ c (Proc.devRef .tc main_arg10) = m ((c : Thread nD τ).loc main_arg10) := (k9_main_arg10 m ρ c).trans (at9_main_arg10 m ρ c)
theorem at11_main_arg10 (c : Dev nD) : W11 m ρ c (Proc.devRef .tc main_arg10) = m ((c : Thread nD τ).loc main_arg10) := (k10_main_arg10 m ρ c).trans (at10_main_arg10 m ρ c)
theorem at12_main_arg10 (c : Dev nD) : W12 m ρ c (Proc.devRef .tc main_arg10) = m ((c : Thread nD τ).loc main_arg10) := (k11_main_arg10 m ρ c).trans (at11_main_arg10 m ρ c)
theorem at13_main_arg10 (c : Dev nD) : W13 m ρ c (Proc.devRef .tc main_arg10) = m ((c : Thread nD τ).loc main_arg10) := (k12_main_arg10 m ρ c).trans (at12_main_arg10 m ρ c)
theorem at14_main_arg10 (c : Dev nD) : W14 m ρ c (Proc.devRef .tc main_arg10) = m ((c : Thread nD τ).loc main_arg10) := (k13_main_arg10 m ρ c).trans (at13_main_arg10 m ρ c)
theorem at15_main_arg10 (c : Dev nD) : W15 m ρ c (Proc.devRef .tc main_arg10) = m ((c : Thread nD τ).loc main_arg10) := (k14_main_arg10 m ρ c).trans (at14_main_arg10 m ρ c)

theorem k0_main_arg11 (c : Dev nD) : W1 m ρ c (Proc.devRef .tc main_arg11) = W0 m ρ c (Proc.devRef .tc main_arg11) := by keep_host hostOps0, main_arg11
theorem k1_main_arg11 (c : Dev nD) : W2 m ρ c (Proc.devRef .tc main_arg11) = W1 m ρ c (Proc.devRef .tc main_arg11) := W2_of_ne m ρ c main_arg11 (by decide)
theorem k2_main_arg11 (c : Dev nD) : W3 m ρ c (Proc.devRef .tc main_arg11) = W2 m ρ c (Proc.devRef .tc main_arg11) := by keep_host hostOps1, main_arg11
theorem k3_main_arg11 (c : Dev nD) : W4 m ρ c (Proc.devRef .tc main_arg11) = W3 m ρ c (Proc.devRef .tc main_arg11) := by keep_host hostOps1_1, main_arg11
theorem k4_main_arg11 (c : Dev nD) : W5 m ρ c (Proc.devRef .tc main_arg11) = W4 m ρ c (Proc.devRef .tc main_arg11) := W5_of_ne m ρ c main_arg11 (by decide)
theorem k5_main_arg11 (c : Dev nD) : W6 m ρ c (Proc.devRef .tc main_arg11) = W5 m ρ c (Proc.devRef .tc main_arg11) := by keep_host hostOps2, main_arg11
theorem k6_main_arg11 (c : Dev nD) : W7 m ρ c (Proc.devRef .tc main_arg11) = W6 m ρ c (Proc.devRef .tc main_arg11) := W7_of_ne m ρ c main_arg11 (by decide)
theorem k7_main_arg11 (c : Dev nD) : W8 m ρ c (Proc.devRef .tc main_arg11) = W7 m ρ c (Proc.devRef .tc main_arg11) := by keep_host hostOps3, main_arg11
theorem k8_main_arg11 (c : Dev nD) : W9 m ρ c (Proc.devRef .tc main_arg11) = W8 m ρ c (Proc.devRef .tc main_arg11) := by keep_host hostOps3_1, main_arg11
theorem k9_main_arg11 (c : Dev nD) : W10 m ρ c (Proc.devRef .tc main_arg11) = W9 m ρ c (Proc.devRef .tc main_arg11) := W10_of_ne m ρ c main_arg11 (by decide)
theorem k10_main_arg11 (c : Dev nD) : W11 m ρ c (Proc.devRef .tc main_arg11) = W10 m ρ c (Proc.devRef .tc main_arg11) := by keep_host hostOps4, main_arg11
theorem k11_main_arg11 (c : Dev nD) : W12 m ρ c (Proc.devRef .tc main_arg11) = W11 m ρ c (Proc.devRef .tc main_arg11) := W12_of_ne m ρ c main_arg11 (by decide)
theorem k12_main_arg11 (c : Dev nD) : W13 m ρ c (Proc.devRef .tc main_arg11) = W12 m ρ c (Proc.devRef .tc main_arg11) := by keep_host hostOps5, main_arg11
theorem k13_main_arg11 (c : Dev nD) : W14 m ρ c (Proc.devRef .tc main_arg11) = W13 m ρ c (Proc.devRef .tc main_arg11) := by keep_host hostOps5_1, main_arg11
theorem k14_main_arg11 (c : Dev nD) : W15 m ρ c (Proc.devRef .tc main_arg11) = W14 m ρ c (Proc.devRef .tc main_arg11) := W15_of_ne m ρ c main_arg11 (by decide)
theorem at0_main_arg11 (c : Dev nD) : W0 m ρ c (Proc.devRef .tc main_arg11) = m ((c : Thread nD τ).loc main_arg11) := rfl
theorem at1_main_arg11 (c : Dev nD) : W1 m ρ c (Proc.devRef .tc main_arg11) = m ((c : Thread nD τ).loc main_arg11) := (k0_main_arg11 m ρ c).trans (at0_main_arg11 m ρ c)
theorem at2_main_arg11 (c : Dev nD) : W2 m ρ c (Proc.devRef .tc main_arg11) = m ((c : Thread nD τ).loc main_arg11) := (k1_main_arg11 m ρ c).trans (at1_main_arg11 m ρ c)
theorem at3_main_arg11 (c : Dev nD) : W3 m ρ c (Proc.devRef .tc main_arg11) = m ((c : Thread nD τ).loc main_arg11) := (k2_main_arg11 m ρ c).trans (at2_main_arg11 m ρ c)
theorem at4_main_arg11 (c : Dev nD) : W4 m ρ c (Proc.devRef .tc main_arg11) = m ((c : Thread nD τ).loc main_arg11) := (k3_main_arg11 m ρ c).trans (at3_main_arg11 m ρ c)
theorem at5_main_arg11 (c : Dev nD) : W5 m ρ c (Proc.devRef .tc main_arg11) = m ((c : Thread nD τ).loc main_arg11) := (k4_main_arg11 m ρ c).trans (at4_main_arg11 m ρ c)
theorem at6_main_arg11 (c : Dev nD) : W6 m ρ c (Proc.devRef .tc main_arg11) = m ((c : Thread nD τ).loc main_arg11) := (k5_main_arg11 m ρ c).trans (at5_main_arg11 m ρ c)
theorem at7_main_arg11 (c : Dev nD) : W7 m ρ c (Proc.devRef .tc main_arg11) = m ((c : Thread nD τ).loc main_arg11) := (k6_main_arg11 m ρ c).trans (at6_main_arg11 m ρ c)
theorem at8_main_arg11 (c : Dev nD) : W8 m ρ c (Proc.devRef .tc main_arg11) = m ((c : Thread nD τ).loc main_arg11) := (k7_main_arg11 m ρ c).trans (at7_main_arg11 m ρ c)
theorem at9_main_arg11 (c : Dev nD) : W9 m ρ c (Proc.devRef .tc main_arg11) = m ((c : Thread nD τ).loc main_arg11) := (k8_main_arg11 m ρ c).trans (at8_main_arg11 m ρ c)
theorem at10_main_arg11 (c : Dev nD) : W10 m ρ c (Proc.devRef .tc main_arg11) = m ((c : Thread nD τ).loc main_arg11) := (k9_main_arg11 m ρ c).trans (at9_main_arg11 m ρ c)
theorem at11_main_arg11 (c : Dev nD) : W11 m ρ c (Proc.devRef .tc main_arg11) = m ((c : Thread nD τ).loc main_arg11) := (k10_main_arg11 m ρ c).trans (at10_main_arg11 m ρ c)
theorem at12_main_arg11 (c : Dev nD) : W12 m ρ c (Proc.devRef .tc main_arg11) = m ((c : Thread nD τ).loc main_arg11) := (k11_main_arg11 m ρ c).trans (at11_main_arg11 m ρ c)
theorem at13_main_arg11 (c : Dev nD) : W13 m ρ c (Proc.devRef .tc main_arg11) = m ((c : Thread nD τ).loc main_arg11) := (k12_main_arg11 m ρ c).trans (at12_main_arg11 m ρ c)
theorem at14_main_arg11 (c : Dev nD) : W14 m ρ c (Proc.devRef .tc main_arg11) = m ((c : Thread nD τ).loc main_arg11) := (k13_main_arg11 m ρ c).trans (at13_main_arg11 m ρ c)
theorem at15_main_arg11 (c : Dev nD) : W15 m ρ c (Proc.devRef .tc main_arg11) = m ((c : Thread nD τ).loc main_arg11) := (k14_main_arg11 m ρ c).trans (at14_main_arg11 m ρ c)

theorem k0_main_arg13 (c : Dev nD) : W1 m ρ c (Proc.devRef .tc main_arg13) = W0 m ρ c (Proc.devRef .tc main_arg13) := by keep_host hostOps0, main_arg13
theorem k1_main_arg13 (c : Dev nD) : W2 m ρ c (Proc.devRef .tc main_arg13) = W1 m ρ c (Proc.devRef .tc main_arg13) := W2_of_ne m ρ c main_arg13 (by decide)
theorem k2_main_arg13 (c : Dev nD) : W3 m ρ c (Proc.devRef .tc main_arg13) = W2 m ρ c (Proc.devRef .tc main_arg13) := by keep_host hostOps1, main_arg13
theorem k3_main_arg13 (c : Dev nD) : W4 m ρ c (Proc.devRef .tc main_arg13) = W3 m ρ c (Proc.devRef .tc main_arg13) := by keep_host hostOps1_1, main_arg13
theorem k4_main_arg13 (c : Dev nD) : W5 m ρ c (Proc.devRef .tc main_arg13) = W4 m ρ c (Proc.devRef .tc main_arg13) := W5_of_ne m ρ c main_arg13 (by decide)
theorem k5_main_arg13 (c : Dev nD) : W6 m ρ c (Proc.devRef .tc main_arg13) = W5 m ρ c (Proc.devRef .tc main_arg13) := by keep_host hostOps2, main_arg13
theorem k6_main_arg13 (c : Dev nD) : W7 m ρ c (Proc.devRef .tc main_arg13) = W6 m ρ c (Proc.devRef .tc main_arg13) := W7_of_ne m ρ c main_arg13 (by decide)
theorem k7_main_arg13 (c : Dev nD) : W8 m ρ c (Proc.devRef .tc main_arg13) = W7 m ρ c (Proc.devRef .tc main_arg13) := by keep_host hostOps3, main_arg13
theorem k8_main_arg13 (c : Dev nD) : W9 m ρ c (Proc.devRef .tc main_arg13) = W8 m ρ c (Proc.devRef .tc main_arg13) := by keep_host hostOps3_1, main_arg13
theorem k9_main_arg13 (c : Dev nD) : W10 m ρ c (Proc.devRef .tc main_arg13) = W9 m ρ c (Proc.devRef .tc main_arg13) := W10_of_ne m ρ c main_arg13 (by decide)
theorem k10_main_arg13 (c : Dev nD) : W11 m ρ c (Proc.devRef .tc main_arg13) = W10 m ρ c (Proc.devRef .tc main_arg13) := by keep_host hostOps4, main_arg13
theorem k11_main_arg13 (c : Dev nD) : W12 m ρ c (Proc.devRef .tc main_arg13) = W11 m ρ c (Proc.devRef .tc main_arg13) := W12_of_ne m ρ c main_arg13 (by decide)
theorem k12_main_arg13 (c : Dev nD) : W13 m ρ c (Proc.devRef .tc main_arg13) = W12 m ρ c (Proc.devRef .tc main_arg13) := by keep_host hostOps5, main_arg13
theorem k13_main_arg13 (c : Dev nD) : W14 m ρ c (Proc.devRef .tc main_arg13) = W13 m ρ c (Proc.devRef .tc main_arg13) := by keep_host hostOps5_1, main_arg13
theorem k14_main_arg13 (c : Dev nD) : W15 m ρ c (Proc.devRef .tc main_arg13) = W14 m ρ c (Proc.devRef .tc main_arg13) := W15_of_ne m ρ c main_arg13 (by decide)
theorem k15_main_arg13 (c : Dev nD) : W16 m ρ c (Proc.devRef .tc main_arg13) = W15 m ρ c (Proc.devRef .tc main_arg13) := by keep_host hostOps6, main_arg13
theorem k16_main_arg13 (c : Dev nD) : W17 m ρ c (Proc.devRef .tc main_arg13) = W16 m ρ c (Proc.devRef .tc main_arg13) := W17_of_ne m ρ c main_arg13 (by decide)
theorem at0_main_arg13 (c : Dev nD) : W0 m ρ c (Proc.devRef .tc main_arg13) = m ((c : Thread nD τ).loc main_arg13) := rfl
theorem at1_main_arg13 (c : Dev nD) : W1 m ρ c (Proc.devRef .tc main_arg13) = m ((c : Thread nD τ).loc main_arg13) := (k0_main_arg13 m ρ c).trans (at0_main_arg13 m ρ c)
theorem at2_main_arg13 (c : Dev nD) : W2 m ρ c (Proc.devRef .tc main_arg13) = m ((c : Thread nD τ).loc main_arg13) := (k1_main_arg13 m ρ c).trans (at1_main_arg13 m ρ c)
theorem at3_main_arg13 (c : Dev nD) : W3 m ρ c (Proc.devRef .tc main_arg13) = m ((c : Thread nD τ).loc main_arg13) := (k2_main_arg13 m ρ c).trans (at2_main_arg13 m ρ c)
theorem at4_main_arg13 (c : Dev nD) : W4 m ρ c (Proc.devRef .tc main_arg13) = m ((c : Thread nD τ).loc main_arg13) := (k3_main_arg13 m ρ c).trans (at3_main_arg13 m ρ c)
theorem at5_main_arg13 (c : Dev nD) : W5 m ρ c (Proc.devRef .tc main_arg13) = m ((c : Thread nD τ).loc main_arg13) := (k4_main_arg13 m ρ c).trans (at4_main_arg13 m ρ c)
theorem at6_main_arg13 (c : Dev nD) : W6 m ρ c (Proc.devRef .tc main_arg13) = m ((c : Thread nD τ).loc main_arg13) := (k5_main_arg13 m ρ c).trans (at5_main_arg13 m ρ c)
theorem at7_main_arg13 (c : Dev nD) : W7 m ρ c (Proc.devRef .tc main_arg13) = m ((c : Thread nD τ).loc main_arg13) := (k6_main_arg13 m ρ c).trans (at6_main_arg13 m ρ c)
theorem at8_main_arg13 (c : Dev nD) : W8 m ρ c (Proc.devRef .tc main_arg13) = m ((c : Thread nD τ).loc main_arg13) := (k7_main_arg13 m ρ c).trans (at7_main_arg13 m ρ c)
theorem at9_main_arg13 (c : Dev nD) : W9 m ρ c (Proc.devRef .tc main_arg13) = m ((c : Thread nD τ).loc main_arg13) := (k8_main_arg13 m ρ c).trans (at8_main_arg13 m ρ c)
theorem at10_main_arg13 (c : Dev nD) : W10 m ρ c (Proc.devRef .tc main_arg13) = m ((c : Thread nD τ).loc main_arg13) := (k9_main_arg13 m ρ c).trans (at9_main_arg13 m ρ c)
theorem at11_main_arg13 (c : Dev nD) : W11 m ρ c (Proc.devRef .tc main_arg13) = m ((c : Thread nD τ).loc main_arg13) := (k10_main_arg13 m ρ c).trans (at10_main_arg13 m ρ c)
theorem at12_main_arg13 (c : Dev nD) : W12 m ρ c (Proc.devRef .tc main_arg13) = m ((c : Thread nD τ).loc main_arg13) := (k11_main_arg13 m ρ c).trans (at11_main_arg13 m ρ c)
theorem at13_main_arg13 (c : Dev nD) : W13 m ρ c (Proc.devRef .tc main_arg13) = m ((c : Thread nD τ).loc main_arg13) := (k12_main_arg13 m ρ c).trans (at12_main_arg13 m ρ c)
theorem at14_main_arg13 (c : Dev nD) : W14 m ρ c (Proc.devRef .tc main_arg13) = m ((c : Thread nD τ).loc main_arg13) := (k13_main_arg13 m ρ c).trans (at13_main_arg13 m ρ c)
theorem at15_main_arg13 (c : Dev nD) : W15 m ρ c (Proc.devRef .tc main_arg13) = m ((c : Thread nD τ).loc main_arg13) := (k14_main_arg13 m ρ c).trans (at14_main_arg13 m ρ c)
theorem at16_main_arg13 (c : Dev nD) : W16 m ρ c (Proc.devRef .tc main_arg13) = m ((c : Thread nD τ).loc main_arg13) := (k15_main_arg13 m ρ c).trans (at15_main_arg13 m ρ c)
theorem at17_main_arg13 (c : Dev nD) : W17 m ρ c (Proc.devRef .tc main_arg13) = m ((c : Thread nD τ).loc main_arg13) := (k16_main_arg13 m ρ c).trans (at16_main_arg13 m ρ c)

theorem k0_main_arg15 (c : Dev nD) : W1 m ρ c (Proc.devRef .tc main_arg15) = W0 m ρ c (Proc.devRef .tc main_arg15) := by keep_host hostOps0, main_arg15
theorem k1_main_arg15 (c : Dev nD) : W2 m ρ c (Proc.devRef .tc main_arg15) = W1 m ρ c (Proc.devRef .tc main_arg15) := W2_of_ne m ρ c main_arg15 (by decide)
theorem k2_main_arg15 (c : Dev nD) : W3 m ρ c (Proc.devRef .tc main_arg15) = W2 m ρ c (Proc.devRef .tc main_arg15) := by keep_host hostOps1, main_arg15
theorem k3_main_arg15 (c : Dev nD) : W4 m ρ c (Proc.devRef .tc main_arg15) = W3 m ρ c (Proc.devRef .tc main_arg15) := by keep_host hostOps1_1, main_arg15
theorem k4_main_arg15 (c : Dev nD) : W5 m ρ c (Proc.devRef .tc main_arg15) = W4 m ρ c (Proc.devRef .tc main_arg15) := W5_of_ne m ρ c main_arg15 (by decide)
theorem k5_main_arg15 (c : Dev nD) : W6 m ρ c (Proc.devRef .tc main_arg15) = W5 m ρ c (Proc.devRef .tc main_arg15) := by keep_host hostOps2, main_arg15
theorem k6_main_arg15 (c : Dev nD) : W7 m ρ c (Proc.devRef .tc main_arg15) = W6 m ρ c (Proc.devRef .tc main_arg15) := W7_of_ne m ρ c main_arg15 (by decide)
theorem k7_main_arg15 (c : Dev nD) : W8 m ρ c (Proc.devRef .tc main_arg15) = W7 m ρ c (Proc.devRef .tc main_arg15) := by keep_host hostOps3, main_arg15
theorem k8_main_arg15 (c : Dev nD) : W9 m ρ c (Proc.devRef .tc main_arg15) = W8 m ρ c (Proc.devRef .tc main_arg15) := by keep_host hostOps3_1, main_arg15
theorem k9_main_arg15 (c : Dev nD) : W10 m ρ c (Proc.devRef .tc main_arg15) = W9 m ρ c (Proc.devRef .tc main_arg15) := W10_of_ne m ρ c main_arg15 (by decide)
theorem k10_main_arg15 (c : Dev nD) : W11 m ρ c (Proc.devRef .tc main_arg15) = W10 m ρ c (Proc.devRef .tc main_arg15) := by keep_host hostOps4, main_arg15
theorem k11_main_arg15 (c : Dev nD) : W12 m ρ c (Proc.devRef .tc main_arg15) = W11 m ρ c (Proc.devRef .tc main_arg15) := W12_of_ne m ρ c main_arg15 (by decide)
theorem k12_main_arg15 (c : Dev nD) : W13 m ρ c (Proc.devRef .tc main_arg15) = W12 m ρ c (Proc.devRef .tc main_arg15) := by keep_host hostOps5, main_arg15
theorem k13_main_arg15 (c : Dev nD) : W14 m ρ c (Proc.devRef .tc main_arg15) = W13 m ρ c (Proc.devRef .tc main_arg15) := by keep_host hostOps5_1, main_arg15
theorem k14_main_arg15 (c : Dev nD) : W15 m ρ c (Proc.devRef .tc main_arg15) = W14 m ρ c (Proc.devRef .tc main_arg15) := W15_of_ne m ρ c main_arg15 (by decide)
theorem k15_main_arg15 (c : Dev nD) : W16 m ρ c (Proc.devRef .tc main_arg15) = W15 m ρ c (Proc.devRef .tc main_arg15) := by keep_host hostOps6, main_arg15
theorem k16_main_arg15 (c : Dev nD) : W17 m ρ c (Proc.devRef .tc main_arg15) = W16 m ρ c (Proc.devRef .tc main_arg15) := W17_of_ne m ρ c main_arg15 (by decide)
theorem at0_main_arg15 (c : Dev nD) : W0 m ρ c (Proc.devRef .tc main_arg15) = m ((c : Thread nD τ).loc main_arg15) := rfl
theorem at1_main_arg15 (c : Dev nD) : W1 m ρ c (Proc.devRef .tc main_arg15) = m ((c : Thread nD τ).loc main_arg15) := (k0_main_arg15 m ρ c).trans (at0_main_arg15 m ρ c)
theorem at2_main_arg15 (c : Dev nD) : W2 m ρ c (Proc.devRef .tc main_arg15) = m ((c : Thread nD τ).loc main_arg15) := (k1_main_arg15 m ρ c).trans (at1_main_arg15 m ρ c)
theorem at3_main_arg15 (c : Dev nD) : W3 m ρ c (Proc.devRef .tc main_arg15) = m ((c : Thread nD τ).loc main_arg15) := (k2_main_arg15 m ρ c).trans (at2_main_arg15 m ρ c)
theorem at4_main_arg15 (c : Dev nD) : W4 m ρ c (Proc.devRef .tc main_arg15) = m ((c : Thread nD τ).loc main_arg15) := (k3_main_arg15 m ρ c).trans (at3_main_arg15 m ρ c)
theorem at5_main_arg15 (c : Dev nD) : W5 m ρ c (Proc.devRef .tc main_arg15) = m ((c : Thread nD τ).loc main_arg15) := (k4_main_arg15 m ρ c).trans (at4_main_arg15 m ρ c)
theorem at6_main_arg15 (c : Dev nD) : W6 m ρ c (Proc.devRef .tc main_arg15) = m ((c : Thread nD τ).loc main_arg15) := (k5_main_arg15 m ρ c).trans (at5_main_arg15 m ρ c)
theorem at7_main_arg15 (c : Dev nD) : W7 m ρ c (Proc.devRef .tc main_arg15) = m ((c : Thread nD τ).loc main_arg15) := (k6_main_arg15 m ρ c).trans (at6_main_arg15 m ρ c)
theorem at8_main_arg15 (c : Dev nD) : W8 m ρ c (Proc.devRef .tc main_arg15) = m ((c : Thread nD τ).loc main_arg15) := (k7_main_arg15 m ρ c).trans (at7_main_arg15 m ρ c)
theorem at9_main_arg15 (c : Dev nD) : W9 m ρ c (Proc.devRef .tc main_arg15) = m ((c : Thread nD τ).loc main_arg15) := (k8_main_arg15 m ρ c).trans (at8_main_arg15 m ρ c)
theorem at10_main_arg15 (c : Dev nD) : W10 m ρ c (Proc.devRef .tc main_arg15) = m ((c : Thread nD τ).loc main_arg15) := (k9_main_arg15 m ρ c).trans (at9_main_arg15 m ρ c)
theorem at11_main_arg15 (c : Dev nD) : W11 m ρ c (Proc.devRef .tc main_arg15) = m ((c : Thread nD τ).loc main_arg15) := (k10_main_arg15 m ρ c).trans (at10_main_arg15 m ρ c)
theorem at12_main_arg15 (c : Dev nD) : W12 m ρ c (Proc.devRef .tc main_arg15) = m ((c : Thread nD τ).loc main_arg15) := (k11_main_arg15 m ρ c).trans (at11_main_arg15 m ρ c)
theorem at13_main_arg15 (c : Dev nD) : W13 m ρ c (Proc.devRef .tc main_arg15) = m ((c : Thread nD τ).loc main_arg15) := (k12_main_arg15 m ρ c).trans (at12_main_arg15 m ρ c)
theorem at14_main_arg15 (c : Dev nD) : W14 m ρ c (Proc.devRef .tc main_arg15) = m ((c : Thread nD τ).loc main_arg15) := (k13_main_arg15 m ρ c).trans (at13_main_arg15 m ρ c)
theorem at15_main_arg15 (c : Dev nD) : W15 m ρ c (Proc.devRef .tc main_arg15) = m ((c : Thread nD τ).loc main_arg15) := (k14_main_arg15 m ρ c).trans (at14_main_arg15 m ρ c)
theorem at16_main_arg15 (c : Dev nD) : W16 m ρ c (Proc.devRef .tc main_arg15) = m ((c : Thread nD τ).loc main_arg15) := (k15_main_arg15 m ρ c).trans (at15_main_arg15 m ρ c)
theorem at17_main_arg15 (c : Dev nD) : W17 m ρ c (Proc.devRef .tc main_arg15) = m ((c : Thread nD τ).loc main_arg15) := (k16_main_arg15 m ρ c).trans (at16_main_arg15 m ρ c)

end Cert.KernelIdeal.KeepB

end
-- ==== Proof.KeepC.lean ====
/-
  A table of cases. The kernel program's run passes through twenty boundaries W0 … W19, one segment of @main (a stretch
  of host operations, or a pallas_call region) between consecutive ones. Each lemma k<j>_<buffer> says that the segment
  from boundary j to boundary j+1 leaves that buffer as it was: no operation of a host stretch writes it; a region
  writes only its output arrays and hands its input arrays back unchanged. Each lemma at<j>_<buffer> chains them: the buffer at
  boundary j holds what it held right after the segment that wrote it (an argument of @main: what the launch memory holds).
-/
import proofs.«407353_j69303592288943_1_alg».proof.Proof.Gen.KernelIdeal.Frame
import Idealize.ShloMosaic.PureOps.Ideal

set_option maxRecDepth 16384

noncomputable section

namespace Cert.KernelIdeal.KeepC

open Cert.KernelIdeal Cert.KernelIdeal.Gen
open Idealize.ShloMosaic Idealize.ShloMosaic.TcCoe Idealize.SL.Sem

/-- A buffer none of a stretch's operations writes is, after the stretch, what it was before. -/
macro "keep_host " ops:ident ", " b:ident : tactic => `(tactic|
  exact StableHlo.after_of_forall_not_mem (b := Proc.devRef .tc $b) _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

variable (m : (ℓ : Loc nD τ sig) → Buf (Elt Ideal) ℓ) (ρ : Dev nD → PrngReg)

theorem k1_main_v1 (c : Dev nD) : W2 m ρ c (Proc.devRef .tc main_v1) = W1 m ρ c (Proc.devRef .tc main_v1) := W2_of_ne m ρ c main_v1 (by decide)
theorem k2_main_v1 (c : Dev nD) : W3 m ρ c (Proc.devRef .tc main_v1) = W2 m ρ c (Proc.devRef .tc main_v1) := by keep_host hostOps1, main_v1
theorem k3_main_v1 (c : Dev nD) : W4 m ρ c (Proc.devRef .tc main_v1) = W3 m ρ c (Proc.devRef .tc main_v1) := by keep_host hostOps1_1, main_v1
theorem k4_main_v1 (c : Dev nD) : W5 m ρ c (Proc.devRef .tc main_v1) = W4 m ρ c (Proc.devRef .tc main_v1) := W5_of_ne m ρ c main_v1 (by decide)
theorem k5_main_v1 (c : Dev nD) : W6 m ρ c (Proc.devRef .tc main_v1) = W5 m ρ c (Proc.devRef .tc main_v1) := by keep_host hostOps2, main_v1
theorem k6_main_v1 (c : Dev nD) : W7 m ρ c (Proc.devRef .tc main_v1) = W6 m ρ c (Proc.devRef .tc main_v1) := W7_of_ne m ρ c main_v1 (by decide)
theorem k7_main_v1 (c : Dev nD) : W8 m ρ c (Proc.devRef .tc main_v1) = W7 m ρ c (Proc.devRef .tc main_v1) := by keep_host hostOps3, main_v1
theorem k8_main_v1 (c : Dev nD) : W9 m ρ c (Proc.devRef .tc main_v1) = W8 m ρ c (Proc.devRef .tc main_v1) := by keep_host hostOps3_1, main_v1
theorem k9_main_v1 (c : Dev nD) : W10 m ρ c (Proc.devRef .tc main_v1) = W9 m ρ c (Proc.devRef .tc main_v1) := W10_of_ne m ρ c main_v1 (by decide)
theorem k10_main_v1 (c : Dev nD) : W11 m ρ c (Proc.devRef .tc main_v1) = W10 m ρ c (Proc.devRef .tc main_v1) := by keep_host hostOps4, main_v1
theorem k11_main_v1 (c : Dev nD) : W12 m ρ c (Proc.devRef .tc main_v1) = W11 m ρ c (Proc.devRef .tc main_v1) := W12_of_ne m ρ c main_v1 (by decide)
theorem at1_main_v1 (c : Dev nD) : W1 m ρ c (Proc.devRef .tc main_v1) = W1 m ρ c (Proc.devRef .tc main_v1) := rfl
theorem at2_main_v1 (c : Dev nD) : W2 m ρ c (Proc.devRef .tc main_v1) = W1 m ρ c (Proc.devRef .tc main_v1) := (k1_main_v1 m ρ c).trans (at1_main_v1 m ρ c)
theorem at3_main_v1 (c : Dev nD) : W3 m ρ c (Proc.devRef .tc main_v1) = W1 m ρ c (Proc.devRef .tc main_v1) := (k2_main_v1 m ρ c).trans (at2_main_v1 m ρ c)
theorem at4_main_v1 (c : Dev nD) : W4 m ρ c (Proc.devRef .tc main_v1) = W1 m ρ c (Proc.devRef .tc main_v1) := (k3_main_v1 m ρ c).trans (at3_main_v1 m ρ c)
theorem at5_main_v1 (c : Dev nD) : W5 m ρ c (Proc.devRef .tc main_v1) = W1 m ρ c (Proc.devRef .tc main_v1) := (k4_main_v1 m ρ c).trans (at4_main_v1 m ρ c)
theorem at6_main_v1 (c : Dev nD) : W6 m ρ c (Proc.devRef .tc main_v1) = W1 m ρ c (Proc.devRef .tc main_v1) := (k5_main_v1 m ρ c).trans (at5_main_v1 m ρ c)
theorem at7_main_v1 (c : Dev nD) : W7 m ρ c (Proc.devRef .tc main_v1) = W1 m ρ c (Proc.devRef .tc main_v1) := (k6_main_v1 m ρ c).trans (at6_main_v1 m ρ c)
theorem at8_main_v1 (c : Dev nD) : W8 m ρ c (Proc.devRef .tc main_v1) = W1 m ρ c (Proc.devRef .tc main_v1) := (k7_main_v1 m ρ c).trans (at7_main_v1 m ρ c)
theorem at9_main_v1 (c : Dev nD) : W9 m ρ c (Proc.devRef .tc main_v1) = W1 m ρ c (Proc.devRef .tc main_v1) := (k8_main_v1 m ρ c).trans (at8_main_v1 m ρ c)
theorem at10_main_v1 (c : Dev nD) : W10 m ρ c (Proc.devRef .tc main_v1) = W1 m ρ c (Proc.devRef .tc main_v1) := (k9_main_v1 m ρ c).trans (at9_main_v1 m ρ c)
theorem at11_main_v1 (c : Dev nD) : W11 m ρ c (Proc.devRef .tc main_v1) = W1 m ρ c (Proc.devRef .tc main_v1) := (k10_main_v1 m ρ c).trans (at10_main_v1 m ρ c)
theorem at12_main_v1 (c : Dev nD) : W12 m ρ c (Proc.devRef .tc main_v1) = W1 m ρ c (Proc.devRef .tc main_v1) := (k11_main_v1 m ρ c).trans (at11_main_v1 m ρ c)

theorem k1_main_v3 (c : Dev nD) : W2 m ρ c (Proc.devRef .tc main_v3) = W1 m ρ c (Proc.devRef .tc main_v3) := W2_of_ne m ρ c main_v3 (by decide)
theorem k2_main_v3 (c : Dev nD) : W3 m ρ c (Proc.devRef .tc main_v3) = W2 m ρ c (Proc.devRef .tc main_v3) := by keep_host hostOps1, main_v3
theorem k3_main_v3 (c : Dev nD) : W4 m ρ c (Proc.devRef .tc main_v3) = W3 m ρ c (Proc.devRef .tc main_v3) := by keep_host hostOps1_1, main_v3
theorem k4_main_v3 (c : Dev nD) : W5 m ρ c (Proc.devRef .tc main_v3) = W4 m ρ c (Proc.devRef .tc main_v3) := W5_of_ne m ρ c main_v3 (by decide)
theorem k5_main_v3 (c : Dev nD) : W6 m ρ c (Proc.devRef .tc main_v3) = W5 m ρ c (Proc.devRef .tc main_v3) := by keep_host hostOps2, main_v3
theorem k6_main_v3 (c : Dev nD) : W7 m ρ c (Proc.devRef .tc main_v3) = W6 m ρ c (Proc.devRef .tc main_v3) := W7_of_ne m ρ c main_v3 (by decide)
theorem k7_main_v3 (c : Dev nD) : W8 m ρ c (Proc.devRef .tc main_v3) = W7 m ρ c (Proc.devRef .tc main_v3) := by keep_host hostOps3, main_v3
theorem k8_main_v3 (c : Dev nD) : W9 m ρ c (Proc.devRef .tc main_v3) = W8 m ρ c (Proc.devRef .tc main_v3) := by keep_host hostOps3_1, main_v3
theorem k9_main_v3 (c : Dev nD) : W10 m ρ c (Proc.devRef .tc main_v3) = W9 m ρ c (Proc.devRef .tc main_v3) := W10_of_ne m ρ c main_v3 (by decide)
theorem k10_main_v3 (c : Dev nD) : W11 m ρ c (Proc.devRef .tc main_v3) = W10 m ρ c (Proc.devRef .tc main_v3) := by keep_host hostOps4, main_v3
theorem k11_main_v3 (c : Dev nD) : W12 m ρ c (Proc.devRef .tc main_v3) = W11 m ρ c (Proc.devRef .tc main_v3) := W12_of_ne m ρ c main_v3 (by decide)
theorem k12_main_v3 (c : Dev nD) : W13 m ρ c (Proc.devRef .tc main_v3) = W12 m ρ c (Proc.devRef .tc main_v3) := by keep_host hostOps5, main_v3
theorem k13_main_v3 (c : Dev nD) : W14 m ρ c (Proc.devRef .tc main_v3) = W13 m ρ c (Proc.devRef .tc main_v3) := by keep_host hostOps5_1, main_v3
theorem k14_main_v3 (c : Dev nD) : W15 m ρ c (Proc.devRef .tc main_v3) = W14 m ρ c (Proc.devRef .tc main_v3) := W15_of_ne m ρ c main_v3 (by decide)
theorem at1_main_v3 (c : Dev nD) : W1 m ρ c (Proc.devRef .tc main_v3) = W1 m ρ c (Proc.devRef .tc main_v3) := rfl
theorem at2_main_v3 (c : Dev nD) : W2 m ρ c (Proc.devRef .tc main_v3) = W1 m ρ c (Proc.devRef .tc main_v3) := (k1_main_v3 m ρ c).trans (at1_main_v3 m ρ c)
theorem at3_main_v3 (c : Dev nD) : W3 m ρ c (Proc.devRef .tc main_v3) = W1 m ρ c (Proc.devRef .tc main_v3) := (k2_main_v3 m ρ c).trans (at2_main_v3 m ρ c)
theorem at4_main_v3 (c : Dev nD) : W4 m ρ c (Proc.devRef .tc main_v3) = W1 m ρ c (Proc.devRef .tc main_v3) := (k3_main_v3 m ρ c).trans (at3_main_v3 m ρ c)
theorem at5_main_v3 (c : Dev nD) : W5 m ρ c (Proc.devRef .tc main_v3) = W1 m ρ c (Proc.devRef .tc main_v3) := (k4_main_v3 m ρ c).trans (at4_main_v3 m ρ c)
theorem at6_main_v3 (c : Dev nD) : W6 m ρ c (Proc.devRef .tc main_v3) = W1 m ρ c (Proc.devRef .tc main_v3) := (k5_main_v3 m ρ c).trans (at5_main_v3 m ρ c)
theorem at7_main_v3 (c : Dev nD) : W7 m ρ c (Proc.devRef .tc main_v3) = W1 m ρ c (Proc.devRef .tc main_v3) := (k6_main_v3 m ρ c).trans (at6_main_v3 m ρ c)
theorem at8_main_v3 (c : Dev nD) : W8 m ρ c (Proc.devRef .tc main_v3) = W1 m ρ c (Proc.devRef .tc main_v3) := (k7_main_v3 m ρ c).trans (at7_main_v3 m ρ c)
theorem at9_main_v3 (c : Dev nD) : W9 m ρ c (Proc.devRef .tc main_v3) = W1 m ρ c (Proc.devRef .tc main_v3) := (k8_main_v3 m ρ c).trans (at8_main_v3 m ρ c)
theorem at10_main_v3 (c : Dev nD) : W10 m ρ c (Proc.devRef .tc main_v3) = W1 m ρ c (Proc.devRef .tc main_v3) := (k9_main_v3 m ρ c).trans (at9_main_v3 m ρ c)
theorem at11_main_v3 (c : Dev nD) : W11 m ρ c (Proc.devRef .tc main_v3) = W1 m ρ c (Proc.devRef .tc main_v3) := (k10_main_v3 m ρ c).trans (at10_main_v3 m ρ c)
theorem at12_main_v3 (c : Dev nD) : W12 m ρ c (Proc.devRef .tc main_v3) = W1 m ρ c (Proc.devRef .tc main_v3) := (k11_main_v3 m ρ c).trans (at11_main_v3 m ρ c)
theorem at13_main_v3 (c : Dev nD) : W13 m ρ c (Proc.devRef .tc main_v3) = W1 m ρ c (Proc.devRef .tc main_v3) := (k12_main_v3 m ρ c).trans (at12_main_v3 m ρ c)
theorem at14_main_v3 (c : Dev nD) : W14 m ρ c (Proc.devRef .tc main_v3) = W1 m ρ c (Proc.devRef .tc main_v3) := (k13_main_v3 m ρ c).trans (at13_main_v3 m ρ c)
theorem at15_main_v3 (c : Dev nD) : W15 m ρ c (Proc.devRef .tc main_v3) = W1 m ρ c (Proc.devRef .tc main_v3) := (k14_main_v3 m ρ c).trans (at14_main_v3 m ρ c)

theorem k2_main_v5 (c : Dev nD) : W3 m ρ c (Proc.devRef .tc main_v5) = W2 m ρ c (Proc.devRef .tc main_v5) := by keep_host hostOps1, main_v5
theorem k3_main_v5 (c : Dev nD) : W4 m ρ c (Proc.devRef .tc main_v5) = W3 m ρ c (Proc.devRef .tc main_v5) := by keep_host hostOps1_1, main_v5
theorem k4_main_v5 (c : Dev nD) : W5 m ρ c (Proc.devRef .tc main_v5) = W4 m ρ c (Proc.devRef .tc main_v5) := W5_of_ne m ρ c main_v5 (by decide)
theorem k5_main_v5 (c : Dev nD) : W6 m ρ c (Proc.devRef .tc main_v5) = W5 m ρ c (Proc.devRef .tc main_v5) := by keep_host hostOps2, main_v5
theorem at2_main_v5 (c : Dev nD) : W2 m ρ c (Proc.devRef .tc main_v5) = W2 m ρ c (Proc.devRef .tc main_v5) := rfl
theorem at3_main_v5 (c : Dev nD) : W3 m ρ c (Proc.devRef .tc main_v5) = W2 m ρ c (Proc.devRef .tc main_v5) := (k2_main_v5 m ρ c).trans (at2_main_v5 m ρ c)
theorem at4_main_v5 (c : Dev nD) : W4 m ρ c (Proc.devRef .tc main_v5) = W2 m ρ c (Proc.devRef .tc main_v5) := (k3_main_v5 m ρ c).trans (at3_main_v5 m ρ c)
theorem at5_main_v5 (c : Dev nD) : W5 m ρ c (Proc.devRef .tc main_v5) = W2 m ρ c (Proc.devRef .tc main_v5) := (k4_main_v5 m ρ c).trans (at4_main_v5 m ρ c)
theorem at6_main_v5 (c : Dev nD) : W6 m ρ c (Proc.devRef .tc main_v5) = W2 m ρ c (Proc.devRef .tc main_v5) := (k5_main_v5 m ρ c).trans (at5_main_v5 m ρ c)

theorem k3_main_v6 (c : Dev nD) : W4 m ρ c (Proc.devRef .tc main_v6) = W3 m ρ c (Proc.devRef .tc main_v6) := by keep_host hostOps1_1, main_v6
theorem at3_main_v6 (c : Dev nD) : W3 m ρ c (Proc.devRef .tc main_v6) = W3 m ρ c (Proc.devRef .tc main_v6) := rfl
theorem at4_main_v6 (c : Dev nD) : W4 m ρ c (Proc.devRef .tc main_v6) = W3 m ρ c (Proc.devRef .tc main_v6) := (k3_main_v6 m ρ c).trans (at3_main_v6 m ρ c)

theorem k7_main_v26 (c : Dev nD) : W8 m ρ c (Proc.devRef .tc main_v26) = W7 m ρ c (Proc.devRef .tc main_v26) := by keep_host hostOps3, main_v26
theorem k8_main_v26 (c : Dev nD) : W9 m ρ c (Proc.devRef .tc main_v26) = W8 m ρ c (Proc.devRef .tc main_v26) := by keep_host hostOps3_1, main_v26
theorem k9_main_v26 (c : Dev nD) : W10 m ρ c (Proc.devRef .tc main_v26) = W9 m ρ c (Proc.devRef .tc main_v26) := W10_of_ne m ρ c main_v26 (by decide)
theorem k10_main_v26 (c : Dev nD) : W11 m ρ c (Proc.devRef .tc main_v26) = W10 m ρ c (Proc.devRef .tc main_v26) := by keep_host hostOps4, main_v26
theorem at7_main_v26 (c : Dev nD) : W7 m ρ c (Proc.devRef .tc main_v26) = W7 m ρ c (Proc.devRef .tc main_v26) := rfl
theorem at8_main_v26 (c : Dev nD) : W8 m ρ c (Proc.devRef .tc main_v26) = W7 m ρ c (Proc.devRef .tc main_v26) := (k7_main_v26 m ρ c).trans (at7_main_v26 m ρ c)
theorem at9_main_v26 (c : Dev nD) : W9 m ρ c (Proc.devRef .tc main_v26) = W7 m ρ c (Proc.devRef .tc main_v26) := (k8_main_v26 m ρ c).trans (at8_main_v26 m ρ c)
theorem at10_main_v26 (c : Dev nD) : W10 m ρ c (Proc.devRef .tc main_v26) = W7 m ρ c (Proc.devRef .tc main_v26) := (k9_main_v26 m ρ c).trans (at9_main_v26 m ρ c)
theorem at11_main_v26 (c : Dev nD) : W11 m ρ c (Proc.devRef .tc main_v26) = W7 m ρ c (Proc.devRef .tc main_v26) := (k10_main_v26 m ρ c).trans (at10_main_v26 m ρ c)

theorem k8_main_v27 (c : Dev nD) : W9 m ρ c (Proc.devRef .tc main_v27) = W8 m ρ c (Proc.devRef .tc main_v27) := by keep_host hostOps3_1, main_v27
theorem at8_main_v27 (c : Dev nD) : W8 m ρ c (Proc.devRef .tc main_v27) = W8 m ρ c (Proc.devRef .tc main_v27) := rfl
theorem at9_main_v27 (c : Dev nD) : W9 m ρ c (Proc.devRef .tc main_v27) = W8 m ρ c (Proc.devRef .tc main_v27) := (k8_main_v27 m ρ c).trans (at8_main_v27 m ρ c)

theorem k12_main_v47 (c : Dev nD) : W13 m ρ c (Proc.devRef .tc main_v47) = W12 m ρ c (Proc.devRef .tc main_v47) := by keep_host hostOps5, main_v47
theorem k13_main_v47 (c : Dev nD) : W14 m ρ c (Proc.devRef .tc main_v47) = W13 m ρ c (Proc.devRef .tc main_v47) := by keep_host hostOps5_1, main_v47
theorem k14_main_v47 (c : Dev nD) : W15 m ρ c (Proc.devRef .tc main_v47) = W14 m ρ c (Proc.devRef .tc main_v47) := W15_of_ne m ρ c main_v47 (by decide)
theorem k15_main_v47 (c : Dev nD) : W16 m ρ c (Proc.devRef .tc main_v47) = W15 m ρ c (Proc.devRef .tc main_v47) := by keep_host hostOps6, main_v47
theorem at12_main_v47 (c : Dev nD) : W12 m ρ c (Proc.devRef .tc main_v47) = W12 m ρ c (Proc.devRef .tc main_v47) := rfl
theorem at13_main_v47 (c : Dev nD) : W13 m ρ c (Proc.devRef .tc main_v47) = W12 m ρ c (Proc.devRef .tc main_v47) := (k12_main_v47 m ρ c).trans (at12_main_v47 m ρ c)
theorem at14_main_v47 (c : Dev nD) : W14 m ρ c (Proc.devRef .tc main_v47) = W12 m ρ c (Proc.devRef .tc main_v47) := (k13_main_v47 m ρ c).trans (at13_main_v47 m ρ c)
theorem at15_main_v47 (c : Dev nD) : W15 m ρ c (Proc.devRef .tc main_v47) = W12 m ρ c (Proc.devRef .tc main_v47) := (k14_main_v47 m ρ c).trans (at14_main_v47 m ρ c)
theorem at16_main_v47 (c : Dev nD) : W16 m ρ c (Proc.devRef .tc main_v47) = W12 m ρ c (Proc.devRef .tc main_v47) := (k15_main_v47 m ρ c).trans (at15_main_v47 m ρ c)

theorem k13_main_v48 (c : Dev nD) : W14 m ρ c (Proc.devRef .tc main_v48) = W13 m ρ c (Proc.devRef .tc main_v48) := by keep_host hostOps5_1, main_v48
theorem at13_main_v48 (c : Dev nD) : W13 m ρ c (Proc.devRef .tc main_v48) = W13 m ρ c (Proc.devRef .tc main_v48) := rfl
theorem at14_main_v48 (c : Dev nD) : W14 m ρ c (Proc.devRef .tc main_v48) = W13 m ρ c (Proc.devRef .tc main_v48) := (k13_main_v48 m ρ c).trans (at13_main_v48 m ρ c)

end Cert.KernelIdeal.KeepC

end
-- ==== Proof.Region1.lean ====
/-
  Region 1 (the edge messages of the first round). The region walks the 320000 edges in 160 blocks of 2000; at each
  block it loads the block of the source-node features, the block of the edge attributes, the whole weight matrix and
  the 1×256 bias row, forms max(block of h_src + ((block of edge_attr)·W + b), 0) and stores it as the same block of the
  output. Since the message acts row by row, the block of the result is the block of the message of the whole arrays;
  the 160 blocks tile the output, so after the region the output array is the message array.
-/
import proofs.«407353_j69303592288943_1_alg».proof.Proof.Gen.KernelIdeal.Frame
import proofs.«407353_j69303592288943_1_alg».proof.Proof.LibAffine

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

theorem dot_plain : PlainDot.IsPlain dot_S2000x64_S64x256_S2000x256_1_0_0_1_n_n := ⟨rfl, rfl, rfl, rfl, rfl, rfl⟩

/-- On a block of rows the body computes the message of the block: the affine map of the attribute block, added to
    the block of source features entry by entry, cut off at zero. -/
theorem pay_eq (v0 : Vec Ideal S2000x64 .f32) (v2 : Vec Ideal S64x256 .f32) (v6 : Vec Ideal S1x256 .f32)
    (v10 : Vec Ideal S2000x256 .f32) :
    k1_pay1 v0 v2 v6 v10 = Gine.msg v10 v0 v2 (Gine.rowOf v6) := by
  unfold k1_pay1
  simp only [Gine.truncf_id, shapeCast_self]
  rw [Gine.kernel_relu, Gine.kernel_lin _ dot_plain none v0 v2 v6 _]
  rfl

/-- The rows of block t. -/
def rows (t : Fin cfg1.N) : Fin 2000 → Fin 320000 := fun r => ⟨2000 * t.val + r.val, by have := t.isLt; have := r.isLt; have : cfg1.N = 160 := N_1; omega⟩

theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Window 0's block at point t is rows 2000·t … of the array of source features. -/
theorem blk0 (c : Dev nD) (t : Fin cfg1.N) : iblk1 V c 0 t = Gine.rowsOf (rows t) (V c main_v6) := by
  obtain ⟨e0, e1, -⟩ := idx_facts t
  funext j
  show V c main_v6 (((cfg1.win 0).blk t).view.emb j) = V c main_v6 (ix2 (rows t (j 0)) (j 1))
  congr 1
  funext a; apply Fin.ext
  match a with
  | ⟨0, _⟩ => show win1_0.index t (0 : Fin 2) * 2000 + 1 * (j 0).val = 2000 * t.val + (j 0).val; omega
  | ⟨1, _⟩ => show win1_0.index t (1 : Fin 2) * 256 + 1 * (j 1).val = (j 1).val; omega

/-- Window 1's block at point t is the same rows of the array of edge attributes. -/
theorem blk1 (c : Dev nD) (t : Fin cfg1.N) : iblk1 V c 1 t = Gine.rowsOf (rows t) (V c main_arg2) := by
  obtain ⟨-, -, e0, e1, -⟩ := idx_facts t
  funext j
  show V c main_arg2 (((cfg1.win 1).blk t).view.emb j) = V c main_arg2 (ix2 (rows t (j 0)) (j 1))
  congr 1
  funext a; apply Fin.ext
  match a with
  | ⟨0, _⟩ => show win1_1.index t (0 : Fin 2) * 2000 + 1 * (j 0).val = 2000 * t.val + (j 0).val; omega
  | ⟨1, _⟩ => show win1_1.index t (1 : Fin 2) * 64 + 1 * (j 1).val = (j 1).val; omega

/-- Windows 2 and 3 hold their whole arrays at every point. -/
theorem blk2 (c : Dev nD) (t : Fin cfg1.N) : iblk1 V c 2 t = V c main_v8 := by
  obtain ⟨-, -, -, -, e0, e1, -⟩ := idx_facts t
  funext j
  show V c main_v8 (((cfg1.win 2).blk t).view.emb j) = V c main_v8 j
  congr 1
  funext a; apply Fin.ext
  match a with
  | ⟨0, _⟩ => show win1_2.index t (0 : Fin 2) * 64 + 1 * (j 0).val = (j 0).val; omega
  | ⟨1, _⟩ => show win1_2.index t (1 : Fin 2) * 256 + 1 * (j 1).val = (j 1).val; omega

theorem blk3 (c : Dev nD) (t : Fin cfg1.N) : iblk1 V c 3 t = V c main_v11 := by
  obtain ⟨-, -, -, -, -, -, e0, e1, -⟩ := idx_facts t
  funext j
  show V c main_v11 (((cfg1.win 3).blk t).view.emb j) = V c main_v11 j
  congr 1
  funext a; apply Fin.ext
  match a with
  | ⟨0, _⟩ => show win1_3.index t (0 : Fin 2) * 1 + 1 * (j 0).val = (j 0).val; omega
  | ⟨1, _⟩ => show win1_3.index t (1 : Fin 2) * 256 + 1 * (j 1).val = (j 1).val; omega

/-- The output window's block at point t, read out of a whole array, is the same selection of rows. -/
theorem read_out (t : Fin cfg1.N) (G : Gine.Mat 320000 256) :
    ((cfg1.win 4).blk t).view.read (Elt Ideal) G = Gine.rowsOf (rows t) G := by
  obtain ⟨-, -, -, -, -, -, -, -, e0, e1⟩ := idx_facts t
  funext j
  show G (((cfg1.win 4).blk t).view.emb j) = G (ix2 (rows t (j 0)) (j 1))
  congr 1
  funext a; apply Fin.ext
  match a with
  | ⟨0, _⟩ => show win1_4.index t (0 : Fin 2) * 2000 + 1 * (j 0).val = 2000 * t.val + (j 0).val; omega
  | ⟨1, _⟩ => show win1_4.index t (1 : Fin 2) * 256 + 1 * (j 1).val = (j 1).val; omega

theorem flushed_eq (c : Dev nD) (t : Fin cfg1.N) :
    (dat1 V c).flushed 4 t = ((cfg1.win 4).blk t).view.read (Elt Ideal) (Gine.msg (V c main_v6) (V c main_arg2) (V c main_v8) (Gine.rowOf (V c main_v11))) := by
  show (cfg1.win 4).cut (grid1.coords t) ((dat1 V c).after 4 t) = _
  rw [after1_4]
  unfold out1_4
  rw [View.canon_unit_zero hz]
  simp only [View.ld_unit_zero (S := S2000x256) hz, View.ld_unit_zero (S := S2000x64) hz, View.ld_unit_zero (S := S64x256) hz, View.ld_unit_zero (S := S1x256) hz]
  rw [pay_eq, blk0 V c t, blk1 V c t, blk2 V c t, blk3 V c t, Gine.msg_rowsOf]
  exact (read_out t _).symm

/-- An index of the array is in point t's block iff each coordinate is in the block's range on its axis. -/
theorem mem_blk (t : Fin cfg1.N) (i : S320000x256.Idx) :
    i ∈ ((cfg1.win 4).blk t).view.set ↔ ∀ a : Fin 2, win1_4.index t a * S2000x256.size a ≤ (i a).val ∧ (i a).val < win1_4.index t a * S2000x256.size a + S2000x256.size a := by
  show i ∈ ((View.whole main_v12).slice (win1_4.rect t)).set ↔ _
  rw [View.set_slice_whole, Rect.mem_set_unit]
  exact Iff.rfl

/-- Row i₀ lies in the block of point i₀ / 2000: the blocks tile the array. -/
theorem cover (i : S320000x256.Idx) : ∃ t : Fin cfg1.N, (cfg1.win 4).flush t = true ∧ i ∈ ((cfg1.win 4).blk t).view.set := by
  have hi0 : (i 0).val < 320000 := (i 0).isLt
  have hi1 : (i 1).val < 256 := (i 1).isLt
  have hN : cfg1.N = 160 := N_1
  refine ⟨⟨(i 0).val / 2000, by omega⟩, flush1_4 _, ?_⟩
  obtain ⟨-, -, -, -, -, -, -, -, e0, e1⟩ := idx_facts ⟨(i 0).val / 2000, by omega⟩
  rw [mem_blk]
  intro a
  match a with
  | ⟨0, _⟩ =>
    show win1_4.index _ (0 : Fin 2) * 2000 ≤ (i 0).val ∧ (i 0).val < win1_4.index _ (0 : Fin 2) * 2000 + 2000
    rw [e0]; show (i 0).val / 2000 * 2000 ≤ (i 0).val ∧ (i 0).val < (i 0).val / 2000 * 2000 + 2000; omega
  | ⟨1, _⟩ =>
    show win1_4.index _ (1 : Fin 2) * 256 ≤ (i 1).val ∧ (i 1).val < win1_4.index _ (1 : Fin 2) * 256 + 256
    rw [e1]; omega

/-- After the region the output array is the message array of the whole arrays, whatever the region found in them. -/
theorem arr (c : Dev nD) :
    (dat1 V c).arrAt 4 cfg1.N = Gine.msg (V c main_v6) (V c main_arg2) (V c main_v8) (Gine.rowOf (V c main_v11)) :=
  (dat1 V c).arrAt_eq_of_cover 4 _ (fun t _ => flushed_eq V c t) cover

end Cert.KernelIdeal.Region1

end
-- ==== Proof.Region2.lean ====
/-
  Region 2 (the node update of layer 0). The region walks the 20000 rows in ten blocks of 2000; at each block it loads
  the block of h and the block of the aggregated messages, the two whole weight matrices and the two 1×256 bias rows,
  forms max(max((h + agg)·W₁ + b₁, 0)·W₂ + b₂, 0) on the block and stores it as the same block of the output. Since
  the update acts row by row, the block of the result is the block of the update of the whole arrays; the ten blocks
  tile the output, so after the region the output array is the update of the whole arrays.
-/
import proofs.«407353_j69303592288943_1_alg».proof.Proof.Gen.KernelIdeal.Frame
import proofs.«407353_j69303592288943_1_alg».proof.Proof.LibAffine

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

theorem dot_plain : PlainDot.IsPlain dot_S2000x256_S256x256_S2000x256_1_0_0_1_n_n := ⟨rfl, rfl, rfl, rfl, rfl, rfl⟩

/-- On a block of rows the body computes the node update of the block. -/
theorem pay_eq (x0 : Vec Ideal S2000x256 .f32) (x1 : Vec Ideal S2000x256 .f32) (x2 : Vec Ideal S256x256 .f32)
    (x3 : Vec Ideal S1x256 .f32) (x4 : Vec Ideal S256x256 .f32) (x5 : Vec Ideal S1x256 .f32) :
    k2_pay1 x0 x1 x2 x3 x4 x5 = Gine.upd x0 x1 x2 (Gine.rowOf x3) x4 (Gine.rowOf x5) := by
  unfold k2_pay1
  simp only [Gine.truncf_id, shapeCast_self]
  have e_lin : ∀ (X : FVec Ideal S2000x256 .bf16) (W : FVec Ideal S256x256 .bf16) (b : Vec Ideal S1x256 .f32),
      addf (matmul dot_S2000x256_S256x256_S2000x256_1_0_0_1_n_n none X W (constant S2000x256 .f32 0x00000000#32))
        (broadcastTo S2000x256 b broadcasts_S1x256_S2000x256) = Gine.lin X W (Gine.rowOf b) :=
    fun X W b => Gine.kernel_lin _ dot_plain none X W b _
  have e_relu : ∀ Y : FVec Ideal S2000x256 .f32,
      maximumf Y (broadcast S2000x256 (Scalar.ofBits .f32 0x00000000#32)) = Gine.relu Y :=
    fun Y => Gine.kernel_relu Y
  rw [e_lin, e_relu, e_lin, e_relu]
  rfl

/-- The rows of block t. -/
def rows (t : Fin cfg2.N) : Fin 2000 → Fin 20000 := fun r => ⟨2000 * t.val + r.val, by have := t.isLt; have := r.isLt; have : cfg2.N = 10 := N_2; omega⟩

theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Window 0's block at point t is rows 2000·t … of the array. -/
theorem blk0 (c : Dev nD) (t : Fin cfg2.N) : iblk2 V c 0 t = Gine.rowsOf (rows t) (V c main_v5) := by
  obtain ⟨e0, e1, -⟩ := idx_facts t
  funext j
  show V c main_v5 (((cfg2.win 0).blk t).view.emb j) = V c main_v5 (ix2 (rows t (j 0)) (j 1))
  congr 1
  funext a; apply Fin.ext
  match a with
  | ⟨0, _⟩ => show win2_0.index t (0 : Fin 2) * 2000 + 1 * (j 0).val = 2000 * t.val + (j 0).val; omega
  | ⟨1, _⟩ => show win2_0.index t (1 : Fin 2) * 256 + 1 * (j 1).val = (j 1).val; omega

/-- Window 1's block at point t is the same rows of its array. -/
theorem blk1 (c : Dev nD) (t : Fin cfg2.N) : iblk2 V c 1 t = Gine.rowsOf (rows t) (V c main_v15) := by
  obtain ⟨-, -, e0, e1, -⟩ := idx_facts t
  funext j
  show V c main_v15 (((cfg2.win 1).blk t).view.emb j) = V c main_v15 (ix2 (rows t (j 0)) (j 1))
  congr 1
  funext a; apply Fin.ext
  match a with
  | ⟨0, _⟩ => show win2_1.index t (0 : Fin 2) * 2000 + 1 * (j 0).val = 2000 * t.val + (j 0).val; omega
  | ⟨1, _⟩ => show win2_1.index t (1 : Fin 2) * 256 + 1 * (j 1).val = (j 1).val; omega

/-- Windows 2, 3, 4 and 5 hold their whole arrays at every point. -/
theorem blk2 (c : Dev nD) (t : Fin cfg2.N) : iblk2 V c 2 t = V c main_v17 := by
  obtain ⟨-, -, -, -, e0, e1, -⟩ := idx_facts t
  funext j
  show V c main_v17 (((cfg2.win 2).blk t).view.emb j) = V c main_v17 j
  congr 1
  funext a; apply Fin.ext
  match a with
  | ⟨0, _⟩ => show win2_2.index t (0 : Fin 2) * 256 + 1 * (j 0).val = (j 0).val; omega
  | ⟨1, _⟩ => show win2_2.index t (1 : Fin 2) * 256 + 1 * (j 1).val = (j 1).val; omega

theorem blk3 (c : Dev nD) (t : Fin cfg2.N) : iblk2 V c 3 t = V c main_v24 := by
  obtain ⟨-, -, -, -, -, -, e0, e1, -⟩ := idx_facts t
  funext j
  show V c main_v24 (((cfg2.win 3).blk t).view.emb j) = V c main_v24 j
  congr 1
  funext a; apply Fin.ext
  match a with
  | ⟨0, _⟩ => show win2_3.index t (0 : Fin 2) * 1 + 1 * (j 0).val = (j 0).val; omega
  | ⟨1, _⟩ => show win2_3.index t (1 : Fin 2) * 256 + 1 * (j 1).val = (j 1).val; omega

theorem blk4 (c : Dev nD) (t : Fin cfg2.N) : iblk2 V c 4 t = V c main_v21 := by
  obtain ⟨-, -, -, -, -, -, -, -, e0, e1, -⟩ := idx_facts t
  funext j
  show V c main_v21 (((cfg2.win 4).blk t).view.emb j) = V c main_v21 j
  congr 1
  funext a; apply Fin.ext
  match a with
  | ⟨0, _⟩ => show win2_4.index t (0 : Fin 2) * 256 + 1 * (j 0).val = (j 0).val; omega
  | ⟨1, _⟩ => show win2_4.index t (1 : Fin 2) * 256 + 1 * (j 1).val = (j 1).val; omega

theorem blk5 (c : Dev nD) (t : Fin cfg2.N) : iblk2 V c 5 t = V c main_v25 := by
  obtain ⟨-, -, -, -, -, -, -, -, -, -, e0, e1, -⟩ := idx_facts t
  funext j
  show V c main_v25 (((cfg2.win 5).blk t).view.emb j) = V c main_v25 j
  congr 1
  funext a; apply Fin.ext
  match a with
  | ⟨0, _⟩ => show win2_5.index t (0 : Fin 2) * 1 + 1 * (j 0).val = (j 0).val; omega
  | ⟨1, _⟩ => show win2_5.index t (1 : Fin 2) * 256 + 1 * (j 1).val = (j 1).val; omega

/-- The output window's block at point t, read out of a whole array, is the same selection of rows. -/
theorem read_out (t : Fin cfg2.N) (G : Gine.Mat 20000 256) :
    ((cfg2.win 6).blk t).view.read (Elt Ideal) G = Gine.rowsOf (rows t) G := by
  obtain ⟨-, -, -, -, -, -, -, -, -, -, -, -, e0, e1⟩ := idx_facts t
  funext j
  show G (((cfg2.win 6).blk t).view.emb j) = G (ix2 (rows t (j 0)) (j 1))
  congr 1
  funext a; apply Fin.ext
  match a with
  | ⟨0, _⟩ => show win2_6.index t (0 : Fin 2) * 2000 + 1 * (j 0).val = 2000 * t.val + (j 0).val; omega
  | ⟨1, _⟩ => show win2_6.index t (1 : Fin 2) * 256 + 1 * (j 1).val = (j 1).val; omega

theorem flushed_eq (c : Dev nD) (t : Fin cfg2.N) :
    (dat2 V c).flushed 6 t = ((cfg2.win 6).blk t).view.read (Elt Ideal)
      (Gine.upd (V c main_v5) (V c main_v15) (V c main_v17) (Gine.rowOf (V c main_v24)) (V c main_v21) (Gine.rowOf (V c main_v25))) := by
  show (cfg2.win 6).cut (grid2.coords t) ((dat2 V c).after 6 t) = _
  rw [after2_6]
  unfold out2_6
  rw [View.canon_unit_zero hz]
  simp only [View.ld_unit_zero (S := S2000x256) hz, View.ld_unit_zero (S := S256x256) hz, View.ld_unit_zero (S := S1x256) hz]
  rw [pay_eq, blk0 V c t, blk1 V c t, blk2 V c t, blk3 V c t, blk4 V c t, blk5 V c t, Gine.upd_rowsOf]
  exact (read_out t _).symm

/-- An index of the array is in point t's block iff each coordinate is in the block's range on its axis. -/
theorem mem_blk (t : Fin cfg2.N) (i : S20000x256.Idx) :
    i ∈ ((cfg2.win 6).blk t).view.set ↔ ∀ a : Fin 2, win2_6.index t a * S2000x256.size a ≤ (i a).val ∧ (i a).val < win2_6.index t a * S2000x256.size a + S2000x256.size a := by
  show i ∈ ((View.whole main_v26).slice (win2_6.rect t)).set ↔ _
  rw [View.set_slice_whole, Rect.mem_set_unit]
  exact Iff.rfl

/-- Row i₀ lies in the block of point i₀ / 2000: the blocks tile the array. -/
theorem cover (i : S20000x256.Idx) : ∃ t : Fin cfg2.N, (cfg2.win 6).flush t = true ∧ i ∈ ((cfg2.win 6).blk t).view.set := by
  have hi0 : (i 0).val < 20000 := (i 0).isLt
  have hi1 : (i 1).val < 256 := (i 1).isLt
  have hN : cfg2.N = 10 := N_2
  refine ⟨⟨(i 0).val / 2000, by omega⟩, flush2_6 _, ?_⟩
  obtain ⟨-, -, -, -, -, -, -, -, -, -, -, -, e0, e1⟩ := idx_facts ⟨(i 0).val / 2000, by omega⟩
  rw [mem_blk]
  intro a
  match a with
  | ⟨0, _⟩ =>
    show win2_6.index _ (0 : Fin 2) * 2000 ≤ (i 0).val ∧ (i 0).val < win2_6.index _ (0 : Fin 2) * 2000 + 2000
    rw [e0]; show (i 0).val / 2000 * 2000 ≤ (i 0).val ∧ (i 0).val < (i 0).val / 2000 * 2000 + 2000; omega
  | ⟨1, _⟩ =>
    show win2_6.index _ (1 : Fin 2) * 256 ≤ (i 1).val ∧ (i 1).val < win2_6.index _ (1 : Fin 2) * 256 + 256
    rw [e1]; omega

/-- After the region the output array is the node update of the whole arrays, whatever the region found in them. -/
theorem arr (c : Dev nD) :
    (dat2 V c).arrAt 6 cfg2.N = Gine.upd (V c main_v5) (V c main_v15) (V c main_v17) (Gine.rowOf (V c main_v24)) (V c main_v21) (Gine.rowOf (V c main_v25)) :=
  (dat2 V c).arrAt_eq_of_cover 6 _ (fun t _ => flushed_eq V c t) cover

end Cert.KernelIdeal.Region2

end
-- ==== Proof.KLayer0.lean ====
/-
  Round 0 of the kernel program's run, from the node features the round starts with to the node features it leaves:
  a stretch of host operations gathers the node rows along the edges, a second one slices the round's edge weights out
  of the stacks, the edge region forms the messages, a third stretch sums them at the edges' targets and slices the
  update's weights, and the node region applies the update. Each stretch's outputs are read off as functions of its
  inputs; every buffer a later segment reads is walked back to the segment that wrote it.
-/
import proofs.«407353_j69303592288943_1_alg».proof.Proof.KBase
import proofs.«407353_j69303592288943_1_alg».proof.Proof.KeepB
import proofs.«407353_j69303592288943_1_alg».proof.Proof.KeepC
import proofs.«407353_j69303592288943_1_alg».proof.Proof.Region1
import proofs.«407353_j69303592288943_1_alg».proof.Proof.Region2

set_option maxRecDepth 16384
set_option maxHeartbeats 4000000

noncomputable section

namespace Cert.KernelIdeal.KLayer0

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

/-- The node features and the gathered rows, read through their buffers' types, are the buffers' contents. -/
theorem of_h (Wc : Valuation τ sig (Elt Ideal)) (h1 : main_v5.ty = ⟨S20000x256, .f32⟩) (h2 h3) :
    (StableHlo.TRef.of (T := ⟨S20000x256, .f32⟩) main_v5 h1 h2 h3).ofBuf (Wc (Proc.devRef .tc main_v5)) = Wc (Proc.devRef .tc main_v5) := rfl
theorem to_hs (h1 : main_v6.ty = ⟨S320000x256, .f32⟩) (h2 h3) (v : FVec Ideal S320000x256 .f32) :
    (StableHlo.TRef.of (T := ⟨S320000x256, .f32⟩) main_v6 h1 h2 h3).toBuf (Val := Elt Ideal) v = v := rfl

/-- The stretch before the edge region: the gather of the node rows along the edges. -/
theorem take_W3 (c : Dev nD) :
    W3 m ρ c (Proc.devRef .tc main_v6) = KParams.take (W2 m ρ c (Proc.devRef .tc main_v1)) (W2 m ρ c (Proc.devRef .tc main_v5)) := by
  show StableHlo.after hostOps1 (W2 m ρ c) (Proc.devRef .tc main_v6) = _
  generalize W2 m ρ c = Wc
  after_results_simp
  simp only [KBase.ofBuf_toBuf, KBase.of_src, of_h, to_hs]
  rfl

/-- The next stretch: the round's edge weights, sliced out of the stacks. -/
theorem eW_W4 (c : Dev nD) : W4 m ρ c (Proc.devRef .tc main_v8) = KParams.eW0 (W3 m ρ c (Proc.devRef .tc main_arg6)) := by
  show StableHlo.after hostOps1_1 (W3 m ρ c) (Proc.devRef .tc main_v8) = _
  generalize W3 m ρ c = Wc
  after_results
  rfl

theorem eb_W4 (c : Dev nD) :
    W4 m ρ c (Proc.devRef .tc main_v11) = shapeCast S1x256 (KParams.eb0 (W3 m ρ c (Proc.devRef .tc main_arg7))) shapeCasts_S256_S1x256 := by
  show StableHlo.after hostOps1_1 (W3 m ρ c) (Proc.devRef .tc main_v11) = _
  generalize W3 m ρ c = Wc
  after_results
  rfl

/-- The edge region: the messages. -/
theorem msg_W5 (c : Dev nD) :
    W5 m ρ c (Proc.devRef .tc main_v12) = Gine.msg (W4 m ρ c (Proc.devRef .tc main_v6)) (W4 m ρ c (Proc.devRef .tc main_arg2)) (W4 m ρ c (Proc.devRef .tc main_v8))
      (Gine.rowOf (W4 m ρ c (Proc.devRef .tc main_v11))) :=
  (W5_arr m ρ c 4).trans (Region1.arr (V4 m ρ) c)

/-- The stretch before the node region: the sum of the messages at the edges' targets, and the update's weights. -/
theorem sct_W6 (c : Dev nD) :
    W6 m ρ c (Proc.devRef .tc main_v15) = KParams.sct (W5 m ρ c (Proc.devRef .tc main_v3)) (W5 m ρ c (Proc.devRef .tc main_v12)) := by
  show StableHlo.after hostOps2 (W5 m ρ c) (Proc.devRef .tc main_v15) = _
  generalize W5 m ρ c = Wc
  after_results
  rfl

theorem W1_W6 (c : Dev nD) : W6 m ρ c (Proc.devRef .tc main_v17) = KParams.mW1_0 (W5 m ρ c (Proc.devRef .tc main_arg8)) := by
  show StableHlo.after hostOps2 (W5 m ρ c) (Proc.devRef .tc main_v17) = _
  generalize W5 m ρ c = Wc
  after_results
  rfl

theorem b1_W6 (c : Dev nD) :
    W6 m ρ c (Proc.devRef .tc main_v24) = shapeCast S1x256 (KParams.mb1_0 (W5 m ρ c (Proc.devRef .tc main_arg9))) shapeCasts_S256_S1x256 := by
  show StableHlo.after hostOps2 (W5 m ρ c) (Proc.devRef .tc main_v24) = _
  generalize W5 m ρ c = Wc
  after_results
  rfl

theorem W2_W6 (c : Dev nD) : W6 m ρ c (Proc.devRef .tc main_v21) = KParams.mW2_0 (W5 m ρ c (Proc.devRef .tc main_arg10)) := by
  show StableHlo.after hostOps2 (W5 m ρ c) (Proc.devRef .tc main_v21) = _
  generalize W5 m ρ c = Wc
  after_results
  rfl

theorem b2_W6 (c : Dev nD) :
    W6 m ρ c (Proc.devRef .tc main_v25) = shapeCast S1x256 (KParams.mb2_0 (W5 m ρ c (Proc.devRef .tc main_arg11))) shapeCasts_S256_S1x256 := by
  show StableHlo.after hostOps2 (W5 m ρ c) (Proc.devRef .tc main_v25) = _
  generalize W5 m ρ c = Wc
  after_results
  rfl

/-- The node region: the update. -/
theorem upd_W7 (c : Dev nD) :
    W7 m ρ c (Proc.devRef .tc main_v26) = Gine.upd (W6 m ρ c (Proc.devRef .tc main_v5)) (W6 m ρ c (Proc.devRef .tc main_v15)) (W6 m ρ c (Proc.devRef .tc main_v17))
      (Gine.rowOf (W6 m ρ c (Proc.devRef .tc main_v24))) (W6 m ρ c (Proc.devRef .tc main_v21)) (Gine.rowOf (W6 m ρ c (Proc.devRef .tc main_v25))) :=
  (W7_arr m ρ c 6).trans (Region2.arr (V6 m ρ) c)

/-- THE ROUND: the node features after the node region are the round applied to the node features before the gather. -/
theorem round (c : Dev nD) :
    W7 m ρ c (Proc.devRef .tc main_v26)
      = (KParams.p0 (m ((c : Thread nD τ).loc main_arg1)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))).run
          (m ((c : Thread nD τ).loc main_arg2)) (W2 m ρ c (Proc.devRef .tc main_v5)) := by
  rw [upd_W7, sct_W6, W1_W6, b1_W6, W2_W6, b2_W6, msg_W5, eW_W4, eb_W4]
  rw [KeepC.at6_main_v5, KeepC.at5_main_v3, KeepB.at5_main_arg8, KeepB.at5_main_arg9, KeepB.at5_main_arg10, KeepB.at5_main_arg11,
    KeepC.at4_main_v6, KeepA.at4_main_arg2, KeepA.at3_main_arg6, KeepA.at3_main_arg7, take_W3, KeepC.at2_main_v1,
    KBase.src_W1, KBase.dst_W1]
  simp only [KBase.rowOf_reshape]
  unfold Gine.LayerP.run Gine.layer KParams.p0
  dsimp only

end Cert.KernelIdeal.KLayer0

end
-- ==== Proof.Region3.lean ====
/-
  Region 3 (the edge messages of the second round). The region walks the 320000 edges in 160 blocks of 2000; at each
  block it loads the block of the source-node features, the block of the edge attributes, the whole weight matrix and
  the 1×256 bias row, forms max(block of h_src + ((block of edge_attr)·W + b), 0) and stores it as the same block of the
  output. Since the message acts row by row, the block of the result is the block of the message of the whole arrays;
  the 160 blocks tile the output, so after the region the output array is the message array.
-/
import proofs.«407353_j69303592288943_1_alg».proof.Proof.Gen.KernelIdeal.Frame
import proofs.«407353_j69303592288943_1_alg».proof.Proof.LibAffine

set_option maxRecDepth 16384

noncomputable section

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

theorem dot_plain : PlainDot.IsPlain dot_S2000x64_S64x256_S2000x256_1_0_0_1_n_n := ⟨rfl, rfl, rfl, rfl, rfl, rfl⟩

/-- On a block of rows the body computes the message of the block: the affine map of the attribute block, added to
    the block of source features entry by entry, cut off at zero. -/
theorem pay_eq (v0 : Vec Ideal S2000x64 .f32) (v2 : Vec Ideal S64x256 .f32) (v6 : Vec Ideal S1x256 .f32)
    (v10 : Vec Ideal S2000x256 .f32) :
    k3_pay1 v0 v2 v6 v10 = Gine.msg v10 v0 v2 (Gine.rowOf v6) := by
  unfold k3_pay1
  simp only [Gine.truncf_id, shapeCast_self]
  rw [Gine.kernel_relu, Gine.kernel_lin _ dot_plain none v0 v2 v6 _]
  rfl

/-- The rows of block t. -/
def rows (t : Fin cfg3.N) : Fin 2000 → Fin 320000 := fun r => ⟨2000 * t.val + r.val, by have := t.isLt; have := r.isLt; have : cfg3.N = 160 := N_3; omega⟩

theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Window 0's block at point t is rows 2000·t … of the array of source features. -/
theorem blk0 (c : Dev nD) (t : Fin cfg3.N) : iblk3 V c 0 t = Gine.rowsOf (rows t) (V c main_v27) := by
  obtain ⟨e0, e1, -⟩ := idx_facts t
  funext j
  show V c main_v27 (((cfg3.win 0).blk t).view.emb j) = V c main_v27 (ix2 (rows t (j 0)) (j 1))
  congr 1
  funext a; apply Fin.ext
  match a with
  | ⟨0, _⟩ => show win3_0.index t (0 : Fin 2) * 2000 + 1 * (j 0).val = 2000 * t.val + (j 0).val; omega
  | ⟨1, _⟩ => show win3_0.index t (1 : Fin 2) * 256 + 1 * (j 1).val = (j 1).val; omega

/-- Window 1's block at point t is the same rows of the array of edge attributes. -/
theorem blk1 (c : Dev nD) (t : Fin cfg3.N) : iblk3 V c 1 t = Gine.rowsOf (rows t) (V c main_arg2) := by
  obtain ⟨-, -, e0, e1, -⟩ := idx_facts t
  funext j
  show V c main_arg2 (((cfg3.win 1).blk t).view.emb j) = V c main_arg2 (ix2 (rows t (j 0)) (j 1))
  congr 1
  funext a; apply Fin.ext
  match a with
  | ⟨0, _⟩ => show win3_1.index t (0 : Fin 2) * 2000 + 1 * (j 0).val = 2000 * t.val + (j 0).val; omega
  | ⟨1, _⟩ => show win3_1.index t (1 : Fin 2) * 64 + 1 * (j 1).val = (j 1).val; omega

/-- Windows 2 and 3 hold their whole arrays at every point. -/
theorem blk2 (c : Dev nD) (t : Fin cfg3.N) : iblk3 V c 2 t = V c main_v29 := by
  obtain ⟨-, -, -, -, e0, e1, -⟩ := idx_facts t
  funext j
  show V c main_v29 (((cfg3.win 2).blk t).view.emb j) = V c main_v29 j
  congr 1
  funext a; apply Fin.ext
  match a with
  | ⟨0, _⟩ => show win3_2.index t (0 : Fin 2) * 64 + 1 * (j 0).val = (j 0).val; omega
  | ⟨1, _⟩ => show win3_2.index t (1 : Fin 2) * 256 + 1 * (j 1).val = (j 1).val; omega

theorem blk3 (c : Dev nD) (t : Fin cfg3.N) : iblk3 V c 3 t = V c main_v32 := by
  obtain ⟨-, -, -, -, -, -, e0, e1, -⟩ := idx_facts t
  funext j
  show V c main_v32 (((cfg3.win 3).blk t).view.emb j) = V c main_v32 j
  congr 1
  funext a; apply Fin.ext
  match a with
  | ⟨0, _⟩ => show win3_3.index t (0 : Fin 2) * 1 + 1 * (j 0).val = (j 0).val; omega
  | ⟨1, _⟩ => show win3_3.index t (1 : Fin 2) * 256 + 1 * (j 1).val = (j 1).val; omega

/-- The output window's block at point t, read out of a whole array, is the same selection of rows. -/
theorem read_out (t : Fin cfg3.N) (G : Gine.Mat 320000 256) :
    ((cfg3.win 4).blk t).view.read (Elt Ideal) G = Gine.rowsOf (rows t) G := by
  obtain ⟨-, -, -, -, -, -, -, -, e0, e1⟩ := idx_facts t
  funext j
  show G (((cfg3.win 4).blk t).view.emb j) = G (ix2 (rows t (j 0)) (j 1))
  congr 1
  funext a; apply Fin.ext
  match a with
  | ⟨0, _⟩ => show win3_4.index t (0 : Fin 2) * 2000 + 1 * (j 0).val = 2000 * t.val + (j 0).val; omega
  | ⟨1, _⟩ => show win3_4.index t (1 : Fin 2) * 256 + 1 * (j 1).val = (j 1).val; omega

theorem flushed_eq (c : Dev nD) (t : Fin cfg3.N) :
    (dat3 V c).flushed 4 t = ((cfg3.win 4).blk t).view.read (Elt Ideal) (Gine.msg (V c main_v27) (V c main_arg2) (V c main_v29) (Gine.rowOf (V c main_v32))) := by
  show (cfg3.win 4).cut (grid3.coords t) ((dat3 V c).after 4 t) = _
  rw [after3_4]
  unfold out3_4
  rw [View.canon_unit_zero hz]
  simp only [View.ld_unit_zero (S := S2000x256) hz, View.ld_unit_zero (S := S2000x64) hz, View.ld_unit_zero (S := S64x256) hz, View.ld_unit_zero (S := S1x256) hz]
  rw [pay_eq, blk0 V c t, blk1 V c t, blk2 V c t, blk3 V c t, Gine.msg_rowsOf]
  exact (read_out t _).symm

/-- An index of the array is in point t's block iff each coordinate is in the block's range on its axis. -/
theorem mem_blk (t : Fin cfg3.N) (i : S320000x256.Idx) :
    i ∈ ((cfg3.win 4).blk t).view.set ↔ ∀ a : Fin 2, win3_4.index t a * S2000x256.size a ≤ (i a).val ∧ (i a).val < win3_4.index t a * S2000x256.size a + S2000x256.size a := by
  show i ∈ ((View.whole main_v33).slice (win3_4.rect t)).set ↔ _
  rw [View.set_slice_whole, Rect.mem_set_unit]
  exact Iff.rfl

/-- Row i₀ lies in the block of point i₀ / 2000: the blocks tile the array. -/
theorem cover (i : S320000x256.Idx) : ∃ t : Fin cfg3.N, (cfg3.win 4).flush t = true ∧ i ∈ ((cfg3.win 4).blk t).view.set := by
  have hi0 : (i 0).val < 320000 := (i 0).isLt
  have hi1 : (i 1).val < 256 := (i 1).isLt
  have hN : cfg3.N = 160 := N_3
  refine ⟨⟨(i 0).val / 2000, by omega⟩, flush3_4 _, ?_⟩
  obtain ⟨-, -, -, -, -, -, -, -, e0, e1⟩ := idx_facts ⟨(i 0).val / 2000, by omega⟩
  rw [mem_blk]
  intro a
  match a with
  | ⟨0, _⟩ =>
    show win3_4.index _ (0 : Fin 2) * 2000 ≤ (i 0).val ∧ (i 0).val < win3_4.index _ (0 : Fin 2) * 2000 + 2000
    rw [e0]; show (i 0).val / 2000 * 2000 ≤ (i 0).val ∧ (i 0).val < (i 0).val / 2000 * 2000 + 2000; omega
  | ⟨1, _⟩ =>
    show win3_4.index _ (1 : Fin 2) * 256 ≤ (i 1).val ∧ (i 1).val < win3_4.index _ (1 : Fin 2) * 256 + 256
    rw [e1]; omega

/-- After the region the output array is the message array of the whole arrays, whatever the region found in them. -/
theorem arr (c : Dev nD) :
    (dat3 V c).arrAt 4 cfg3.N = Gine.msg (V c main_v27) (V c main_arg2) (V c main_v29) (Gine.rowOf (V c main_v32)) :=
  (dat3 V c).arrAt_eq_of_cover 4 _ (fun t _ => flushed_eq V c t) cover

end Cert.KernelIdeal.Region3

end
-- ==== Proof.Region4.lean ====
/-
  Region 4 (the node update of layer 1). The region walks the 20000 rows in ten blocks of 2000; at each block it loads
  the block of h and the block of the aggregated messages, the two whole weight matrices and the two 1×256 bias rows,
  forms max(max((h + agg)·W₁ + b₁, 0)·W₂ + b₂, 0) on the block and stores it as the same block of the output. Since
  the update acts row by row, the block of the result is the block of the update of the whole arrays; the ten blocks
  tile the output, so after the region the output array is the update of the whole arrays.
-/
import proofs.«407353_j69303592288943_1_alg».proof.Proof.Gen.KernelIdeal.Frame
import proofs.«407353_j69303592288943_1_alg».proof.Proof.LibAffine

set_option maxRecDepth 16384

noncomputable section

namespace Cert.KernelIdeal.Region4

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

theorem dot_plain : PlainDot.IsPlain dot_S2000x256_S256x256_S2000x256_1_0_0_1_n_n := ⟨rfl, rfl, rfl, rfl, rfl, rfl⟩

/-- On a block of rows the body computes the node update of the block. -/
theorem pay_eq (x0 : Vec Ideal S2000x256 .f32) (x1 : Vec Ideal S2000x256 .f32) (x2 : Vec Ideal S256x256 .f32)
    (x3 : Vec Ideal S1x256 .f32) (x4 : Vec Ideal S256x256 .f32) (x5 : Vec Ideal S1x256 .f32) :
    k4_pay1 x0 x1 x2 x3 x4 x5 = Gine.upd x0 x1 x2 (Gine.rowOf x3) x4 (Gine.rowOf x5) := by
  unfold k4_pay1
  simp only [Gine.truncf_id, shapeCast_self]
  have e_lin : ∀ (X : FVec Ideal S2000x256 .bf16) (W : FVec Ideal S256x256 .bf16) (b : Vec Ideal S1x256 .f32),
      addf (matmul dot_S2000x256_S256x256_S2000x256_1_0_0_1_n_n none X W (constant S2000x256 .f32 0x00000000#32))
        (broadcastTo S2000x256 b broadcasts_S1x256_S2000x256) = Gine.lin X W (Gine.rowOf b) :=
    fun X W b => Gine.kernel_lin _ dot_plain none X W b _
  have e_relu : ∀ Y : FVec Ideal S2000x256 .f32,
      maximumf Y (broadcast S2000x256 (Scalar.ofBits .f32 0x00000000#32)) = Gine.relu Y :=
    fun Y => Gine.kernel_relu Y
  rw [e_lin, e_relu, e_lin, e_relu]
  rfl

/-- The rows of block t. -/
def rows (t : Fin cfg4.N) : Fin 2000 → Fin 20000 := fun r => ⟨2000 * t.val + r.val, by have := t.isLt; have := r.isLt; have : cfg4.N = 10 := N_4; omega⟩

theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-- Window 0's block at point t is rows 2000·t … of the array. -/
theorem blk0 (c : Dev nD) (t : Fin cfg4.N) : iblk4 V c 0 t = Gine.rowsOf (rows t) (V c main_v26) := by
  obtain ⟨e0, e1, -⟩ := idx_facts t
  funext j
  show V c main_v26 (((cfg4.win 0).blk t).view.emb j) = V c main_v26 (ix2 (rows t (j 0)) (j 1))
  congr 1
  funext a; apply Fin.ext
  match a with
  | ⟨0, _⟩ => show win4_0.index t (0 : Fin 2) * 2000 + 1 * (j 0).val = 2000 * t.val + (j 0).val; omega
  | ⟨1, _⟩ => show win4_0.index t (1 : Fin 2) * 256 + 1 * (j 1).val = (j 1).val; omega

/-- Window 1's block at point t is the same rows of its array. -/
theorem blk1 (c : Dev nD) (t : Fin cfg4.N) : iblk4 V c 1 t = Gine.rowsOf (rows t) (V c main_v36) := by
  obtain ⟨-, -, e0, e1, -⟩ := idx_facts t
  funext j
  show V c main_v36 (((cfg4.win 1).blk t).view.emb j) = V c main_v36 (ix2 (rows t (j 0)) (j 1))
  congr 1
  funext a; apply Fin.ext
  match a with
  | ⟨0, _⟩ => show win4_1.index t (0 : Fin 2) * 2000 + 1 * (j 0).val = 2000 * t.val + (j 0).val; omega
  | ⟨1, _⟩ => show win4_1.index t (1 : Fin 2) * 256 + 1 * (j 1).val = (j 1).val; omega

/-- Windows 2, 3, 4 and 5 hold their whole arrays at every point. -/
theorem blk2 (c : Dev nD) (t : Fin cfg4.N) : iblk4 V c 2 t = V c main_v38 := by
  obtain ⟨-, -, -, -, e0, e1, -⟩ := idx_facts t
  funext j
  show V c main_v38 (((cfg4.win 2).blk t).view.emb j) = V c main_v38 j
  congr 1
  funext a; apply Fin.ext
  match a with
  | ⟨0, _⟩ => show win4_2.index t (0 : Fin 2) * 256 + 1 * (j 0).val = (j 0).val; omega
  | ⟨1, _⟩ => show win4_2.index t (1 : Fin 2) * 256 + 1 * (j 1).val = (j 1).val; omega

theorem blk3 (c : Dev nD) (t : Fin cfg4.N) : iblk4 V c 3 t = V c main_v45 := by
  obtain ⟨-, -, -, -, -, -, e0, e1, -⟩ := idx_facts t
  funext j
  show V c main_v45 (((cfg4.win 3).blk t).view.emb j) = V c main_v45 j
  congr 1
  funext a; apply Fin.ext
  match a with
  | ⟨0, _⟩ => show win4_3.index t (0 : Fin 2) * 1 + 1 * (j 0).val = (j 0).val; omega
  | ⟨1, _⟩ => show win4_3.index t (1 : Fin 2) * 256 + 1 * (j 1).val = (j 1).val; omega

theorem blk4 (c : Dev nD) (t : Fin cfg4.N) : iblk4 V c 4 t = V c main_v42 := by
  obtain ⟨-, -, -, -, -, -, -, -, e0, e1, -⟩ := idx_facts t
  funext j
  show V c main_v42 (((cfg4.win 4).blk t).view.emb j) = V c main_v42 j
  congr 1
  funext a; apply Fin.ext
  match a with
  | ⟨0, _⟩ => show win4_4.index t (0 : Fin 2) * 256 + 1 * (j 0).val = (j 0).val; omega
  | ⟨1, _⟩ => show win4_4.index t (1 : Fin 2) * 256 + 1 * (j 1).val = (j 1).val; omega

theorem blk5 (c : Dev nD) (t : Fin cfg4.N) : iblk4 V c 5 t = V c main_v46 := by
  obtain ⟨-, -, -, -, -, -, -, -, -, -, e0, e1, -⟩ := idx_facts t
  funext j
  show V c main_v46 (((cfg4.win 5).blk t).view.emb j) = V c main_v46 j
  congr 1
  funext a; apply Fin.ext
  match a with
  | ⟨0, _⟩ => show win4_5.index t (0 : Fin 2) * 1 + 1 * (j 0).val = (j 0).val; omega
  | ⟨1, _⟩ => show win4_5.index t (1 : Fin 2) * 256 + 1 * (j 1).val = (j 1).val; omega

/-- The output window's block at point t, read out of a whole array, is the same selection of rows. -/
theorem read_out (t : Fin cfg4.N) (G : Gine.Mat 20000 256) :
    ((cfg4.win 6).blk t).view.read (Elt Ideal) G = Gine.rowsOf (rows t) G := by
  obtain ⟨-, -, -, -, -, -, -, -, -, -, -, -, e0, e1⟩ := idx_facts t
  funext j
  show G (((cfg4.win 6).blk t).view.emb j) = G (ix2 (rows t (j 0)) (j 1))
  congr 1
  funext a; apply Fin.ext
  match a with
  | ⟨0, _⟩ => show win4_6.index t (0 : Fin 2) * 2000 + 1 * (j 0).val = 2000 * t.val + (j 0).val; omega
  | ⟨1, _⟩ => show win4_6.index t (1 : Fin 2) * 256 + 1 * (j 1).val = (j 1).val; omega

theorem flushed_eq (c : Dev nD) (t : Fin cfg4.N) :
    (dat4 V c).flushed 6 t = ((cfg4.win 6).blk t).view.read (Elt Ideal)
      (Gine.upd (V c main_v26) (V c main_v36) (V c main_v38) (Gine.rowOf (V c main_v45)) (V c main_v42) (Gine.rowOf (V c main_v46))) := by
  show (cfg4.win 6).cut (grid4.coords t) ((dat4 V c).after 6 t) = _
  rw [after4_6]
  unfold out4_6
  rw [View.canon_unit_zero hz]
  simp only [View.ld_unit_zero (S := S2000x256) hz, View.ld_unit_zero (S := S256x256) hz, View.ld_unit_zero (S := S1x256) hz]
  rw [pay_eq, blk0 V c t, blk1 V c t, blk2 V c t, blk3 V c t, blk4 V c t, blk5 V c t, Gine.upd_rowsOf]
  exact (read_out t _).symm

/-- An index of the array is in point t's block iff each coordinate is in the block's range on its axis. -/
theorem mem_blk (t : Fin cfg4.N) (i : S20000x256.Idx) :
    i ∈ ((cfg4.win 6).blk t).view.set ↔ ∀ a : Fin 2, win4_6.index t a * S2000x256.size a ≤ (i a).val ∧ (i a).val < win4_6.index t a * S2000x256.size a + S2000x256.size a := by
  show i ∈ ((View.whole main_v47).slice (win4_6.rect t)).set ↔ _
  rw [View.set_slice_whole, Rect.mem_set_unit]
  exact Iff.rfl

/-- Row i₀ lies in the block of point i₀ / 2000: the blocks tile the array. -/
theorem cover (i : S20000x256.Idx) : ∃ t : Fin cfg4.N, (cfg4.win 6).flush t = true ∧ i ∈ ((cfg4.win 6).blk t).view.set := by
  have hi0 : (i 0).val < 20000 := (i 0).isLt
  have hi1 : (i 1).val < 256 := (i 1).isLt
  have hN : cfg4.N = 10 := N_4
  refine ⟨⟨(i 0).val / 2000, by omega⟩, flush4_6 _, ?_⟩
  obtain ⟨-, -, -, -, -, -, -, -, -, -, -, -, e0, e1⟩ := idx_facts ⟨(i 0).val / 2000, by omega⟩
  rw [mem_blk]
  intro a
  match a with
  | ⟨0, _⟩ =>
    show win4_6.index _ (0 : Fin 2) * 2000 ≤ (i 0).val ∧ (i 0).val < win4_6.index _ (0 : Fin 2) * 2000 + 2000
    rw [e0]; show (i 0).val / 2000 * 2000 ≤ (i 0).val ∧ (i 0).val < (i 0).val / 2000 * 2000 + 2000; omega
  | ⟨1, _⟩ =>
    show win4_6.index _ (1 : Fin 2) * 256 ≤ (i 1).val ∧ (i 1).val < win4_6.index _ (1 : Fin 2) * 256 + 256
    rw [e1]; omega

/-- After the region the output array is the node update of the whole arrays, whatever the region found in them. -/
theorem arr (c : Dev nD) :
    (dat4 V c).arrAt 6 cfg4.N = Gine.upd (V c main_v26) (V c main_v36) (V c main_v38) (Gine.rowOf (V c main_v45)) (V c main_v42) (Gine.rowOf (V c main_v46)) :=
  (dat4 V c).arrAt_eq_of_cover 6 _ (fun t _ => flushed_eq V c t) cover

end Cert.KernelIdeal.Region4

end
-- ==== Proof.KLayer1.lean ====
/-
  Round 1 of the kernel program's run, from the node features the round starts with to the node features it leaves:
  a stretch of host operations gathers the node rows along the edges, a second one slices the round's edge weights out
  of the stacks, the edge region forms the messages, a third stretch sums them at the edges' targets and slices the
  update's weights, and the node region applies the update. Each stretch's outputs are read off as functions of its
  inputs; every buffer a later segment reads is walked back to the segment that wrote it.
-/
import proofs.«407353_j69303592288943_1_alg».proof.Proof.KBase
import proofs.«407353_j69303592288943_1_alg».proof.Proof.KeepB
import proofs.«407353_j69303592288943_1_alg».proof.Proof.KeepC
import proofs.«407353_j69303592288943_1_alg».proof.Proof.Region3
import proofs.«407353_j69303592288943_1_alg».proof.Proof.Region4

set_option maxRecDepth 16384
set_option maxHeartbeats 4000000

noncomputable section

namespace Cert.KernelIdeal.KLayer1

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

/-- The node features and the gathered rows, read through their buffers' types, are the buffers' contents. -/
theorem of_h (Wc : Valuation τ sig (Elt Ideal)) (h1 : main_v26.ty = ⟨S20000x256, .f32⟩) (h2 h3) :
    (StableHlo.TRef.of (T := ⟨S20000x256, .f32⟩) main_v26 h1 h2 h3).ofBuf (Wc (Proc.devRef .tc main_v26)) = Wc (Proc.devRef .tc main_v26) := rfl
theorem to_hs (h1 : main_v27.ty = ⟨S320000x256, .f32⟩) (h2 h3) (v : FVec Ideal S320000x256 .f32) :
    (StableHlo.TRef.of (T := ⟨S320000x256, .f32⟩) main_v27 h1 h2 h3).toBuf (Val := Elt Ideal) v = v := rfl

/-- The stretch before the edge region: the gather of the node rows along the edges. -/
theorem take_W8 (c : Dev nD) :
    W8 m ρ c (Proc.devRef .tc main_v27) = KParams.take (W7 m ρ c (Proc.devRef .tc main_v1)) (W7 m ρ c (Proc.devRef .tc main_v26)) := by
  show StableHlo.after hostOps3 (W7 m ρ c) (Proc.devRef .tc main_v27) = _
  generalize W7 m ρ c = Wc
  after_results_simp
  simp only [KBase.ofBuf_toBuf, KBase.of_src, of_h, to_hs]
  rfl

/-- The next stretch: the round's edge weights, sliced out of the stacks. -/
theorem eW_W9 (c : Dev nD) : W9 m ρ c (Proc.devRef .tc main_v29) = KParams.eW1 (W8 m ρ c (Proc.devRef .tc main_arg6)) := by
  show StableHlo.after hostOps3_1 (W8 m ρ c) (Proc.devRef .tc main_v29) = _
  generalize W8 m ρ c = Wc
  after_results
  rfl

theorem eb_W9 (c : Dev nD) :
    W9 m ρ c (Proc.devRef .tc main_v32) = shapeCast S1x256 (KParams.eb1 (W8 m ρ c (Proc.devRef .tc main_arg7))) shapeCasts_S256_S1x256 := by
  show StableHlo.after hostOps3_1 (W8 m ρ c) (Proc.devRef .tc main_v32) = _
  generalize W8 m ρ c = Wc
  after_results
  rfl

/-- The edge region: the messages. -/
theorem msg_W10 (c : Dev nD) :
    W10 m ρ c (Proc.devRef .tc main_v33) = Gine.msg (W9 m ρ c (Proc.devRef .tc main_v27)) (W9 m ρ c (Proc.devRef .tc main_arg2)) (W9 m ρ c (Proc.devRef .tc main_v29))
      (Gine.rowOf (W9 m ρ c (Proc.devRef .tc main_v32))) :=
  (W10_arr m ρ c 4).trans (Region3.arr (V9 m ρ) c)

/-- The stretch before the node region: the sum of the messages at the edges' targets, and the update's weights. -/
theorem sct_W11 (c : Dev nD) :
    W11 m ρ c (Proc.devRef .tc main_v36) = KParams.sct (W10 m ρ c (Proc.devRef .tc main_v3)) (W10 m ρ c (Proc.devRef .tc main_v33)) := by
  show StableHlo.after hostOps4 (W10 m ρ c) (Proc.devRef .tc main_v36) = _
  generalize W10 m ρ c = Wc
  after_results
  rfl

theorem W1_W11 (c : Dev nD) : W11 m ρ c (Proc.devRef .tc main_v38) = KParams.mW1_1 (W10 m ρ c (Proc.devRef .tc main_arg8)) := by
  show StableHlo.after hostOps4 (W10 m ρ c) (Proc.devRef .tc main_v38) = _
  generalize W10 m ρ c = Wc
  after_results
  rfl

theorem b1_W11 (c : Dev nD) :
    W11 m ρ c (Proc.devRef .tc main_v45) = shapeCast S1x256 (KParams.mb1_1 (W10 m ρ c (Proc.devRef .tc main_arg9))) shapeCasts_S256_S1x256 := by
  show StableHlo.after hostOps4 (W10 m ρ c) (Proc.devRef .tc main_v45) = _
  generalize W10 m ρ c = Wc
  after_results
  rfl

theorem W2_W11 (c : Dev nD) : W11 m ρ c (Proc.devRef .tc main_v42) = KParams.mW2_1 (W10 m ρ c (Proc.devRef .tc main_arg10)) := by
  show StableHlo.after hostOps4 (W10 m ρ c) (Proc.devRef .tc main_v42) = _
  generalize W10 m ρ c = Wc
  after_results
  rfl

theorem b2_W11 (c : Dev nD) :
    W11 m ρ c (Proc.devRef .tc main_v46) = shapeCast S1x256 (KParams.mb2_1 (W10 m ρ c (Proc.devRef .tc main_arg11))) shapeCasts_S256_S1x256 := by
  show StableHlo.after hostOps4 (W10 m ρ c) (Proc.devRef .tc main_v46) = _
  generalize W10 m ρ c = Wc
  after_results
  rfl

/-- The node region: the update. -/
theorem upd_W12 (c : Dev nD) :
    W12 m ρ c (Proc.devRef .tc main_v47) = Gine.upd (W11 m ρ c (Proc.devRef .tc main_v26)) (W11 m ρ c (Proc.devRef .tc main_v36)) (W11 m ρ c (Proc.devRef .tc main_v38))
      (Gine.rowOf (W11 m ρ c (Proc.devRef .tc main_v45))) (W11 m ρ c (Proc.devRef .tc main_v42)) (Gine.rowOf (W11 m ρ c (Proc.devRef .tc main_v46))) :=
  (W12_arr m ρ c 6).trans (Region4.arr (V11 m ρ) c)

/-- THE ROUND: the node features after the node region are the round applied to the node features before the gather. -/
theorem round (c : Dev nD) :
    W12 m ρ c (Proc.devRef .tc main_v47)
      = (KParams.p1 (m ((c : Thread nD τ).loc main_arg1)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))).run
          (m ((c : Thread nD τ).loc main_arg2)) (W7 m ρ c (Proc.devRef .tc main_v26)) := by
  rw [upd_W12, sct_W11, W1_W11, b1_W11, W2_W11, b2_W11, msg_W10, eW_W9, eb_W9]
  rw [KeepC.at11_main_v26, KeepC.at10_main_v3, KeepB.at10_main_arg8, KeepB.at10_main_arg9, KeepB.at10_main_arg10, KeepB.at10_main_arg11,
    KeepC.at9_main_v27, KeepA.at9_main_arg2, KeepA.at8_main_arg6, KeepA.at8_main_arg7, take_W8, KeepC.at7_main_v1,
    KBase.src_W1, KBase.dst_W1]
  simp only [KBase.rowOf_reshape]
  unfold Gine.LayerP.run Gine.layer KParams.p1
  dsimp only

end Cert.KernelIdeal.KLayer1

end
-- ==== Proof.Region5.lean ====
/-
  Region 5 (the edge messages of the third round). The region walks the 320000 edges in 160 blocks of 2000; at each
  block it loads the block of the source-node features, the block of the edge attributes, the whole weight matrix and
  the 1×256 bias row, forms max(block of h_src + ((block of edge_attr)·W + b), 0) and stores it as the same block of the
  output. Since the message acts row by row, the block of the result is the block of the message of the whole arrays;
  the 160 blocks tile the output, so after the region the output array is the message array.
-/
import proofs.«407353_j69303592288943_1_alg».proof.Proof.Gen.KernelIdeal.Frame
import proofs.«407353_j69303592288943_1_alg».proof.Proof.LibAffine

set_option maxRecDepth 16384

noncomputable section

namespace Cert.KernelIdeal.Region5

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

theorem dot_plain : PlainDot.IsPlain dot_S2000x64_S64x256_S2000x256_1_0_0_1_n_n := ⟨rfl, rfl, rfl, rfl, rfl, rfl⟩

/-- On a block of rows the body computes the message of the block: the affine map of the attribute block, added to
    the block of source features entry by entry, cut off at zero. -/
theorem pay_eq (v0 : Vec Ideal S2000x64 .f32) (v2 : Vec Ideal S64x256 .f32) (v6 : Vec Ideal S1x256 .f32)
    (v10 : Vec Ideal S2000x256 .f32) :
    k5_pay1 v0 v2 v6 v10 = Gine.msg v10 v0 v2 (Gine.rowOf v6) := by
  unfold k5_pay1
  simp only [Gine.truncf_id, shapeCast_self]
  rw [Gine.kernel_relu, Gine.kernel_lin _ dot_plain none v0 v2 v6 _]
  rfl

/-- The rows of block t. -/
def rows (t : Fin cfg5.N) : Fin 2000 → Fin 320000 := fun r => ⟨2000 * t.val + r.val, by have := t.isLt; have := r.isLt; have : cfg5.N = 160 := N_5; omega⟩

theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- Window 0's block at point t is rows 2000·t … of the array of source features. -/
theorem blk0 (c : Dev nD) (t : Fin cfg5.N) : iblk5 V c 0 t = Gine.rowsOf (rows t) (V c main_v48) := by
  obtain ⟨e0, e1, -⟩ := idx_facts t
  funext j
  show V c main_v48 (((cfg5.win 0).blk t).view.emb j) = V c main_v48 (ix2 (rows t (j 0)) (j 1))
  congr 1
  funext a; apply Fin.ext
  match a with
  | ⟨0, _⟩ => show win5_0.index t (0 : Fin 2) * 2000 + 1 * (j 0).val = 2000 * t.val + (j 0).val; omega
  | ⟨1, _⟩ => show win5_0.index t (1 : Fin 2) * 256 + 1 * (j 1).val = (j 1).val; omega

/-- Window 1's block at point t is the same rows of the array of edge attributes. -/
theorem blk1 (c : Dev nD) (t : Fin cfg5.N) : iblk5 V c 1 t = Gine.rowsOf (rows t) (V c main_arg2) := by
  obtain ⟨-, -, e0, e1, -⟩ := idx_facts t
  funext j
  show V c main_arg2 (((cfg5.win 1).blk t).view.emb j) = V c main_arg2 (ix2 (rows t (j 0)) (j 1))
  congr 1
  funext a; apply Fin.ext
  match a with
  | ⟨0, _⟩ => show win5_1.index t (0 : Fin 2) * 2000 + 1 * (j 0).val = 2000 * t.val + (j 0).val; omega
  | ⟨1, _⟩ => show win5_1.index t (1 : Fin 2) * 64 + 1 * (j 1).val = (j 1).val; omega

/-- Windows 2 and 3 hold their whole arrays at every point. -/
theorem blk2 (c : Dev nD) (t : Fin cfg5.N) : iblk5 V c 2 t = V c main_v50 := by
  obtain ⟨-, -, -, -, e0, e1, -⟩ := idx_facts t
  funext j
  show V c main_v50 (((cfg5.win 2).blk t).view.emb j) = V c main_v50 j
  congr 1
  funext a; apply Fin.ext
  match a with
  | ⟨0, _⟩ => show win5_2.index t (0 : Fin 2) * 64 + 1 * (j 0).val = (j 0).val; omega
  | ⟨1, _⟩ => show win5_2.index t (1 : Fin 2) * 256 + 1 * (j 1).val = (j 1).val; omega

theorem blk3 (c : Dev nD) (t : Fin cfg5.N) : iblk5 V c 3 t = V c main_v53 := by
  obtain ⟨-, -, -, -, -, -, e0, e1, -⟩ := idx_facts t
  funext j
  show V c main_v53 (((cfg5.win 3).blk t).view.emb j) = V c main_v53 j
  congr 1
  funext a; apply Fin.ext
  match a with
  | ⟨0, _⟩ => show win5_3.index t (0 : Fin 2) * 1 + 1 * (j 0).val = (j 0).val; omega
  | ⟨1, _⟩ => show win5_3.index t (1 : Fin 2) * 256 + 1 * (j 1).val = (j 1).val; omega

/-- The output window's block at point t, read out of a whole array, is the same selection of rows. -/
theorem read_out (t : Fin cfg5.N) (G : Gine.Mat 320000 256) :
    ((cfg5.win 4).blk t).view.read (Elt Ideal) G = Gine.rowsOf (rows t) G := by
  obtain ⟨-, -, -, -, -, -, -, -, e0, e1⟩ := idx_facts t
  funext j
  show G (((cfg5.win 4).blk t).view.emb j) = G (ix2 (rows t (j 0)) (j 1))
  congr 1
  funext a; apply Fin.ext
  match a with
  | ⟨0, _⟩ => show win5_4.index t (0 : Fin 2) * 2000 + 1 * (j 0).val = 2000 * t.val + (j 0).val; omega
  | ⟨1, _⟩ => show win5_4.index t (1 : Fin 2) * 256 + 1 * (j 1).val = (j 1).val; omega

theorem flushed_eq (c : Dev nD) (t : Fin cfg5.N) :
    (dat5 V c).flushed 4 t = ((cfg5.win 4).blk t).view.read (Elt Ideal) (Gine.msg (V c main_v48) (V c main_arg2) (V c main_v50) (Gine.rowOf (V c main_v53))) := by
  show (cfg5.win 4).cut (grid5.coords t) ((dat5 V c).after 4 t) = _
  rw [after5_4]
  unfold out5_4
  rw [View.canon_unit_zero hz]
  simp only [View.ld_unit_zero (S := S2000x256) hz, View.ld_unit_zero (S := S2000x64) hz, View.ld_unit_zero (S := S64x256) hz, View.ld_unit_zero (S := S1x256) hz]
  rw [pay_eq, blk0 V c t, blk1 V c t, blk2 V c t, blk3 V c t, Gine.msg_rowsOf]
  exact (read_out t _).symm

/-- An index of the array is in point t's block iff each coordinate is in the block's range on its axis. -/
theorem mem_blk (t : Fin cfg5.N) (i : S320000x256.Idx) :
    i ∈ ((cfg5.win 4).blk t).view.set ↔ ∀ a : Fin 2, win5_4.index t a * S2000x256.size a ≤ (i a).val ∧ (i a).val < win5_4.index t a * S2000x256.size a + S2000x256.size a := by
  show i ∈ ((View.whole main_v54).slice (win5_4.rect t)).set ↔ _
  rw [View.set_slice_whole, Rect.mem_set_unit]
  exact Iff.rfl

/-- Row i₀ lies in the block of point i₀ / 2000: the blocks tile the array. -/
theorem cover (i : S320000x256.Idx) : ∃ t : Fin cfg5.N, (cfg5.win 4).flush t = true ∧ i ∈ ((cfg5.win 4).blk t).view.set := by
  have hi0 : (i 0).val < 320000 := (i 0).isLt
  have hi1 : (i 1).val < 256 := (i 1).isLt
  have hN : cfg5.N = 160 := N_5
  refine ⟨⟨(i 0).val / 2000, by omega⟩, flush5_4 _, ?_⟩
  obtain ⟨-, -, -, -, -, -, -, -, e0, e1⟩ := idx_facts ⟨(i 0).val / 2000, by omega⟩
  rw [mem_blk]
  intro a
  match a with
  | ⟨0, _⟩ =>
    show win5_4.index _ (0 : Fin 2) * 2000 ≤ (i 0).val ∧ (i 0).val < win5_4.index _ (0 : Fin 2) * 2000 + 2000
    rw [e0]; show (i 0).val / 2000 * 2000 ≤ (i 0).val ∧ (i 0).val < (i 0).val / 2000 * 2000 + 2000; omega
  | ⟨1, _⟩ =>
    show win5_4.index _ (1 : Fin 2) * 256 ≤ (i 1).val ∧ (i 1).val < win5_4.index _ (1 : Fin 2) * 256 + 256
    rw [e1]; omega

/-- After the region the output array is the message array of the whole arrays, whatever the region found in them. -/
theorem arr (c : Dev nD) :
    (dat5 V c).arrAt 4 cfg5.N = Gine.msg (V c main_v48) (V c main_arg2) (V c main_v50) (Gine.rowOf (V c main_v53)) :=
  (dat5 V c).arrAt_eq_of_cover 4 _ (fun t _ => flushed_eq V c t) cover

end Cert.KernelIdeal.Region5

end
-- ==== Proof.Region6.lean ====
/-
  Region 6 (the node update of layer 2). The region walks the 20000 rows in ten blocks of 2000; at each block it loads
  the block of h and the block of the aggregated messages, the two whole weight matrices and the two 1×256 bias rows,
  forms max(max((h + agg)·W₁ + b₁, 0)·W₂ + b₂, 0) on the block and stores it as the same block of the output. Since
  the update acts row by row, the block of the result is the block of the update of the whole arrays; the ten blocks
  tile the output, so after the region the output array is the update of the whole arrays.
-/
import proofs.«407353_j69303592288943_1_alg».proof.Proof.Gen.KernelIdeal.Frame
import proofs.«407353_j69303592288943_1_alg».proof.Proof.LibAffine

set_option maxRecDepth 16384

noncomputable section

namespace Cert.KernelIdeal.Region6

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

theorem dot_plain : PlainDot.IsPlain dot_S2000x256_S256x256_S2000x256_1_0_0_1_n_n := ⟨rfl, rfl, rfl, rfl, rfl, rfl⟩

/-- On a block of rows the body computes the node update of the block. -/
theorem pay_eq (x0 : Vec Ideal S2000x256 .f32) (x1 : Vec Ideal S2000x256 .f32) (x2 : Vec Ideal S256x256 .f32)
    (x3 : Vec Ideal S1x256 .f32) (x4 : Vec Ideal S256x256 .f32) (x5 : Vec Ideal S1x256 .f32) :
    k6_pay1 x0 x1 x2 x3 x4 x5 = Gine.upd x0 x1 x2 (Gine.rowOf x3) x4 (Gine.rowOf x5) := by
  unfold k6_pay1
  simp only [Gine.truncf_id, shapeCast_self]
  have e_lin : ∀ (X : FVec Ideal S2000x256 .bf16) (W : FVec Ideal S256x256 .bf16) (b : Vec Ideal S1x256 .f32),
      addf (matmul dot_S2000x256_S256x256_S2000x256_1_0_0_1_n_n none X W (constant S2000x256 .f32 0x00000000#32))
        (broadcastTo S2000x256 b broadcasts_S1x256_S2000x256) = Gine.lin X W (Gine.rowOf b) :=
    fun X W b => Gine.kernel_lin _ dot_plain none X W b _
  have e_relu : ∀ Y : FVec Ideal S2000x256 .f32,
      maximumf Y (broadcast S2000x256 (Scalar.ofBits .f32 0x00000000#32)) = Gine.relu Y :=
    fun Y => Gine.kernel_relu Y
  rw [e_lin, e_relu, e_lin, e_relu]
  rfl

/-- The rows of block t. -/
def rows (t : Fin cfg6.N) : Fin 2000 → Fin 20000 := fun r => ⟨2000 * t.val + r.val, by have := t.isLt; have := r.isLt; have : cfg6.N = 10 := N_6; omega⟩

theorem idx_facts : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = t.val ∧ win6_6.index t (1 : Fin 2) = 0 :=
  (by decide +kernel : ∀ t : Fin grid6.N, _)

/-- Window 0's block at point t is rows 2000·t … of the array. -/
theorem blk0 (c : Dev nD) (t : Fin cfg6.N) : iblk6 V c 0 t = Gine.rowsOf (rows t) (V c main_v47) := by
  obtain ⟨e0, e1, -⟩ := idx_facts t
  funext j
  show V c main_v47 (((cfg6.win 0).blk t).view.emb j) = V c main_v47 (ix2 (rows t (j 0)) (j 1))
  congr 1
  funext a; apply Fin.ext
  match a with
  | ⟨0, _⟩ => show win6_0.index t (0 : Fin 2) * 2000 + 1 * (j 0).val = 2000 * t.val + (j 0).val; omega
  | ⟨1, _⟩ => show win6_0.index t (1 : Fin 2) * 256 + 1 * (j 1).val = (j 1).val; omega

/-- Window 1's block at point t is the same rows of its array. -/
theorem blk1 (c : Dev nD) (t : Fin cfg6.N) : iblk6 V c 1 t = Gine.rowsOf (rows t) (V c main_v57) := by
  obtain ⟨-, -, e0, e1, -⟩ := idx_facts t
  funext j
  show V c main_v57 (((cfg6.win 1).blk t).view.emb j) = V c main_v57 (ix2 (rows t (j 0)) (j 1))
  congr 1
  funext a; apply Fin.ext
  match a with
  | ⟨0, _⟩ => show win6_1.index t (0 : Fin 2) * 2000 + 1 * (j 0).val = 2000 * t.val + (j 0).val; omega
  | ⟨1, _⟩ => show win6_1.index t (1 : Fin 2) * 256 + 1 * (j 1).val = (j 1).val; omega

/-- Windows 2, 3, 4 and 5 hold their whole arrays at every point. -/
theorem blk2 (c : Dev nD) (t : Fin cfg6.N) : iblk6 V c 2 t = V c main_v59 := by
  obtain ⟨-, -, -, -, e0, e1, -⟩ := idx_facts t
  funext j
  show V c main_v59 (((cfg6.win 2).blk t).view.emb j) = V c main_v59 j
  congr 1
  funext a; apply Fin.ext
  match a with
  | ⟨0, _⟩ => show win6_2.index t (0 : Fin 2) * 256 + 1 * (j 0).val = (j 0).val; omega
  | ⟨1, _⟩ => show win6_2.index t (1 : Fin 2) * 256 + 1 * (j 1).val = (j 1).val; omega

theorem blk3 (c : Dev nD) (t : Fin cfg6.N) : iblk6 V c 3 t = V c main_v66 := by
  obtain ⟨-, -, -, -, -, -, e0, e1, -⟩ := idx_facts t
  funext j
  show V c main_v66 (((cfg6.win 3).blk t).view.emb j) = V c main_v66 j
  congr 1
  funext a; apply Fin.ext
  match a with
  | ⟨0, _⟩ => show win6_3.index t (0 : Fin 2) * 1 + 1 * (j 0).val = (j 0).val; omega
  | ⟨1, _⟩ => show win6_3.index t (1 : Fin 2) * 256 + 1 * (j 1).val = (j 1).val; omega

theorem blk4 (c : Dev nD) (t : Fin cfg6.N) : iblk6 V c 4 t = V c main_v63 := by
  obtain ⟨-, -, -, -, -, -, -, -, e0, e1, -⟩ := idx_facts t
  funext j
  show V c main_v63 (((cfg6.win 4).blk t).view.emb j) = V c main_v63 j
  congr 1
  funext a; apply Fin.ext
  match a with
  | ⟨0, _⟩ => show win6_4.index t (0 : Fin 2) * 256 + 1 * (j 0).val = (j 0).val; omega
  | ⟨1, _⟩ => show win6_4.index t (1 : Fin 2) * 256 + 1 * (j 1).val = (j 1).val; omega

theorem blk5 (c : Dev nD) (t : Fin cfg6.N) : iblk6 V c 5 t = V c main_v67 := by
  obtain ⟨-, -, -, -, -, -, -, -, -, -, e0, e1, -⟩ := idx_facts t
  funext j
  show V c main_v67 (((cfg6.win 5).blk t).view.emb j) = V c main_v67 j
  congr 1
  funext a; apply Fin.ext
  match a with
  | ⟨0, _⟩ => show win6_5.index t (0 : Fin 2) * 1 + 1 * (j 0).val = (j 0).val; omega
  | ⟨1, _⟩ => show win6_5.index t (1 : Fin 2) * 256 + 1 * (j 1).val = (j 1).val; omega

/-- The output window's block at point t, read out of a whole array, is the same selection of rows. -/
theorem read_out (t : Fin cfg6.N) (G : Gine.Mat 20000 256) :
    ((cfg6.win 6).blk t).view.read (Elt Ideal) G = Gine.rowsOf (rows t) G := by
  obtain ⟨-, -, -, -, -, -, -, -, -, -, -, -, e0, e1⟩ := idx_facts t
  funext j
  show G (((cfg6.win 6).blk t).view.emb j) = G (ix2 (rows t (j 0)) (j 1))
  congr 1
  funext a; apply Fin.ext
  match a with
  | ⟨0, _⟩ => show win6_6.index t (0 : Fin 2) * 2000 + 1 * (j 0).val = 2000 * t.val + (j 0).val; omega
  | ⟨1, _⟩ => show win6_6.index t (1 : Fin 2) * 256 + 1 * (j 1).val = (j 1).val; omega

theorem flushed_eq (c : Dev nD) (t : Fin cfg6.N) :
    (dat6 V c).flushed 6 t = ((cfg6.win 6).blk t).view.read (Elt Ideal)
      (Gine.upd (V c main_v47) (V c main_v57) (V c main_v59) (Gine.rowOf (V c main_v66)) (V c main_v63) (Gine.rowOf (V c main_v67))) := by
  show (cfg6.win 6).cut (grid6.coords t) ((dat6 V c).after 6 t) = _
  rw [after6_6]
  unfold out6_6
  rw [View.canon_unit_zero hz]
  simp only [View.ld_unit_zero (S := S2000x256) hz, View.ld_unit_zero (S := S256x256) hz, View.ld_unit_zero (S := S1x256) hz]
  rw [pay_eq, blk0 V c t, blk1 V c t, blk2 V c t, blk3 V c t, blk4 V c t, blk5 V c t, Gine.upd_rowsOf]
  exact (read_out t _).symm

/-- An index of the array is in point t's block iff each coordinate is in the block's range on its axis. -/
theorem mem_blk (t : Fin cfg6.N) (i : S20000x256.Idx) :
    i ∈ ((cfg6.win 6).blk t).view.set ↔ ∀ a : Fin 2, win6_6.index t a * S2000x256.size a ≤ (i a).val ∧ (i a).val < win6_6.index t a * S2000x256.size a + S2000x256.size a := by
  show i ∈ ((View.whole main_v68).slice (win6_6.rect t)).set ↔ _
  rw [View.set_slice_whole, Rect.mem_set_unit]
  exact Iff.rfl

/-- Row i₀ lies in the block of point i₀ / 2000: the blocks tile the array. -/
theorem cover (i : S20000x256.Idx) : ∃ t : Fin cfg6.N, (cfg6.win 6).flush t = true ∧ i ∈ ((cfg6.win 6).blk t).view.set := by
  have hi0 : (i 0).val < 20000 := (i 0).isLt
  have hi1 : (i 1).val < 256 := (i 1).isLt
  have hN : cfg6.N = 10 := N_6
  refine ⟨⟨(i 0).val / 2000, by omega⟩, flush6_6 _, ?_⟩
  obtain ⟨-, -, -, -, -, -, -, -, -, -, -, -, e0, e1⟩ := idx_facts ⟨(i 0).val / 2000, by omega⟩
  rw [mem_blk]
  intro a
  match a with
  | ⟨0, _⟩ =>
    show win6_6.index _ (0 : Fin 2) * 2000 ≤ (i 0).val ∧ (i 0).val < win6_6.index _ (0 : Fin 2) * 2000 + 2000
    rw [e0]; show (i 0).val / 2000 * 2000 ≤ (i 0).val ∧ (i 0).val < (i 0).val / 2000 * 2000 + 2000; omega
  | ⟨1, _⟩ =>
    show win6_6.index _ (1 : Fin 2) * 256 ≤ (i 1).val ∧ (i 1).val < win6_6.index _ (1 : Fin 2) * 256 + 256
    rw [e1]; omega

/-- After the region the output array is the node update of the whole arrays, whatever the region found in them. -/
theorem arr (c : Dev nD) :
    (dat6 V c).arrAt 6 cfg6.N = Gine.upd (V c main_v47) (V c main_v57) (V c main_v59) (Gine.rowOf (V c main_v66)) (V c main_v63) (Gine.rowOf (V c main_v67)) :=
  (dat6 V c).arrAt_eq_of_cover 6 _ (fun t _ => flushed_eq V c t) cover

end Cert.KernelIdeal.Region6

end
-- ==== Proof.KLayer2.lean ====
/-
  Round 2 of the kernel program's run, from the node features the round starts with to the node features it leaves:
  a stretch of host operations gathers the node rows along the edges, a second one slices the round's edge weights out
  of the stacks, the edge region forms the messages, a third stretch sums them at the edges' targets and slices the
  update's weights, and the node region applies the update. Each stretch's outputs are read off as functions of its
  inputs; every buffer a later segment reads is walked back to the segment that wrote it.
-/
import proofs.«407353_j69303592288943_1_alg».proof.Proof.KBase
import proofs.«407353_j69303592288943_1_alg».proof.Proof.KeepB
import proofs.«407353_j69303592288943_1_alg».proof.Proof.KeepC
import proofs.«407353_j69303592288943_1_alg».proof.Proof.Region5
import proofs.«407353_j69303592288943_1_alg».proof.Proof.Region6

set_option maxRecDepth 16384
set_option maxHeartbeats 4000000

noncomputable section

namespace Cert.KernelIdeal.KLayer2

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

/-- The node features and the gathered rows, read through their buffers' types, are the buffers' contents. -/
theorem of_h (Wc : Valuation τ sig (Elt Ideal)) (h1 : main_v47.ty = ⟨S20000x256, .f32⟩) (h2 h3) :
    (StableHlo.TRef.of (T := ⟨S20000x256, .f32⟩) main_v47 h1 h2 h3).ofBuf (Wc (Proc.devRef .tc main_v47)) = Wc (Proc.devRef .tc main_v47) := rfl
theorem to_hs (h1 : main_v48.ty = ⟨S320000x256, .f32⟩) (h2 h3) (v : FVec Ideal S320000x256 .f32) :
    (StableHlo.TRef.of (T := ⟨S320000x256, .f32⟩) main_v48 h1 h2 h3).toBuf (Val := Elt Ideal) v = v := rfl

/-- The stretch before the edge region: the gather of the node rows along the edges. -/
theorem take_W13 (c : Dev nD) :
    W13 m ρ c (Proc.devRef .tc main_v48) = KParams.take (W12 m ρ c (Proc.devRef .tc main_v1)) (W12 m ρ c (Proc.devRef .tc main_v47)) := by
  show StableHlo.after hostOps5 (W12 m ρ c) (Proc.devRef .tc main_v48) = _
  generalize W12 m ρ c = Wc
  after_results_simp
  simp only [KBase.ofBuf_toBuf, KBase.of_src, of_h, to_hs]
  rfl

/-- The next stretch: the round's edge weights, sliced out of the stacks. -/
theorem eW_W14 (c : Dev nD) : W14 m ρ c (Proc.devRef .tc main_v50) = KParams.eW2 (W13 m ρ c (Proc.devRef .tc main_arg6)) := by
  show StableHlo.after hostOps5_1 (W13 m ρ c) (Proc.devRef .tc main_v50) = _
  generalize W13 m ρ c = Wc
  after_results
  rfl

theorem eb_W14 (c : Dev nD) :
    W14 m ρ c (Proc.devRef .tc main_v53) = shapeCast S1x256 (KParams.eb2 (W13 m ρ c (Proc.devRef .tc main_arg7))) shapeCasts_S256_S1x256 := by
  show StableHlo.after hostOps5_1 (W13 m ρ c) (Proc.devRef .tc main_v53) = _
  generalize W13 m ρ c = Wc
  after_results
  rfl

/-- The edge region: the messages. -/
theorem msg_W15 (c : Dev nD) :
    W15 m ρ c (Proc.devRef .tc main_v54) = Gine.msg (W14 m ρ c (Proc.devRef .tc main_v48)) (W14 m ρ c (Proc.devRef .tc main_arg2)) (W14 m ρ c (Proc.devRef .tc main_v50))
      (Gine.rowOf (W14 m ρ c (Proc.devRef .tc main_v53))) :=
  (W15_arr m ρ c 4).trans (Region5.arr (V14 m ρ) c)

/-- The stretch before the node region: the sum of the messages at the edges' targets, and the update's weights. -/
theorem sct_W16 (c : Dev nD) :
    W16 m ρ c (Proc.devRef .tc main_v57) = KParams.sct (W15 m ρ c (Proc.devRef .tc main_v3)) (W15 m ρ c (Proc.devRef .tc main_v54)) := by
  show StableHlo.after hostOps6 (W15 m ρ c) (Proc.devRef .tc main_v57) = _
  generalize W15 m ρ c = Wc
  after_results
  rfl

theorem W1_W16 (c : Dev nD) : W16 m ρ c (Proc.devRef .tc main_v59) = KParams.mW1_2 (W15 m ρ c (Proc.devRef .tc main_arg8)) := by
  show StableHlo.after hostOps6 (W15 m ρ c) (Proc.devRef .tc main_v59) = _
  generalize W15 m ρ c = Wc
  after_results
  rfl

theorem b1_W16 (c : Dev nD) :
    W16 m ρ c (Proc.devRef .tc main_v66) = shapeCast S1x256 (KParams.mb1_2 (W15 m ρ c (Proc.devRef .tc main_arg9))) shapeCasts_S256_S1x256 := by
  show StableHlo.after hostOps6 (W15 m ρ c) (Proc.devRef .tc main_v66) = _
  generalize W15 m ρ c = Wc
  after_results
  rfl

theorem W2_W16 (c : Dev nD) : W16 m ρ c (Proc.devRef .tc main_v63) = KParams.mW2_2 (W15 m ρ c (Proc.devRef .tc main_arg10)) := by
  show StableHlo.after hostOps6 (W15 m ρ c) (Proc.devRef .tc main_v63) = _
  generalize W15 m ρ c = Wc
  after_results
  rfl

theorem b2_W16 (c : Dev nD) :
    W16 m ρ c (Proc.devRef .tc main_v67) = shapeCast S1x256 (KParams.mb2_2 (W15 m ρ c (Proc.devRef .tc main_arg11))) shapeCasts_S256_S1x256 := by
  show StableHlo.after hostOps6 (W15 m ρ c) (Proc.devRef .tc main_v67) = _
  generalize W15 m ρ c = Wc
  after_results
  rfl

/-- The node region: the update. -/
theorem upd_W17 (c : Dev nD) :
    W17 m ρ c (Proc.devRef .tc main_v68) = Gine.upd (W16 m ρ c (Proc.devRef .tc main_v47)) (W16 m ρ c (Proc.devRef .tc main_v57)) (W16 m ρ c (Proc.devRef .tc main_v59))
      (Gine.rowOf (W16 m ρ c (Proc.devRef .tc main_v66))) (W16 m ρ c (Proc.devRef .tc main_v63)) (Gine.rowOf (W16 m ρ c (Proc.devRef .tc main_v67))) :=
  (W17_arr m ρ c 6).trans (Region6.arr (V16 m ρ) c)

/-- THE ROUND: the node features after the node region are the round applied to the node features before the gather. -/
theorem round (c : Dev nD) :
    W17 m ρ c (Proc.devRef .tc main_v68)
      = (KParams.p2 (m ((c : Thread nD τ).loc main_arg1)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))).run
          (m ((c : Thread nD τ).loc main_arg2)) (W12 m ρ c (Proc.devRef .tc main_v47)) := by
  rw [upd_W17, sct_W16, W1_W16, b1_W16, W2_W16, b2_W16, msg_W15, eW_W14, eb_W14]
  rw [KeepC.at16_main_v47, KeepC.at15_main_v3, KeepB.at15_main_arg8, KeepB.at15_main_arg9, KeepB.at15_main_arg10, KeepB.at15_main_arg11,
    KeepC.at14_main_v48, KeepA.at14_main_arg2, KeepA.at13_main_arg6, KeepA.at13_main_arg7, take_W13, KeepC.at12_main_v1,
    KBase.src_W1, KBase.dst_W1]
  simp only [KBase.rowOf_reshape]
  unfold Gine.LayerP.run Gine.layer KParams.p2
  dsimp only

end Cert.KernelIdeal.KLayer2

end
-- ==== Proof.Region7.lean ====
/-
  Region 7 (the output head). The region has one grid point; every window's block is its whole array. The body forms
  z = max(g·W₁ + b₁, 0)·W₂ + b₂ and divides every row of z by the larger of the row's Euclidean norm and a small
  constant. The norm of row r is the square root of the sum over the lanes of z[r, ·]², kept as a 64×1 column and
  broadcast back over the lanes. Since the one block of the output window is the whole output array, after the region
  the output array is the output head of the whole arrays.
-/
import proofs.«407353_j69303592288943_1_alg».proof.Proof.Gen.KernelIdeal.Frame
import proofs.«407353_j69303592288943_1_alg».proof.Proof.LibAffine

set_option maxRecDepth 16384

noncomputable section

namespace Cert.KernelIdeal.Region7

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

theorem dot_plain : PlainDot.IsPlain dot_S64x256_S256x256_S64x256_1_0_0_1_n_n := ⟨rfl, rfl, rfl, rfl, rfl, rfl⟩

/-- The small constant the norm is cut off at. -/
abbrev eps : EReal := Ideal.ofBits .f32 0x2B8CBCCC#32

/-- The sum over the lane axis, read at row r: the sum over the 256 lanes of the entries of row r. -/
theorem lane_sum (X : FVec Ideal S64x256 .f32) (hφ : FKind.Formats .f32) (hacc : (0x00000000#32 : BitVec 32) = 0x00000000#32) (r : Fin 64) :
    multiReduction (F := Ideal) .add [1] S64 X 0x00000000#32 reduces_S64x256_S64 hφ hacc (ix1 r) = ∑ k : Fin 256, X (ix2 r k) := by
  refine (Ideal.multiReduction_add_single X 0x00000000#32 reduces_S64x256_S64 hφ hacc (ix1 r)).trans ?_
  refine Finset.sum_congr rfl fun k _ => congrArg X (funext fun a => Fin.ext ?_)
  match a with
  | ⟨0, _⟩ => rfl
  | ⟨1, _⟩ => rfl

/-- Rows scaled to unit length, as the body spells it: z divided by the broadcast over the lanes of the column
    max(sqrt(sum over the lanes of z²), eps). Entry (r, c) of the divisor is the column's entry (r, 0), which is the
    square root of the lane sum at r, cut off below at eps. -/
theorem kernel_unit (Z : FVec Ideal S64x256 .f32) :
    divf Z (broadcastTo S64x256
        (maximumf (sqrt (shapeCast S64x1 (multiReduction (F := Ideal) .add [1] S64 (mulf Z Z) 0x00000000#32 reduces_S64x256_S64 (.inl rfl) rfl) shapeCasts_S64_S64x1))
          (broadcast S64x1 (Scalar.ofBits .f32 0x2B8CBCCC#32))) broadcasts_S64x1_S64x256)
      = Gine.unit Z eps := by
  funext i
  obtain ⟨r, c, rfl⟩ : ∃ (r : Fin 64) (c : Fin 256), i = ix2 r c := ⟨i 0, i 1, eq_ix2 i⟩
  show Ideal.div (Z (ix2 r c)) (broadcastTo S64x256 _ broadcasts_S64x1_S64x256 (ix2 r c)) = _
  rw [broadcastTo_apply _ broadcasts_S64x1_S64x256 (ix2 r c) (ix2 r 0) (fun a => by
      match a with
      | ⟨0, _⟩ => simp
      | ⟨1, _⟩ => simp)]
  show Ideal.div (Z (ix2 r c)) (max (Ideal.sqrt (shapeCast S64x1 _ shapeCasts_S64_S64x1 (ix2 r 0))) eps) = _
  rw [shapeCast_apply _ shapeCasts_S64_S64x1 (ix2 r 0) (ix1 r) (by
      rw [Shape.rowMajor_val_one, Shape.rowMajor_val_two]; simp)]
  exact congrArg (fun s => Ideal.div (Z (ix2 r c)) (max (Ideal.sqrt s) eps)) (lane_sum (mulf Z Z) _ _ r)

/-- On its one block the body computes the output head of the block's arrays. -/
theorem pay_eq (x0 : Vec Ideal S64x256 .f32) (x1 : Vec Ideal S256x256 .f32) (x2 : Vec Ideal S1x256 .f32)
    (x3 : Vec Ideal S256x256 .f32) (x4 : Vec Ideal S1x256 .f32) :
    k7_pay1 x0 x1 x2 x3 x4 = Gine.outp x0 x1 (Gine.rowOf x2) x3 (Gine.rowOf x4) eps := by
  unfold k7_pay1
  simp only [Gine.truncf_id, shapeCast_self]
  rw [Gine.kernel_lin _ dot_plain none x0 x1 x2 _, Gine.kernel_relu, Gine.kernel_lin _ dot_plain none _ x3 x4 _]
  exact kernel_unit _

/-- At the one grid point every window's index map is (0, 0). -/
theorem idx_facts : ∀ t : Fin cfg7.N, win7_0.index t (0 : Fin 2) = 0 ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0 ∧ True :=
  (by decide +kernel : ∀ t : Fin grid7.N, _)

/-- Every input window's block is its whole array. -/
theorem blk0 (c : Dev nD) (t : Fin cfg7.N) : iblk7 V c 0 t = V c main_v80 := by
  obtain ⟨e0, e1, -⟩ := idx_facts t
  funext j
  show V c main_v80 (((cfg7.win 0).blk t).view.emb j) = V c main_v80 j
  congr 1
  funext a; apply Fin.ext
  match a with
  | ⟨0, _⟩ => show win7_0.index t (0 : Fin 2) * 64 + 1 * (j 0).val = (j 0).val; omega
  | ⟨1, _⟩ => show win7_0.index t (1 : Fin 2) * 256 + 1 * (j 1).val = (j 1).val; omega

theorem blk1 (c : Dev nD) (t : Fin cfg7.N) : iblk7 V c 1 t = V c main_arg12 := by
  obtain ⟨-, -, e0, e1, -⟩ := idx_facts t
  funext j
  show V c main_arg12 (((cfg7.win 1).blk t).view.emb j) = V c main_arg12 j
  congr 1
  funext a; apply Fin.ext
  match a with
  | ⟨0, _⟩ => show win7_1.index t (0 : Fin 2) * 256 + 1 * (j 0).val = (j 0).val; omega
  | ⟨1, _⟩ => show win7_1.index t (1 : Fin 2) * 256 + 1 * (j 1).val = (j 1).val; omega

theorem blk2 (c : Dev nD) (t : Fin cfg7.N) : iblk7 V c 2 t = V c main_v81 := by
  obtain ⟨-, -, -, -, e0, e1, -⟩ := idx_facts t
  funext j
  show V c main_v81 (((cfg7.win 2).blk t).view.emb j) = V c main_v81 j
  congr 1
  funext a; apply Fin.ext
  match a with
  | ⟨0, _⟩ => show win7_2.index t (0 : Fin 2) * 1 + 1 * (j 0).val = (j 0).val; omega
  | ⟨1, _⟩ => show win7_2.index t (1 : Fin 2) * 256 + 1 * (j 1).val = (j 1).val; omega

theorem blk3 (c : Dev nD) (t : Fin cfg7.N) : iblk7 V c 3 t = V c main_arg14 := by
  obtain ⟨-, -, -, -, -, -, e0, e1, -⟩ := idx_facts t
  funext j
  show V c main_arg14 (((cfg7.win 3).blk t).view.emb j) = V c main_arg14 j
  congr 1
  funext a; apply Fin.ext
  match a with
  | ⟨0, _⟩ => show win7_3.index t (0 : Fin 2) * 256 + 1 * (j 0).val = (j 0).val; omega
  | ⟨1, _⟩ => show win7_3.index t (1 : Fin 2) * 256 + 1 * (j 1).val = (j 1).val; omega

theorem blk4 (c : Dev nD) (t : Fin cfg7.N) : iblk7 V c 4 t = V c main_v82 := by
  obtain ⟨-, -, -, -, -, -, -, -, e0, e1, -⟩ := idx_facts t
  funext j
  show V c main_v82 (((cfg7.win 4).blk t).view.emb j) = V c main_v82 j
  congr 1
  funext a; apply Fin.ext
  match a with
  | ⟨0, _⟩ => show win7_4.index t (0 : Fin 2) * 1 + 1 * (j 0).val = (j 0).val; omega
  | ⟨1, _⟩ => show win7_4.index t (1 : Fin 2) * 256 + 1 * (j 1).val = (j 1).val; omega

/-- The output window's block, read out of a whole array, is the whole array. -/
theorem read_out (t : Fin cfg7.N) (G : Gine.Mat 64 256) :
    ((cfg7.win 5).blk t).view.read (Elt Ideal) G = G := by
  obtain ⟨-, -, -, -, -, -, -, -, -, -, e0, e1, -⟩ := idx_facts t
  funext j
  show G (((cfg7.win 5).blk t).view.emb j) = G j
  congr 1
  funext a; apply Fin.ext
  match a with
  | ⟨0, _⟩ => show win7_5.index t (0 : Fin 2) * 64 + 1 * (j 0).val = (j 0).val; omega
  | ⟨1, _⟩ => show win7_5.index t (1 : Fin 2) * 256 + 1 * (j 1).val = (j 1).val; omega

theorem flushed_eq (c : Dev nD) (t : Fin cfg7.N) :
    (dat7 V c).flushed 5 t = ((cfg7.win 5).blk t).view.read (Elt Ideal)
      (Gine.outp (V c main_v80) (V c main_arg12) (Gine.rowOf (V c main_v81)) (V c main_arg14) (Gine.rowOf (V c main_v82)) eps) := by
  show (cfg7.win 5).cut (grid7.coords t) ((dat7 V c).after 5 t) = _
  rw [after7_5]
  unfold out7_5
  rw [View.canon_unit_zero hz]
  simp only [View.ld_unit_zero (S := S64x256) hz, View.ld_unit_zero (S := S256x256) hz, View.ld_unit_zero (S := S1x256) hz]
  rw [pay_eq, blk0 V c t, blk1 V c t, blk2 V c t, blk3 V c t, blk4 V c t]
  exact (read_out t _).symm

/-- An index of the array is in point t's block iff each coordinate is in the block's range on its axis. -/
theorem mem_blk (t : Fin cfg7.N) (i : S64x256.Idx) :
    i ∈ ((cfg7.win 5).blk t).view.set ↔ ∀ a : Fin 2, win7_5.index t a * S64x256.size a ≤ (i a).val ∧ (i a).val < win7_5.index t a * S64x256.size a + S64x256.size a := by
  show i ∈ ((View.whole main_v83).slice (win7_5.rect t)).set ↔ _
  rw [View.set_slice_whole, Rect.mem_set_unit]
  exact Iff.rfl

/-- The one point's block is the whole array. -/
theorem cover (i : S64x256.Idx) : ∃ t : Fin cfg7.N, (cfg7.win 5).flush t = true ∧ i ∈ ((cfg7.win 5).blk t).view.set := by
  have hi0 : (i 0).val < 64 := (i 0).isLt
  have hi1 : (i 1).val < 256 := (i 1).isLt
  have hN : cfg7.N = 1 := N_7
  refine ⟨⟨0, by omega⟩, flush7_5 _, ?_⟩
  obtain ⟨-, -, -, -, -, -, -, -, -, -, e0, e1, -⟩ := idx_facts ⟨0, by omega⟩
  rw [mem_blk]
  intro a
  match a with
  | ⟨0, _⟩ =>
    show win7_5.index _ (0 : Fin 2) * 64 ≤ (i 0).val ∧ (i 0).val < win7_5.index _ (0 : Fin 2) * 64 + 64
    rw [e0]; omega
  | ⟨1, _⟩ =>
    show win7_5.index _ (1 : Fin 2) * 256 ≤ (i 1).val ∧ (i 1).val < win7_5.index _ (1 : Fin 2) * 256 + 256
    rw [e1]; omega

/-- After the region the output array is the output head of the whole arrays, whatever the region found in them. -/
theorem arr (c : Dev nD) :
    (dat7 V c).arrAt 5 cfg7.N = Gine.outp (V c main_v80) (V c main_arg12) (Gine.rowOf (V c main_v81)) (V c main_arg14) (Gine.rowOf (V c main_v82)) (Ideal.ofBits .f32 0x2B8CBCCC#32) :=
  (dat7 V c).arrAt_eq_of_cover 5 _ (fun t _ => flushed_eq V c t) cover

end Cert.KernelIdeal.Region7

end
-- ==== Proof.KTail.lean ====
/-
  The end of the kernel program's run: the last stretch of host operations pools the node features per graph (the sum of
  each graph's rows divided by the larger of the number of its nodes and one) and lays the head's two biases out as 1×256
  rows; the last region applies the output head.
-/
import proofs.«407353_j69303592288943_1_alg».proof.Proof.KBase
import proofs.«407353_j69303592288943_1_alg».proof.Proof.KeepB
import proofs.«407353_j69303592288943_1_alg».proof.Proof.Region7

set_option maxRecDepth 16384
set_option maxHeartbeats 4000000

noncomputable section

namespace Cert.KernelIdeal.KTail

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

/-- The last stretch: the pooled features and the head's biases. -/
theorem pool_W18 (c : Dev nD) :
    W18 m ρ c (Proc.devRef .tc main_v80) = KParams.pool (W17 m ρ c (Proc.devRef .tc main_arg3)) (W17 m ρ c (Proc.devRef .tc main_v68)) := by
  show StableHlo.after hostOps7 (W17 m ρ c) (Proc.devRef .tc main_v80) = _
  generalize W17 m ρ c = Wc
  after_results
  rfl

theorem ob1_W18 (c : Dev nD) :
    W18 m ρ c (Proc.devRef .tc main_v81) = shapeCast S1x256 (W17 m ρ c (Proc.devRef .tc main_arg13)) shapeCasts_S256_S1x256 := by
  show StableHlo.after hostOps7 (W17 m ρ c) (Proc.devRef .tc main_v81) = _
  generalize W17 m ρ c = Wc
  after_results
  rfl

theorem ob2_W18 (c : Dev nD) :
    W18 m ρ c (Proc.devRef .tc main_v82) = shapeCast S1x256 (W17 m ρ c (Proc.devRef .tc main_arg15)) shapeCasts_S256_S1x256 := by
  show StableHlo.after hostOps7 (W17 m ρ c) (Proc.devRef .tc main_v82) = _
  generalize W17 m ρ c = Wc
  after_results
  rfl

/-- The last region: the output head. -/
theorem out_W19 (c : Dev nD) :
    W19 m ρ c (Proc.devRef .tc main_v83) = Gine.outp (W18 m ρ c (Proc.devRef .tc main_v80)) (W18 m ρ c (Proc.devRef .tc main_arg12)) (Gine.rowOf (W18 m ρ c (Proc.devRef .tc main_v81)))
      (W18 m ρ c (Proc.devRef .tc main_arg14)) (Gine.rowOf (W18 m ρ c (Proc.devRef .tc main_v82))) (Ideal.ofBits .f32 0x2B8CBCCC#32) :=
  (W19_arr m ρ c 5).trans (Region7.arr (V18 m ρ) c)

/-- THE END OF THE RUN: the result is the output head of the pooled node features the last round left. -/
theorem tail (c : Dev nD) :
    W19 m ρ c (Proc.devRef .tc main_v83) = Gine.outp (KParams.pool (m ((c : Thread nD τ).loc main_arg3)) (W17 m ρ c (Proc.devRef .tc main_v68))) (m ((c : Thread nD τ).loc main_arg12)) (m ((c : Thread nD τ).loc main_arg13))
      (m ((c : Thread nD τ).loc main_arg14)) (m ((c : Thread nD τ).loc main_arg15)) (Ideal.ofBits .f32 0x2B8CBCCC#32) := by
  rw [out_W19, pool_W18, ob1_W18, ob2_W18, KeepA.at18_main_arg12, KeepA.at18_main_arg14, KeepA.at17_main_arg3,
    KeepB.at17_main_arg13, KeepB.at17_main_arg15, KBase.rowOf_reshape, KBase.rowOf_reshape]

end Cert.KernelIdeal.KTail

end
-- ==== Proof.KernelValue.lean ====
/-
  The kernel program's result as the network of the specification: the node projection, the three rounds, the pooling
  and the output head, chained along the run's boundaries.
-/
import proofs.«407353_j69303592288943_1_alg».proof.Proof.KLayer0
import proofs.«407353_j69303592288943_1_alg».proof.Proof.KLayer1
import proofs.«407353_j69303592288943_1_alg».proof.Proof.KLayer2
import proofs.«407353_j69303592288943_1_alg».proof.Proof.KTail

set_option maxRecDepth 16384

noncomputable section

namespace Cert.KernelIdeal.KernelValue

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- What the fold of the run's segments leaves in the result buffer: the network applied to the launch arrays. -/
theorem value (c : Dev nD) :
    W19 m ρ c (Proc.devRef .tc main_v83)
      = Gine.model (KParams.p0 (m ((c : Thread nD τ).loc main_arg1)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (KParams.p1 (m ((c : Thread nD τ).loc main_arg1)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (KParams.p2 (m ((c : Thread nD τ).loc main_arg1)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)))
          (KParams.pool (m ((c : Thread nD τ).loc main_arg3))) (m ((c : Thread nD τ).loc main_arg0)) (m ((c : Thread nD τ).loc main_arg4)) (m ((c : Thread nD τ).loc main_arg5)) (m ((c : Thread nD τ).loc main_arg2))
          (m ((c : Thread nD τ).loc main_arg12)) (m ((c : Thread nD τ).loc main_arg13)) (m ((c : Thread nD τ).loc main_arg14)) (m ((c : Thread nD τ).loc main_arg15)) (Ideal.ofBits .f32 0x2B8CBCCC#32) := by
  rw [KTail.tail, KLayer2.round, KLayer1.round, KLayer0.round, KBase.proj_W2]
  rfl

end Cert.KernelIdeal.KernelValue

end
-- ==== Proof.RefValue.lean ====
/-
  The reference program's value, as the network of the specification.

  The reference is a straight line of whole-array operations. Read stage by stage it is: an affine projection of the
  node features; three rounds, each a gather of node rows along the edges, an affine map of the edge attributes added
  to the gathered rows and cut off at zero, a sum of the edge rows at the edges' targets added to the node features,
  and two affine layers each cut off at zero; a per-graph mean; two affine layers with a cut-off between; and every
  row divided by the larger of its Euclidean norm and a small constant. The gathers, the sums at the targets, the
  per-graph mean and the slices of the stacked weights are kept as they stand, as functions of the index and weight
  arguments; everything else is rewritten into the specification's lin, relu, msg, upd and unit.
-/
import proofs.«407353_j69303592288943_1_alg».proof.Proof.Gen.ReferenceIdeal.Read
import proofs.«407353_j69303592288943_1_alg».proof.Proof.LibAffine
import proofs.«407353_j69303592288943_1_alg».proof.Proof.Model

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

variable (x0 : (⟨S20000x128, .f32⟩ : BufTy).Contents (Elt Ideal)) (x1 : (⟨S2x320000, .i32⟩ : BufTy).Contents (Elt Ideal))
  (x2 : (⟨S320000x64, .f32⟩ : BufTy).Contents (Elt Ideal)) (x3 : (⟨S20000, .i32⟩ : BufTy).Contents (Elt Ideal))
  (x4 : (⟨S128x256, .f32⟩ : BufTy).Contents (Elt Ideal)) (x5 : (⟨S256, .f32⟩ : BufTy).Contents (Elt Ideal))
  (x6 : (⟨S3x64x256, .f32⟩ : BufTy).Contents (Elt Ideal)) (x7 : (⟨S3x256, .f32⟩ : BufTy).Contents (Elt Ideal))
  (x8 : (⟨S3x256x256, .f32⟩ : BufTy).Contents (Elt Ideal)) (x9 : (⟨S3x256, .f32⟩ : BufTy).Contents (Elt Ideal))
  (x10 : (⟨S3x256x256, .f32⟩ : BufTy).Contents (Elt Ideal)) (x11 : (⟨S3x256, .f32⟩ : BufTy).Contents (Elt Ideal))
  (x12 : (⟨S256x256, .f32⟩ : BufTy).Contents (Elt Ideal)) (x13 : (⟨S256, .f32⟩ : BufTy).Contents (Elt Ideal))
  (x14 : (⟨S256x256, .f32⟩ : BufTy).Contents (Elt Ideal)) (x15 : (⟨S256, .f32⟩ : BufTy).Contents (Elt Ideal))

/-! ## The three rounds' rearrangements and weights, and the pooling -/

/-- Round 0: rows gathered at the edges' (wrapped) source nodes, edge rows summed into zeros at the edges' target
    nodes, and slice 0 of each stacked weight. -/
def p0 : Gine.LayerP 20000 256 320000 64 where
  gth := fun h => Host.gather gather_S20000x256_S320000x1_S320000x256_1_0_n_n_0_1_1256 h (val_main_v13 (F := Ideal) x1)
  sct := fun u => Host.scatterAdd (F := Ideal) (φ := .f32) scatter_S20000x256_S320000x1_S320000x256_1_0_0_1 (val_main_v25 (F := Ideal)) (val_main_v26 (F := Ideal) x1) u
  eW := val_main_v16 (F := Ideal) x6
  eb := val_main_v20 (F := Ideal) x7
  W1 := val_main_v30 (F := Ideal) x8
  b1 := val_main_v33 (F := Ideal) x9
  W2 := val_main_v39 (F := Ideal) x10
  b2 := val_main_v42 (F := Ideal) x11

/-- Round 1: the same rearrangements, slice 1 of each stacked weight. -/
def p1 : Gine.LayerP 20000 256 320000 64 where
  gth := fun h => Host.gather gather_S20000x256_S320000x1_S320000x256_1_0_n_n_0_1_1256 h (val_main_v52 (F := Ideal) x1)
  sct := fun u => Host.scatterAdd (F := Ideal) (φ := .f32) scatter_S20000x256_S320000x1_S320000x256_1_0_0_1 (val_main_v64 (F := Ideal)) (val_main_v65 (F := Ideal) x1) u
  eW := val_main_v55 (F := Ideal) x6
  eb := val_main_v59 (F := Ideal) x7
  W1 := val_main_v69 (F := Ideal) x8
  b1 := val_main_v72 (F := Ideal) x9
  W2 := val_main_v78 (F := Ideal) x10
  b2 := val_main_v81 (F := Ideal) x11

/-- Round 2: the same rearrangements, slice 2 of each stacked weight. -/
def p2 : Gine.LayerP 20000 256 320000 64 where
  gth := fun h => Host.gather gather_S20000x256_S320000x1_S320000x256_1_0_n_n_0_1_1256 h (val_main_v91 (F := Ideal) x1)
  sct := fun u => Host.scatterAdd (F := Ideal) (φ := .f32) scatter_S20000x256_S320000x1_S320000x256_1_0_0_1 (val_main_v103 (F := Ideal)) (val_main_v104 (F := Ideal) x1) u
  eW := val_main_v94 (F := Ideal) x6
  eb := val_main_v98 (F := Ideal) x7
  W1 := val_main_v108 (F := Ideal) x8
  b1 := val_main_v111 (F := Ideal) x9
  W2 := val_main_v117 (F := Ideal) x10
  b2 := val_main_v120 (F := Ideal) x11

/-- The per-graph mean: node rows summed into zeros at their graph's row, divided by the graph's node count (at
    least one) broadcast along the row. -/
def pool : Gine.Mat 20000 256 → Gine.Mat 64 256 := fun h =>
  Host.divf (F := Ideal) (φ := .f32) (Host.scatterAdd (F := Ideal) (φ := .f32) scatter_S64x256_S20000x1_S20000x256_1_0_0_1 (val_main_v125 (F := Ideal)) (val_main_v126 (F := Ideal) x3) h)
    (val_main_v135 (F := Ideal) x3)

/-! ## The reference's spellings of the affine map and of the cut-off, over its own shapes -/

/-- The projection's affine map. -/
theorem lin_proj (X : FVec Ideal S20000x128 .f32) (W : FVec Ideal S128x256 .f32) (b : FVec Ideal S256 .f32) :
    addf (Host.dotGeneral dot_S20000x128_S128x256_S20000x256_1_0_0_1_n_n none X W)
      (broadcastInDim S20000x256 ![0, 1] bcast_S1x256_S20000x256_0_1 (broadcastInDim S1x256 ![1] bcast_S256_S1x256_1 b))
      = Gine.lin X W b :=
  Gine.host_lin _ ⟨rfl, rfl, rfl, rfl, rfl, rfl⟩ none X W b _ _

/-- The affine map on node rows. -/
theorem lin_node (X : FVec Ideal S20000x256 .f32) (W : FVec Ideal S256x256 .f32) (b : FVec Ideal S256 .f32) :
    addf (Host.dotGeneral dot_S20000x256_S256x256_S20000x256_1_0_0_1_n_n none X W)
      (broadcastInDim S20000x256 ![0, 1] bcast_S1x256_S20000x256_0_1 (broadcastInDim S1x256 ![1] bcast_S256_S1x256_1 b))
      = Gine.lin X W b :=
  Gine.host_lin _ ⟨rfl, rfl, rfl, rfl, rfl, rfl⟩ none X W b _ _

/-- The affine map on edge rows. -/
theorem lin_edge (X : FVec Ideal S320000x64 .f32) (W : FVec Ideal S64x256 .f32) (b : FVec Ideal S256 .f32) :
    addf (Host.dotGeneral dot_S320000x64_S64x256_S320000x256_1_0_0_1_n_n none X W)
      (broadcastInDim S320000x256 ![0, 1] bcast_S1x256_S320000x256_0_1 (broadcastInDim S1x256 ![1] bcast_S256_S1x256_1 b))
      = Gine.lin X W b :=
  Gine.host_lin _ ⟨rfl, rfl, rfl, rfl, rfl, rfl⟩ none X W b _ _

/-- The affine map on graph rows. -/
theorem lin_graph (X : FVec Ideal S64x256 .f32) (W : FVec Ideal S256x256 .f32) (b : FVec Ideal S256 .f32) :
    addf (Host.dotGeneral dot_S64x256_S256x256_S64x256_1_0_0_1_n_n none X W)
      (broadcastInDim S64x256 ![0, 1] bcast_S1x256_S64x256_0_1 (broadcastInDim S1x256 ![1] bcast_S256_S1x256_1 b))
      = Gine.lin X W b :=
  Gine.host_lin _ ⟨rfl, rfl, rfl, rfl, rfl, rfl⟩ none X W b _ _

/-- The cut-off on node rows. -/
theorem relu_node (Y : FVec Ideal S20000x256 .f32) :
    maximumf Y (broadcastInDim S20000x256 ![] bcast_S_S20000x256 (constant S_ .f32 0x00000000#32)) = Gine.relu Y :=
  Gine.host_relu Y _

/-- The cut-off on edge rows. -/
theorem relu_edge (Y : FVec Ideal S320000x256 .f32) :
    maximumf Y (broadcastInDim S320000x256 ![] bcast_S_S320000x256 (constant S_ .f32 0x00000000#32)) = Gine.relu Y :=
  Gine.host_relu Y _

/-- The cut-off on graph rows. -/
theorem relu_graph (Y : FVec Ideal S64x256 .f32) :
    maximumf Y (broadcastInDim S64x256 ![] bcast_S_S64x256 (constant S_ .f32 0x00000000#32)) = Gine.relu Y :=
  Gine.host_relu Y _

/-! ## One round, over any node features, index arrays and weights -/

/-- A round as the reference spells it is the specification's layer. The edge map is added to the gathered rows
    before its bias is, where the specification adds the bias to the edge map first: addition is associative. -/
theorem round_gen (H Z : FVec Ideal S20000x256 .f32) (I J : IVec S320000x1 32) (EA : FVec Ideal S320000x64 .f32)
    (eW : FVec Ideal S64x256 .f32) (eb : FVec Ideal S256 .f32) (W1 : FVec Ideal S256x256 .f32) (b1 : FVec Ideal S256 .f32)
    (W2 : FVec Ideal S256x256 .f32) (b2 : FVec Ideal S256 .f32) :
    maximumf
      (addf
        (Host.dotGeneral dot_S20000x256_S256x256_S20000x256_1_0_0_1_n_n none
          (maximumf
            (addf
              (Host.dotGeneral dot_S20000x256_S256x256_S20000x256_1_0_0_1_n_n none
                (addf H
                  (Host.scatterAdd scatter_S20000x256_S320000x1_S320000x256_1_0_0_1 Z J
                    (maximumf
                      (addf
                        (addf (Host.gather gather_S20000x256_S320000x1_S320000x256_1_0_n_n_0_1_1256 H I)
                          (Host.dotGeneral dot_S320000x64_S64x256_S320000x256_1_0_0_1_n_n none EA eW))
                        (broadcastInDim S320000x256 ![0, 1] bcast_S1x256_S320000x256_0_1
                          (broadcastInDim S1x256 ![1] bcast_S256_S1x256_1 eb)))
                      (broadcastInDim S320000x256 ![] bcast_S_S320000x256 (constant S_ .f32 0x00000000#32)))))
                W1)
              (broadcastInDim S20000x256 ![0, 1] bcast_S1x256_S20000x256_0_1 (broadcastInDim S1x256 ![1] bcast_S256_S1x256_1 b1)))
            (broadcastInDim S20000x256 ![] bcast_S_S20000x256 (constant S_ .f32 0x00000000#32)))
          W2)
        (broadcastInDim S20000x256 ![0, 1] bcast_S1x256_S20000x256_0_1 (broadcastInDim S1x256 ![1] bcast_S256_S1x256_1 b2)))
      (broadcastInDim S20000x256 ![] bcast_S_S20000x256 (constant S_ .f32 0x00000000#32))
    = Gine.layer (fun h => Host.gather gather_S20000x256_S320000x1_S320000x256_1_0_n_n_0_1_1256 h I)
        (fun u => Host.scatterAdd (F := Ideal) (φ := .f32) scatter_S20000x256_S320000x1_S320000x256_1_0_0_1 Z J u)
        H EA eW eb W1 b1 W2 b2 := by
  rw [relu_node, lin_node, relu_node, lin_node, relu_edge]
  have e_msg : addf (addf (Host.gather gather_S20000x256_S320000x1_S320000x256_1_0_n_n_0_1_1256 H I)
        (Host.dotGeneral dot_S320000x64_S64x256_S320000x256_1_0_0_1_n_n none EA eW))
      (broadcastInDim S320000x256 ![0, 1] bcast_S1x256_S320000x256_0_1 (broadcastInDim S1x256 ![1] bcast_S256_S1x256_1 eb))
      = fun i => Host.gather gather_S20000x256_S320000x1_S320000x256_1_0_n_n_0_1_1256 H I i + Gine.lin EA eW eb i := by
    rw [← lin_edge EA eW eb]
    funext i
    exact add_assoc _ _ _
  rw [e_msg]
  rfl

/-! ## The stages of the reference -/

/-- The projection. -/
theorem proj_eq : val_main_v7 (F := Ideal) x0 x4 x5 = Gine.lin x0 x4 x5 := by
  unfold val_main_v7 val_main_v6 val_main_v5 val_main_v4
  exact lin_proj x0 x4 x5

/-- Round 0, from the projection's stage. -/
theorem round0_eq : val_main_v46 (F := Ideal) x0 x1 x2 x4 x5 x6 x7 x8 x9 x10 x11
    = (p0 x1 x6 x7 x8 x9 x10 x11).run x2 (val_main_v7 (F := Ideal) x0 x4 x5) := by
  unfold val_main_v46 val_main_v45 val_main_v44 val_main_v43 val_main_v40 val_main_v37 val_main_v36 val_main_v35
    val_main_v34 val_main_v31 val_main_v28 val_main_v27 val_main_v24 val_main_v23 val_main_v22 val_main_v21
    val_main_v18 val_main_v17 val_main_v14 val_main_call0_v0 val_main_call0_cst val_main_call1_v0 val_main_call1_cst
    val_main_call2_v0 val_main_call2_cst
  generalize val_main_v7 (F := Ideal) x0 x4 x5 = H
  exact round_gen H _ _ _ x2 _ _ _ _ _ _

/-- Round 1, from round 0's stage. -/
theorem round1_eq : val_main_v85 (F := Ideal) x0 x1 x2 x4 x5 x6 x7 x8 x9 x10 x11
    = (p1 x1 x6 x7 x8 x9 x10 x11).run x2 (val_main_v46 (F := Ideal) x0 x1 x2 x4 x5 x6 x7 x8 x9 x10 x11) := by
  unfold val_main_v85 val_main_v84 val_main_v83 val_main_v82 val_main_v79 val_main_v76 val_main_v75 val_main_v74
    val_main_v73 val_main_v70 val_main_v67 val_main_v66 val_main_v63 val_main_v62 val_main_v61 val_main_v60
    val_main_v57 val_main_v56 val_main_v53 val_main_call3_v0 val_main_call3_cst val_main_call4_v0 val_main_call4_cst
    val_main_call5_v0 val_main_call5_cst
  generalize val_main_v46 (F := Ideal) x0 x1 x2 x4 x5 x6 x7 x8 x9 x10 x11 = H
  exact round_gen H _ _ _ x2 _ _ _ _ _ _

/-- Round 2, from round 1's stage. -/
theorem round2_eq : val_main_v124 (F := Ideal) x0 x1 x2 x4 x5 x6 x7 x8 x9 x10 x11
    = (p2 x1 x6 x7 x8 x9 x10 x11).run x2 (val_main_v85 (F := Ideal) x0 x1 x2 x4 x5 x6 x7 x8 x9 x10 x11) := by
  unfold val_main_v124 val_main_v123 val_main_v122 val_main_v121 val_main_v118 val_main_v115 val_main_v114 val_main_v113
    val_main_v112 val_main_v109 val_main_v106 val_main_v105 val_main_v102 val_main_v101 val_main_v100 val_main_v99
    val_main_v96 val_main_v95 val_main_v92 val_main_call6_v0 val_main_call6_cst val_main_call7_v0 val_main_call7_cst
    val_main_call8_v0 val_main_call8_cst
  generalize val_main_v85 (F := Ideal) x0 x1 x2 x4 x5 x6 x7 x8 x9 x10 x11 = H
  exact round_gen H _ _ _ x2 _ _ _ _ _ _

/-- The pooling, from round 2's stage. -/
theorem pool_eq : val_main_v136 (F := Ideal) x0 x1 x2 x3 x4 x5 x6 x7 x8 x9 x10 x11
    = pool x3 (val_main_v124 (F := Ideal) x0 x1 x2 x4 x5 x6 x7 x8 x9 x10 x11) := by
  unfold val_main_v136 val_main_v127
  generalize val_main_v124 (F := Ideal) x0 x1 x2 x4 x5 x6 x7 x8 x9 x10 x11 = H
  rfl

/-- The head's two affine layers, from the pooling's stage. -/
theorem mlp_eq : val_main_v145 (F := Ideal) x0 x1 x2 x3 x4 x5 x6 x7 x8 x9 x10 x11 x12 x13 x14 x15
    = Gine.lin (Gine.relu (Gine.lin (val_main_v136 (F := Ideal) x0 x1 x2 x3 x4 x5 x6 x7 x8 x9 x10 x11) x12 x13)) x14 x15 := by
  unfold val_main_v145 val_main_v144 val_main_v143 val_main_v142 val_main_v141 val_main_v140 val_main_v139 val_main_v138
    val_main_v137 val_main_call9_v0 val_main_call9_cst
  generalize val_main_v136 (F := Ideal) x0 x1 x2 x3 x4 x5 x6 x7 x8 x9 x10 x11 = G
  rw [lin_graph, relu_graph, lin_graph]

/-- Division of every row by the larger of its Euclidean norm and the constant, as the reference spells it: the
    squares summed along the row from zero, the sums set as a column, the root, the larger of it and the constant set
    as a column, the column spread along the rows. -/
theorem unit_gen (Z : FVec Ideal S64x256 .f32) :
    Host.divf Z
      (broadcastInDim S64x256 ![0, 1] bcast_S64x1_S64x256_0_1
        (maximumf
          (Host.sqrt
            (broadcastInDim S64x1 ![0] bcast_S64_S64x1_0
              (Host.reduceAdd (mulf Z Z) (constant S_ .f32 0x00000000#32) reducesTo_S64x256_S64_d1 h_S_)))
          (broadcastInDim S64x1 ![] bcast_S_S64x1 (constant S_ .f32 0x2B8CBCCC#32))))
      = Gine.unit Z (Ideal.ofBits .f32 0x2B8CBCCC#32) := by
  funext i
  obtain ⟨r, c, rfl⟩ : ∃ (r : Fin 64) (c : Fin 256), i = ix2 r c := ⟨i 0, i 1, eq_ix2 i⟩
  -- the row's sum of squares, read at the row: the sum starts from the zero word, which is 0
  have e_sum : Host.reduceAdd (mulf Z Z) (constant S_ .f32 0x00000000#32) reducesTo_S64x256_S64_d1 h_S_ (ix1 r)
      = ∑ k : Fin 256, Z (ix2 r k) * Z (ix2 r k) := by
    simp only [Host.reduceAdd, Ideal.hostReduceAdd_def]
    rw [Ideal.hostReduceAdd_single reducesTo_S64x256_S64_d1 (by decide)]
    have e0 : constant (F := Ideal) S_ .f32 0x00000000#32 (Shape.Idx.first h_S_) = (0 : EReal) := Ideal.ofBits_zero_f32
    rw [e0, zero_add]
    refine Finset.sum_congr rfl fun k _ => ?_
    have ej : ∀ j : S64x256.Idx, j = ix2 r k → mulf Z Z j = Z (ix2 r k) * Z (ix2 r k) := fun j hj => by rw [hj]; rfl
    exact ej _ (funext fun a => Fin.ext (by match a with | ⟨0, _⟩ => rfl | ⟨1, _⟩ => rfl))
  -- the divisor at (r, c) is the column's entry at row r
  show Ideal.div (Z (ix2 r c))
      (broadcastInDim S64x256 ![0, 1] bcast_S64x1_S64x256_0_1
        (maximumf
          (Host.sqrt
            (broadcastInDim S64x1 ![0] bcast_S64_S64x1_0
              (Host.reduceAdd (mulf Z Z) (constant S_ .f32 0x00000000#32) reducesTo_S64x256_S64_d1 h_S_)))
          (broadcastInDim S64x1 ![] bcast_S_S64x1 (constant S_ .f32 0x2B8CBCCC#32))) (ix2 r c))
    = Ideal.div (Z (ix2 r c)) (max (Ideal.sqrt (∑ k : Fin 256, Z (ix2 r k) * Z (ix2 r k))) (Ideal.ofBits .f32 0x2B8CBCCC#32))
  rw [broadcastInDim_apply _ bcast_S64x1_S64x256_0_1 _ (ix2 r c) (ix2 r 0) (fun a => match a with
    | ⟨0, _⟩ => by show r.val = if (64 : Nat) = 1 then 0 else r.val; rw [if_neg (by decide)]
    | ⟨1, _⟩ => by show 0 = if (1 : Nat) = 1 then 0 else c.val; rw [if_pos rfl])]
  show Ideal.div (Z (ix2 r c))
      (max (Ideal.sqrt (broadcastInDim S64x1 ![0] bcast_S64_S64x1_0
              (Host.reduceAdd (mulf Z Z) (constant (F := Ideal) S_ .f32 0x00000000#32) reducesTo_S64x256_S64_d1 h_S_) (ix2 r 0)))
        (broadcastInDim S64x1 ![] bcast_S_S64x1 (constant (F := Ideal) S_ .f32 0x2B8CBCCC#32) (ix2 r 0))) = _
  rw [broadcastInDim_apply _ bcast_S64_S64x1_0 _ (ix2 r 0) (ix1 r) (fun a => match a with
    | ⟨0, _⟩ => by show r.val = if (64 : Nat) = 1 then 0 else r.val; rw [if_neg (by decide)]),
    e_sum, StableHlo.Predicate.bcast_scalar bcast_S_S64x1 h_S_ _ _]
  rfl

/-- The rows scaled to unit length, from the head's second affine layer. -/
theorem norm_eq : val_main_v150 (F := Ideal) x0 x1 x2 x3 x4 x5 x6 x7 x8 x9 x10 x11 x12 x13 x14 x15
    = Gine.unit (val_main_v145 (F := Ideal) x0 x1 x2 x3 x4 x5 x6 x7 x8 x9 x10 x11 x12 x13 x14 x15)
        (Ideal.ofBits .f32 0x2B8CBCCC#32) := by
  unfold val_main_v150 val_main_v149 val_main_v148 val_main_v147 val_main_cst_11 val_main_v146 val_main_call10_v2
    val_main_call10_v1 val_main_call10_cst val_main_call10_v0
  generalize val_main_v145 (F := Ideal) x0 x1 x2 x3 x4 x5 x6 x7 x8 x9 x10 x11 x12 x13 x14 x15 = Z
  exact unit_gen Z

/-- The output head, from the pooling's stage. -/
theorem head_eq : val_main_v150 (F := Ideal) x0 x1 x2 x3 x4 x5 x6 x7 x8 x9 x10 x11 x12 x13 x14 x15
    = Gine.outp (val_main_v136 (F := Ideal) x0 x1 x2 x3 x4 x5 x6 x7 x8 x9 x10 x11) x12 x13 x14 x15
        (Ideal.ofBits .f32 0x2B8CBCCC#32) := by
  rw [norm_eq, mlp_eq]
  rfl

/-! ## The whole reference -/

/-- The reference's result is the network: the projection, the three rounds, the pooling, the head. -/
theorem ref_value : val_main_v150 (F := Ideal) x0 x1 x2 x3 x4 x5 x6 x7 x8 x9 x10 x11 x12 x13 x14 x15
    = Gine.model (p0 x1 x6 x7 x8 x9 x10 x11) (p1 x1 x6 x7 x8 x9 x10 x11) (p2 x1 x6 x7 x8 x9 x10 x11) (pool x3)
        x0 x4 x5 x2 x12 x13 x14 x15 (Ideal.ofBits .f32 0x2B8CBCCC#32) := by
  rw [head_eq, pool_eq, round2_eq, round1_eq, round0_eq, proj_eq]
  rfl

end Cert.ReferenceIdeal.RefValue

end
-- ==== Proof.TakeEq.lean ====
/-
  The kernel's gather is the plain gather when every index is a row of the table. An index in [0, 20000) is not below
  zero, so its wrap is itself; it passes both bounds of the table test, so the and-reduction over the one-entry axis is
  the bit 1 at every edge; the select on that bit keeps the gathered row and never the not-a-number word.
-/
import proofs.«407353_j69303592288943_1_alg».proof.Proof.KParams
import Idealize.ShloMosaic.Lib.ValueIdx
import Idealize.ShloMosaic.Lib.ReduceAll
import Idealize.ShloMosaic.Lib.StableHlo.Predicate
import Idealize.ShloMosaic.Lib.Pipeline.Value

namespace Cert.KernelIdeal.TakeEq

open Cert.KernelIdeal Cert.KernelIdeal.Facts₀ Cert.KernelIdeal.Facts
open Idealize.ShloMosaic Idealize.ShloMosaic.ValueIdx

/-! ## One word in [0, 20000) -/

/-- A word whose signed value is in [0, 20000) has that value unsigned too. -/
theorem toNat_lt (w : BitVec 32) (h0 : 0 ≤ w.toInt) (h1 : w.toInt < 20000) : w.toNat < 20000 := by
  have hw := w.isLt
  rw [BitVec.toInt_eq_toNat_cond] at h0 h1
  split at h0 <;> omega

/-- A bit that is not 1 is 0. -/
theorem bit_eq_zero : ∀ b : BitVec 1, b ≠ 1#1 → b = 0#1 := by decide

/-- Such a word is not below zero. -/
theorem slt_zero (w : BitVec 32) (h0 : 0 ≤ w.toInt) (h1 : w.toInt < 20000) : IntOp.cmpi .slt w 0#32 = 0#1 := by
  have hn := toNat_lt w h0 h1
  refine bit_eq_zero _ fun h => ?_
  have := (StableHlo.Predicate.slt_iff_toNat (a := w) (b := 0#32) (by omega) (by decide)).1 h
  exact absurd this (by simp)

/-- Such a word is at least zero. -/
theorem sge_zero (w : BitVec 32) (h0 : 0 ≤ w.toInt) (h1 : w.toInt < 20000) : IntOp.cmpi .sge w 0#32 = 1#1 := by
  have hn := toNat_lt w h0 h1
  exact (StableHlo.Predicate.sge_iff_toNat (a := w) (b := 0#32) (by omega) (by decide)).2 (by simp)

/-- Such a word is at most the last row, 19999. -/
theorem sle_last (w : BitVec 32) (h0 : 0 ≤ w.toInt) (h1 : w.toInt < 20000) : IntOp.cmpi .sle w 19999#32 = 1#1 := by
  have hn := toNat_lt w h0 h1
  refine (StableHlo.Predicate.sle_iff_toNat (a := w) (b := 19999#32) (by omega) (by decide)).2 ?_
  show w.toNat ≤ 19999
  omega

/-- The wrap of such a word is the word: the select reads the bit 0. -/
theorem wrap_word (w : BitVec 32) (h0 : 0 ≤ w.toInt) (h1 : w.toInt < 20000) :
    Scalar.select (IntOp.cmpi .slt w 0#32) (IntOp.addi w 20000#32) w = w := by
  rw [slt_zero w h0 h1, select_zero]

/-- The table test of such a word is the bit 1. -/
theorem test_word (w : BitVec 32) (h0 : 0 ≤ w.toInt) (h1 : w.toInt < 20000) :
    IntOp.andi (IntOp.cmpi .sge w 0#32) (IntOp.cmpi .sle w 19999#32) = 1#1 := by
  rw [sge_zero w h0 h1, sle_last w h0 h1]; decide

/-! ## The and-fold -/

/-- A left fold by and, from the bit 1, over entries that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = (1#1 : BitVec 1) from by decide]
    exact foldl_andi_one f hf l

/-! ## The vectors -/

section Vectors

variable (s : IVec S320000 32) (hs : ∀ i : S320000.Idx, 0 ≤ (s i).toInt ∧ (s i).toInt < 20000)

include hs

/-- Every wrapped index is the index. -/
theorem wrap_apply (e : S320000.Idx) : KParams.wrap s e = s e :=
  wrap_word (s e) (hs e).1 (hs e).2

/-- Every entry of the column is a word in [0, 20000). -/
theorem col_range (i : S320000x1.Idx) : 0 ≤ (KParams.col s i).toInt ∧ (KParams.col s i).toInt < 20000 := by
  unfold KParams.col
  simp only [broadcastInDim]
  rw [wrap_apply s hs]
  exact hs _

/-- Every edge's index is a row of the table. -/
theorem inTable_apply (e : S320000.Idx) : KParams.inTable s e = 1#1 := by
  unfold KParams.inTable
  rw [Host.reduce_eq_foldl]
  exact foldl_andi_one _ (fun i => test_word (KParams.col s i) (col_range s hs i).1 (col_range s hs i).2) _

end Vectors

/-- The kernel's gather is the plain gather. -/
theorem take_eq (s : IVec S320000 32) (hs : ∀ i : S320000.Idx, 0 ≤ (s i).toInt ∧ (s i).toInt < 20000)
    (h : FVec Ideal S20000x256 .f32) : KParams.take s h = KParams.rowsAt s h := by
  funext j
  unfold KParams.take
  rw [select_apply]
  have hb : broadcastInDim S320000x256 ![0] bcast_S320000_S320000x256_0 (KParams.inTable s) j = 1#1 := by
    simp only [broadcastInDim]
    exact inTable_apply s hs _
  rw [hb, select_one]

end Cert.KernelIdeal.TakeEq
-- ==== Proof.Bridge.lean ====
/-
  The two programs' host-side pieces are the same functions. Both cut the same slices out of the stacked weights, sum
  edge rows at the edges' targets with the same scatter-add into zeros, and pool with the same per-graph mean; they are
  printed twice, once per program, over definitionally equal shape names. The one real difference is the gather along
  edges: the reference takes the rows at the wrapped indices, the kernel program moreover replaces the rows of indices
  outside the node table by the not-a-number word — which changes nothing when every source index is a row of the
  table, as the precondition says.
-/
import proofs.«407353_j69303592288943_1_alg».proof.Proof.KParams
import proofs.«407353_j69303592288943_1_alg».proof.Proof.RefValue
import proofs.«407353_j69303592288943_1_alg».proof.Proof.TakeEq

set_option maxRecDepth 16384

noncomputable section

namespace Cert.Bridge

open Idealize.ShloMosaic

variable (a1 : IVec Cert.KernelIdeal.S2x320000 32) (a3 : IVec Cert.KernelIdeal.S20000 32)
  (a6 : FVec Ideal Cert.KernelIdeal.S3x64x256 .f32) (a7 : FVec Ideal Cert.KernelIdeal.S3x256 .f32)
  (a8 : FVec Ideal Cert.KernelIdeal.S3x256x256 .f32) (a9 : FVec Ideal Cert.KernelIdeal.S3x256 .f32)
  (a10 : FVec Ideal Cert.KernelIdeal.S3x256x256 .f32) (a11 : FVec Ideal Cert.KernelIdeal.S3x256 .f32)

/-- The pooling is the same function. -/
theorem pool_eq : Cert.KernelIdeal.KParams.pool a3 = Cert.ReferenceIdeal.RefValue.pool a3 := rfl

section
variable (hs : ∀ i : Cert.KernelIdeal.S320000.Idx, 0 ≤ (Cert.KernelIdeal.KParams.src a1 i).toInt ∧ (Cert.KernelIdeal.KParams.src a1 i).toInt < 20000)
include hs

/-- With every source index a row of the table, each round of the kernel program is the reference's round. -/
theorem p0_eq : Cert.KernelIdeal.KParams.p0 a1 a6 a7 a8 a9 a10 a11 = Cert.ReferenceIdeal.RefValue.p0 a1 a6 a7 a8 a9 a10 a11 := by
  have hg : Cert.KernelIdeal.KParams.take (Cert.KernelIdeal.KParams.src a1) = Cert.KernelIdeal.KParams.rowsAt (Cert.KernelIdeal.KParams.src a1) :=
    funext fun h => Cert.KernelIdeal.TakeEq.take_eq _ hs h
  unfold Cert.KernelIdeal.KParams.p0
  rw [hg]
  rfl

theorem p1_eq : Cert.KernelIdeal.KParams.p1 a1 a6 a7 a8 a9 a10 a11 = Cert.ReferenceIdeal.RefValue.p1 a1 a6 a7 a8 a9 a10 a11 := by
  have hg : Cert.KernelIdeal.KParams.take (Cert.KernelIdeal.KParams.src a1) = Cert.KernelIdeal.KParams.rowsAt (Cert.KernelIdeal.KParams.src a1) :=
    funext fun h => Cert.KernelIdeal.TakeEq.take_eq _ hs h
  unfold Cert.KernelIdeal.KParams.p1
  rw [hg]
  rfl

theorem p2_eq : Cert.KernelIdeal.KParams.p2 a1 a6 a7 a8 a9 a10 a11 = Cert.ReferenceIdeal.RefValue.p2 a1 a6 a7 a8 a9 a10 a11 := by
  have hg : Cert.KernelIdeal.KParams.take (Cert.KernelIdeal.KParams.src a1) = Cert.KernelIdeal.KParams.rowsAt (Cert.KernelIdeal.KParams.src a1) :=
    funext fun h => Cert.KernelIdeal.TakeEq.take_eq _ hs h
  unfold Cert.KernelIdeal.KParams.p2
  rw [hg]
  rfl

end

end Cert.Bridge

end
-- ==== Proof.PreRange.lean ====
/-
  The index range read out of the precondition. The precondition's last conjunct says of row 0 of the edge list
  (every edge's source node) that each entry e satisfies 0 ≤ e and e < 20000, signed: the two comparisons against
  broadcast scalars, joined by and, and-reduced over all 320000 entries, and joined by and to the float conjuncts.
  Read back: a conjunction that is 1 has both sides 1; an all-reduction that is 1 had 1 at every entry; a signed
  comparison that is 1 is the order of the signed values.
-/
import proofs.«407353_j69303592288943_1_alg».proof.Defs
import proofs.«407353_j69303592288943_1_alg».proof.Proof.Gen.Pre_finite_inputs
import proofs.«407353_j69303592288943_1_alg».proof.Proof.Gen.KernelIdeal
import proofs.«407353_j69303592288943_1_alg».proof.Proof.KParams
import Idealize.ShloMosaic.Lib.ReduceAll
import Idealize.ShloMosaic.Lib.ValueIdx
import Idealize.ShloMosaic.Lib.StableHlo.Predicate

noncomputable section

namespace Cert.KernelIdeal.PreRange

open Idealize.ShloMosaic Idealize.SL.Sem

/-- The rank-0 shape has one index. -/
instance : Subsingleton Cert.Pre_finite_inputs.S_.Idx := ⟨fun a b => funext fun d => d.elim0⟩

/-- The last part of the precondition, the float conjuncts p and q kept as given words: if it is 1 then every entry
    of row 0 of the edge list lies in 0 ≤ · < 20000 as a signed value. -/
theorem part4_range (a1 : IVec Cert.Pre_finite_inputs.S2x320000 32) (p q : IVec Cert.Pre_finite_inputs.S_ 1)
    (e : Cert.Pre_finite_inputs.fn_part4 (F := Ideal) a1 p q ValueIdx.ix0 = 1#1) (i : Cert.Pre_finite_inputs.S320000.Idx) :
    0 ≤ (shapeCast Cert.Pre_finite_inputs.S320000
          (extractStridedSlice Cert.Pre_finite_inputs.S1x320000 ![0, 0] a1 Cert.Pre_finite_inputs.Facts.slices_S2x320000_S1x320000_0_0)
          Cert.Pre_finite_inputs.Facts.shapeCasts_S1x320000_S320000 i).toInt
    ∧ (shapeCast Cert.Pre_finite_inputs.S320000
          (extractStridedSlice Cert.Pre_finite_inputs.S1x320000 ![0, 0] a1 Cert.Pre_finite_inputs.Facts.slices_S2x320000_S1x320000_0_0)
          Cert.Pre_finite_inputs.Facts.shapeCasts_S1x320000_S320000 i).toInt < 20000 := by
  unfold Cert.Pre_finite_inputs.fn_part4 at e
  -- the outer conjunction: its right side is the all-reduction
  have e2 := (IntOp.andi_eq_one.1 e).2
  -- the all-reduction is 1: the reduced array is 1 at every entry
  have e3 := Host.reduce_andi_all _ _ _ _ _ e2 i
  -- the inner conjunction: both comparisons are 1 at entry i
  obtain ⟨hge, hlt⟩ := IntOp.andi_eq_one.1 e3
  -- a signed comparison that is 1 is the order of the signed values; a broadcast scalar constant is that constant
  have hge' := IntOp.cmpi_sge.1 hge
  have hlt' := IntOp.cmpi_slt.1 hlt
  simp only [broadcastInDim, constantI] at hge' hlt'
  rw [show (0#32 : BitVec 32).toInt = 0 from by decide] at hge'
  rw [show (20000#32 : BitVec 32).toInt = 20000 from by decide] at hlt'
  exact ⟨hge', hlt'⟩

/-- Under the precondition every edge's source node is a row of the node table: 0 ≤ src i < 20000, signed. -/
theorem src_in_range (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S320000.Idx) :
    0 ≤ (Cert.KernelIdeal.KParams.src (m ((c.tc : Thread Cert.KernelIdeal.nD Cert.KernelIdeal.τ).loc Cert.KernelIdeal.main_arg1)) i).toInt
    ∧ (Cert.KernelIdeal.KParams.src (m ((c.tc : Thread Cert.KernelIdeal.nD Cert.KernelIdeal.τ).loc Cert.KernelIdeal.main_arg1)) i).toInt < 20000 := by
  -- the precondition at device c, at the one index of its rank-0 result; its text ends in the last part, whose
  -- first argument is the edge list and whose other two are the float conjuncts
  have e : Cert.Pre_finite_inputs.fn_part4 (F := Ideal)
      (m ((c.tc : Thread Cert.KernelIdeal.nD Cert.KernelIdeal.τ).loc Cert.KernelIdeal.main_arg1)) _ _ ValueIdx.ix0 = 1#1 :=
    congrFun (hpre c) ValueIdx.ix0
  -- the source row is the same slice and reshape, over shape names and shape facts that are the same
  exact part4_range _ _ _ e i

end Cert.KernelIdeal.PreRange

end
-- ==== Proof.lean ====
/-
  Both programs compute one graph network over the extended reals.

  Node features are projected by an affine map x·W + b. Three times, every edge forms the message
  max(h[src] + (a·Wₑ + bₑ), 0) from its source node's row and its own attributes, every node adds up the messages of the
  edges pointing at it, and two affine layers, each followed by max(·, 0), update the node from h + sum. The nodes are
  averaged per graph (sum over the larger of the count and one), two more affine layers with max(·, 0) between them
  are applied, and every row is divided by the larger of its Euclidean norm and 10⁻¹² as a 32-bit float.

  The kernel program computes the affine layers block of rows by block of rows in eight regions (matrix products into
  zeros, a bias row broadcast over the rows), with the gather along edges, the sums and the pooling done by whole-array
  operations between the regions; the reference computes everything by whole-array operations. Entry by entry an
  affine layer is (∑ₖ X[r,k]·W[k,c]) + b[c] on both sides (a change of float format is the identity on the extended
  reals), and it acts on every row by itself, so the blocks of the regions' outputs are the blocks of the whole-array
  layers. The only law of arithmetic used is associativity of addition, (g + d) + b = g + (d + b), which holds on the
  extended reals without any finiteness. The one place the programs differ is the gather: the reference reads the row
  at each (wrapped, clamped) source index, the kernel program replaces rows of indices outside the node table by the
  not-a-number word. Under the precondition every source index is a row of the table, 0 ≤ src < 20000, and the two
  gathers agree.

  The three frame claims are the generated frames (the reference's: its generated run with the result dropped); the
  ideal pass rewrote nothing, so the preservation claim is trivial.
-/
import proofs.«407353_j69303592288943_1_alg».proof.Defs
import proofs.«407353_j69303592288943_1_alg».proof.Proof.Gen.Kernel
import proofs.«407353_j69303592288943_1_alg».proof.Proof.Gen.Kernel.Skeleton
import proofs.«407353_j69303592288943_1_alg».proof.Proof.Gen.Kernel.Launch
import proofs.«407353_j69303592288943_1_alg».proof.Proof.Gen.Kernel.Points
import proofs.«407353_j69303592288943_1_alg».proof.Proof.Gen.Kernel.Frame
import proofs.«407353_j69303592288943_1_alg».proof.Proof.Gen.KernelIdeal
import proofs.«407353_j69303592288943_1_alg».proof.Proof.Gen.KernelIdeal.Skeleton
import proofs.«407353_j69303592288943_1_alg».proof.Proof.Gen.KernelIdeal.Launch
import proofs.«407353_j69303592288943_1_alg».proof.Proof.Gen.KernelIdeal.Points
import proofs.«407353_j69303592288943_1_alg».proof.Proof.Gen.KernelIdeal.Frame
import proofs.«407353_j69303592288943_1_alg».proof.Proof.Gen.ReferenceIdeal
import proofs.«407353_j69303592288943_1_alg».proof.Proof.Gen.ReferenceIdeal.Run
import proofs.«407353_j69303592288943_1_alg».proof.Proof.Gen.ReferenceIdeal.Read
import proofs.«407353_j69303592288943_1_alg».proof.Proof.Gen.Pre_finite_inputs
import proofs.«407353_j69303592288943_1_alg».proof.Proof.KernelRun
import proofs.«407353_j69303592288943_1_alg».proof.Proof.KernelValue
import proofs.«407353_j69303592288943_1_alg».proof.Proof.RefValue
import proofs.«407353_j69303592288943_1_alg».proof.Proof.Bridge
import proofs.«407353_j69303592288943_1_alg».proof.Proof.PreRange
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the network of the launch arrays in their result:
    the kernel program by the fold of its run's segments, the reference by its run read stage by stage; their host-side
    pieces are the same functions, the gathers agreeing because the precondition keeps every source index inside the
    node table. -/
theorem algebraic : Cert.algebraic_KernelIdeal_ReferenceIdeal := by
  intro m ρ m' ρ' hpre hagree
  refine ⟨fun c => Cert.KernelIdeal.Gen.W19 m ρ c (Proc.devRef .tc Cert.KernelIdeal.main_v83),
    Cert.KernelIdeal.KernelRun.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14, e15⟩ := hagree c
  have hs := fun i => Cert.KernelIdeal.PreRange.src_in_range m hpre c i
  show Cert.ReferenceIdeal.Value.res_main_v150 m' c = Cert.KernelIdeal.Gen.W19 m ρ c (Proc.devRef .tc Cert.KernelIdeal.main_v83)
  rw [Cert.ReferenceIdeal.Read.val_main_v150_eq, e0, e1, e2, e3, e4, e5, e6, e7, e8, e9, e10, e11, e12, e13, e14, e15, Cert.ReferenceIdeal.RefValue.ref_value,
    Cert.KernelIdeal.KernelValue.value, Cert.Bridge.p0_eq _ _ _ _ _ _ _ hs, Cert.Bridge.p1_eq _ _ _ _ _ _ _ hs,
    Cert.Bridge.p2_eq _ _ _ _ _ _ _ hs, Cert.Bridge.pool_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
